-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S32000x2048 : Shape := ⟨2, ![32000, 2048]⟩
abbrev S4x2048 : Shape := ⟨2, ![4, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S4x2048 : S_.BroadcastsInDim S4x2048 (![] : Fin 0 → Fin S4x2048.rank)
  reducesTo_S4x2048_S_d0_1 : S4x2048.ReducesTo [0, 1] S_

variable [Facts]

def fn_part1 {F : FTy → Type} [FloatOps F] (main_v8 : IVec S_ 1) (main_v16 : IVec S4x2048 1) : IVec S_ 1 :=
  let main_c_5 : IVec S_ 1 := constantI S_ 1 1#1
  let main_v17 : IVec S_ 1 := (fun x v => Host.reduce IntOp.andi x v reducesTo_S4x2048_S_d0_1 h_S_) main_v16 main_c_5
  let main_v18 : IVec S_ 1 := andi main_v8 main_v17
  main_v18

def fn {F : FTy → Type} [FloatOps F] (main_arg0 : FVec F S4x2048x2048 .f32) (main_arg1 : FVec F S32000x2048 .f32) (main_arg2 : IVec S4x2048 32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S32000x2048 .f32 := Host.absf main_arg1
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  let main_c_2 : IVec S_ 32 := constantI S_ 32 0#32
  let main_v9 : IVec S4x2048 32 := broadcastInDim S4x2048 ![] bcast_S_S4x2048 main_c_2
  let main_v10 : IVec S4x2048 1 := cmpi .sge main_arg2 main_v9
  let main_c_3 : IVec S_ 32 := constantI S_ 32 32000#32
  let main_v11 : IVec S4x2048 32 := broadcastInDim S4x2048 ![] bcast_S_S4x2048 main_c_3
  let main_v12 : IVec S4x2048 1 := cmpi .slt main_arg2 main_v11
  let main_v13 : IVec S4x2048 1 := andi main_v10 main_v12
  let main_c_4 : IVec S_ 32 := constantI S_ 32 4294967196#32
  let main_v14 : IVec S4x2048 32 := broadcastInDim S4x2048 ![] bcast_S_S4x2048 main_c_4
  let main_v15 : IVec S4x2048 1 := cmpi .eq main_arg2 main_v14
  let main_v16 : IVec S4x2048 1 := ori main_v13 main_v15
  fn_part1 (F := F) main_v8 main_v16
-- ==== Kernel.lean ====
abbrev S4x2048x2048 : Shape := ⟨3, ![4, 2048, 2048]⟩
abbrev S32000x2048 : Shape := ⟨2, ![32000, 2048]⟩
abbrev S4x2048 : Shape := ⟨2, ![4, 2048]⟩
abbrev S4x2047 : Shape := ⟨2, ![4, 2047]⟩
abbrev S_ : Shape := ⟨0, ![]⟩
abbrev S4x1 : Shape := ⟨2, ![4, 1]⟩
abbrev S8192 : Shape := ⟨1, ![8192]⟩
abbrev S8192x2048 : Shape := ⟨2, ![8192, 2048]⟩
abbrev S8192x1 : Shape := ⟨2, ![8192, 1]⟩
abbrev S1024x2048 : Shape := ⟨2, ![1024, 2048]⟩
abbrev S1280x2048 : Shape := ⟨2, ![1280, 2048]⟩
abbrev S1024x1 : Shape := ⟨2, ![1024, 1]⟩
abbrev S1024x256 : Shape := ⟨2, ![1024, 256]⟩
abbrev S256x2048 : Shape := ⟨2, ![256, 2048]⟩
abbrev S1024 : Shape := ⟨1, ![1024]⟩

abbrev nBuf : Space → Nat
  | .hbm => 23
  | .vmem => 11
  | .smem => 0
  | _ => 0

abbrev bufTy : (tb : Table) → Fin (tcTables nBuf tb) → BufTy
  | .hbm, ⟨0, _⟩ => ⟨S4x2048x2048, .f32⟩
  | .hbm, ⟨1, _⟩ => ⟨S32000x2048, .f32⟩
  | .hbm, ⟨2, _⟩ => ⟨S4x2048, .i32⟩
  | .hbm, ⟨3, _⟩ => ⟨S4x2047, .i32⟩
  | .hbm, ⟨4, _⟩ => ⟨S_, .i32⟩
  | .hbm, ⟨5, _⟩ => ⟨S4x1, .i32⟩
  | .hbm, ⟨6, _⟩ => ⟨S4x2048, .i32⟩
  | .hbm, ⟨7, _⟩ => ⟨S8192, .i32⟩
  | .hbm, ⟨8, _⟩ => ⟨S8192x2048, .f32⟩
  | .hbm, ⟨9, _⟩ => ⟨S8192x1, .i32⟩
  | .hbm, ⟨10, _⟩ => ⟨S8192x1, .f32⟩
  | .hbm, ⟨11, _⟩ => ⟨S_, .i32⟩
  | .hbm, ⟨12, _⟩ => ⟨S8192x1, .i32⟩
  | .hbm, ⟨13, _⟩ => ⟨S8192x1, .i1⟩
  | .hbm, ⟨14, _⟩ => ⟨S8192x1, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S1280x2048, .f32⟩
  | .local _ .vmem, ⟨3, _⟩ => ⟨S1280x2048, .f32⟩
  | .local _ .vmem, ⟨4, _⟩ => ⟨S1024x1, .i32⟩
  | .local _ .vmem, ⟨5, _⟩ => ⟨S1024x1, .i32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 25], ![false, false]⟩

def k0_cond2 (i : grid0.Coords) : BitVec 1 :=
  let arg1 : BitVec 32 := BitVec.ofNat 32 (i 1).val
  let c24_i32 : BitVec 32 := 24#32
  let v199 : BitVec 1 := Scalar.cmpi .eq arg1 c24_i32
  let v200 : BitVec 32 := Scalar.extui v199
  let c0_i32_99 : BitVec 32 := 0#32
  let v201 : BitVec 1 := Scalar.cmpi .ne v200 c0_i32_99
  v201

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S4x2048_S4x2047_0_1 : S4x2048.Slices ![0, 1] S4x2047
  bcast_S_S4x1 : S_.BroadcastsInDim S4x1 (![] : Fin 0 → Fin S4x1.rank)
  concatenates_S4x2047_S4x1_S4x2048_d1 : Shape.Concatenates [S4x2047, S4x1] S4x2048 1
  shapeCasts_S4x2048_S8192 : S4x2048.ShapeCasts S8192
  shapeCasts_S4x2048x2048_S8192x2048 : S4x2048x2048.ShapeCasts S8192x2048
  shapeCasts_S8192_S8192x1 : S8192.ShapeCasts S8192x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  bitsLt_bf16_f32 : FTy.bits .bf16 < FTy.bits .f32
  iota_S1024x256_d1_w32 : S1024x256.Iotas .tc 32 [1]
  inb_S1280x2048_S256x2048_0_0 : ∀ a, (![0, 0] : Fin 2 → Nat) a + S256x2048.size a ≤ S1280x2048.size a
  h_S256x2048 : 0 < S256x2048.numel
  reduces_S1024x256_S1024 : S1024x256.Reduces [1] S1024
  shapeCasts_S1024_S1024x1 : S1024.ShapeCasts S1024x1
  broadcasts_S1024x1_S1024x256 : S1024x1.Broadcasts S1024x256
  inb_S1280x2048_S256x2048_256_0 : ∀ a, (![256, 0] : Fin 2 → Nat) a + S256x2048.size a ≤ S1280x2048.size a
  inb_S1280x2048_S256x2048_512_0 : ∀ a, (![512, 0] : Fin 2 → Nat) a + S256x2048.size a ≤ S1280x2048.size a
  inb_S1280x2048_S256x2048_768_0 : ∀ a, (![768, 0] : Fin 2 → Nat) a + S256x2048.size a ≤ S1280x2048.size a
  inb_S1280x2048_S256x2048_1024_0 : ∀ a, (![1024, 0] : Fin 2 → Nat) a + S256x2048.size a ≤ S1280x2048.size a
  bcast_S_S8192x1 : S_.BroadcastsInDim S8192x1 (![] : Fin 0 → Fin S8192x1.rank)
  natLt_1_32 : 1 < 32
  reducesTo_S8192x1_S_d0_1 : S8192x1.ReducesTo [0, 1] S_
  h_S_ : 0 < S_.numel
  dot_S1024x2048_S256x2048_S1024x256_1_1_0_0_n_n_wf : DotDims.WF S1024x2048 S256x2048 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x2048.size a ≤ S32000x2048.size a
  hwx0_1 : ∀ i : grid0.Coords, EltTy.bits .f32 = 32 ∨ (Rect.block (s := S32000x2048) S1280x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)

variable [Facts₀]

def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf

abbrev win0_0 : Pipeline.Window sig grid0 :=
  Pipeline.Window.ofSpec (Memref.whole main_v4) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1280x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S32000x2048 : Shape := ⟨2, ![32000, 2048]⟩
abbrev S4x2048 : Shape := ⟨2, ![4, 2048]⟩
abbrev S4x2047x2048 : Shape := ⟨3, ![4, 2047, 2048]⟩
abbrev S4x2047 : Shape := ⟨2, ![4, 2047]⟩
abbrev S8188x2048 : Shape := ⟨2, ![8188, 2048]⟩
abbrev S8188 : Shape := ⟨1, ![8188]⟩
abbrev S8188x32000 : Shape := ⟨2, ![8188, 32000]⟩
abbrev S_ : Shape := ⟨0, ![]⟩
abbrev S8188x1 : Shape := ⟨2, ![8188, 1]⟩
abbrev S8188x1x1 : Shape := ⟨3, ![8188, 1, 1]⟩
abbrev S1 : Shape := ⟨1, ![1]⟩
abbrev S1x1x1 : Shape := ⟨3, ![1, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S32000x2048, .f32⟩
  | .hbm, ⟨2, _⟩ => ⟨S4x2048, .i32⟩
  | .hbm, ⟨3, _⟩ => ⟨S4x2047x2048, .f32⟩
  | .hbm, ⟨4, _⟩ => ⟨S4x2047, .i32⟩
  | .hbm, ⟨5, _⟩ => ⟨S8188x2048, .f32⟩
  | .hbm, ⟨6, _⟩ => ⟨S8188, .i32⟩
  | .hbm, ⟨7, _⟩ => ⟨S8188x32000, .f32⟩
  | .hbm, ⟨8, _⟩ => ⟨S_, .f32⟩
  | .hbm, ⟨9, _⟩ => ⟨S8188, .f32⟩
  | .hbm, ⟨10, _⟩ => ⟨S_, .f32⟩
  | .hbm, ⟨11, _⟩ => ⟨S8188, .f32⟩
  | .hbm, ⟨12, _⟩ => ⟨S8188, .f32⟩
  | .hbm, ⟨13, _⟩ => ⟨S8188x1, .f32⟩
  | .hbm, ⟨14, _⟩ => ⟨S8188x32000, .f32⟩
  | .hbm, ⟨15, _⟩ => ⟨S8188x32000, .f32⟩
  | .hbm, ⟨16, _⟩ => ⟨S8188x32000, .f32⟩
  | .hbm, ⟨17, _⟩ => ⟨S_, .f32⟩
  | .hbm, ⟨18, _⟩ => ⟨S8188, .f32⟩
  | .hbm, ⟨19, _⟩ => ⟨S8188x1, .f32⟩
  | .hbm, ⟨20, _⟩ => ⟨S8188x1, .f32⟩
  | .hbm, ⟨21, _⟩ => ⟨S8188x32000, .f32⟩
  | .hbm, ⟨22, _⟩ => ⟨S8188x32000, .f32⟩
  | .hbm, ⟨23, _⟩ => ⟨S_, .i32⟩
  | .hbm, ⟨24, _⟩ => ⟨S8188, .i32⟩
  | .hbm, ⟨25, _⟩ => ⟨S8188, .i1⟩
  | .hbm, ⟨26, _⟩ => ⟨S_, .i32⟩
  | .hbm, ⟨27, _⟩ => ⟨S_, .i32⟩
  | .hbm, ⟨28, _⟩ => ⟨S8188, .i32⟩
  | .hbm, ⟨29, _⟩ => ⟨S8188, .i32⟩
  | .hbm, ⟨30, _⟩ => ⟨S8188x1, .i32⟩
  | .hbm, ⟨31, _⟩ => ⟨S_, .i32⟩
  | .hbm, ⟨32, _⟩ => ⟨S8188x1, .i32⟩
  | .hbm, ⟨33, _⟩ => ⟨S8188x1, .i1⟩
  | .hbm, ⟨34, _⟩ => ⟨S_, .i32⟩
  | .hbm, ⟨35, _⟩ => ⟨S8188x1, .i32⟩
  | .hbm, ⟨36, _⟩ => ⟨S8188x1, .i32⟩
  | .hbm, ⟨37, _⟩ => ⟨S8188x1, .i32⟩
  | .hbm, ⟨38, _⟩ => ⟨S8188x1x1, .i32⟩
  | .hbm, ⟨39, _⟩ => ⟨S1, .i32⟩
  | .hbm, ⟨40, _⟩ => ⟨S_, .i32⟩
  | .hbm, ⟨41, _⟩ => ⟨S8188x1x1, .i32⟩
  | .hbm, ⟨42, _⟩ => ⟨S8188x1x1, .i1⟩
  | .hbm, ⟨43, _⟩ => ⟨S1x1x1, .i32⟩
  | .hbm, ⟨44, _⟩ => ⟨S8188x1x1, .i32⟩
  | .hbm, ⟨45, _⟩ => ⟨S8188x1x1, .i1⟩
  | .hbm, ⟨46, _⟩ => ⟨S8188x1x1, .i1⟩
  | .hbm, ⟨47, _⟩ => ⟨S_, .i1⟩
  | .hbm, ⟨48, _⟩ => ⟨S8188x1, .i1⟩
  | .hbm, ⟨49, _⟩ => ⟨S8188x1, .f32⟩
  | .hbm, ⟨50, _⟩ => ⟨S_, .f32⟩
  | .hbm, ⟨51, _⟩ => ⟨S8188x1, .f32⟩
  | .hbm, ⟨52, _⟩ => ⟨S8188x1, .f32⟩
  | .hbm, ⟨53, _⟩ => ⟨S8188, .f32⟩
  | .hbm, ⟨54, _⟩ => ⟨S8188, .f32⟩
  | .hbm, ⟨55, _⟩ => ⟨S_, .f32⟩
  | .hbm, ⟨56, _⟩ => ⟨S_, .f32⟩
  | .hbm, ⟨57, _⟩ => ⟨S8188, .f32⟩
  | .hbm, ⟨58, _⟩ => ⟨S8188, .f32⟩
  | .hbm, ⟨59, _⟩ => ⟨S8188, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v5 : Ref sig .tc := ⟨.hbm, 22, rfl⟩
abbrev main_c : Ref sig .tc := ⟨.hbm, 23, rfl⟩
abbrev main_v6 : Ref sig .tc := ⟨.hbm, 24, rfl⟩
abbrev main_v7 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_v8 : Ref sig .tc := ⟨.hbm, 29, rfl⟩
abbrev main_v9 : Ref sig .tc := ⟨.hbm, 30, rfl⟩
abbrev main_call2_c : Ref sig .tc := ⟨.hbm, 31, rfl⟩
abbrev main_call2_v0 : Ref sig .tc := ⟨.hbm, 32, rfl⟩
abbrev main_call2_v1 : Ref sig .tc := ⟨.hbm, 33, rfl⟩
abbrev main_call2_c_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_c_1 : Ref sig .tc := ⟨.hbm, 39, rfl⟩
abbrev main_call2_c_2 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_3 : Ref sig .tc := ⟨.hbm, 47, rfl⟩
abbrev main_call2_v12 : Ref sig .tc := ⟨.hbm, 48, rfl⟩
abbrev main_call2_v13 : Ref sig .tc := ⟨.hbm, 49, rfl⟩
abbrev main_call2_cst : Ref sig .tc := ⟨.hbm, 50, rfl⟩
abbrev main_call2_v14 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_cst : Ref sig .tc := ⟨.hbm, 55, rfl⟩
abbrev main_call3_v0 : Ref sig .tc := ⟨.hbm, 56, rfl⟩
abbrev main_call3_v1 : Ref sig .tc := ⟨.hbm, 57, rfl⟩
abbrev main_v13 : Ref sig .tc := ⟨.hbm, 58, rfl⟩
abbrev main_v14 : Ref sig .tc := ⟨.hbm, 59, rfl⟩
abbrev main_c_1 : Ref sig .tc := ⟨.hbm, 60, rfl⟩
abbrev main_v15 : Ref sig .tc := ⟨.hbm, 61, rfl⟩
abbrev main_c_2 : Ref sig .tc := ⟨.hbm, 62, rfl⟩
abbrev main_v16 : Ref sig .tc := ⟨.hbm, 63, rfl⟩
abbrev main_cst_3 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩

abbrev nD : Nat := 1
abbrev τ : Topo := Topo.v7x

variable {F : FTy → Type} [FloatOps F]

class Facts₀ : Prop where
  slices_S4x2048x2048_S4x2047x2048_0_0_0 : S4x2048x2048.Slices ![0, 0, 0] S4x2047x2048
  slices_S4x2048_S4x2047_0_1 : S4x2048.Slices ![0, 1] S4x2047
  shapeCasts_S4x2047x2048_S8188x2048 : S4x2047x2048.ShapeCasts S8188x2048
  shapeCasts_S4x2047_S8188 : S4x2047.ShapeCasts S8188
  reducesTo_S8188x32000_S8188_d1 : S8188x32000.ReducesTo [1] S8188
  h_S_ : 0 < S_.numel
  bcast_S_S8188 : S_.BroadcastsInDim S8188 (![] : Fin 0 → Fin S8188.rank)
  bcast_S8188_S8188x1_0 : S8188.BroadcastsInDim S8188x1 (![0] : Fin 1 → Fin S8188x1.rank)
  bcast_S8188x1_S8188x32000_0_1 : S8188x1.BroadcastsInDim S8188x32000 (![0, 1] : Fin 2 → Fin S8188x32000.rank)
  bcast_S_S8188x1 : S_.BroadcastsInDim S8188x1 (![] : Fin 0 → Fin S8188x1.rank)
  shapeCasts_S8188x1_S8188x1x1 : S8188x1.ShapeCasts S8188x1x1
  bcast_S_S8188x1x1 : S_.BroadcastsInDim S8188x1x1 (![] : Fin 0 → Fin S8188x1x1.rank)
  bcast_S1_S1x1x1_2 : S1.BroadcastsInDim S1x1x1 (![2] : Fin 1 → Fin S1x1x1.rank)
  bcast_S1x1x1_S8188x1x1_0_1_2 : S1x1x1.BroadcastsInDim S8188x1x1 (![0, 1, 2] : Fin 3 → Fin S8188x1x1.rank)
  reducesTo_S8188x1x1_S8188x1_d2 : S8188x1x1.ReducesTo [2] S8188x1
  shapeCasts_S8188x1_S8188 : S8188x1.ShapeCasts S8188
  natLt_1_32 : 1 < 32
  reducesTo_S8188_S_d0 : S8188.ReducesTo [0] S_
  dot_S8188x2048_S32000x2048_S8188x32000_1_1_0_0_n_n_wf : DotDims.WF S8188x2048 S32000x2048 S8188x32000 [1] [1] [0] [0] [] []
  gather_S8188x32000_S8188x1x1_S8188x1_n_1_0_0_1_2_11_wf : GatherDims.WF S8188x32000 S8188x1x1 S8188x1 [] [1] [0] [1] [0] 2 ![1, 1]

variable [Facts₀]

def dot_S8188x2048_S32000x2048_S8188x32000_1_1_0_0_n_n : DotDims S8188x2048 S32000x2048 S8188x32000 where
  lhsContracting := [1]
  rhsContracting := [1]
  lhsNonContracting := [0]
  rhsNonContracting := [0]
  lhsBatch := []
  rhsBatch := []
  wf := dot_S8188x2048_S32000x2048_S8188x32000_1_1_0_0_n_n_wf
def gather_S8188x32000_S8188x1x1_S8188x1_n_1_0_0_1_2_11 : GatherDims S8188x32000 S8188x1x1 S8188x1 where
  offsetDims := []
  collapsedSliceDims := [1]
  operandBatchingDims := [0]
  startIndicesBatchingDims := [0]
  startIndexMap := [1]
  indexVectorDim := 2
  sliceSizes := ![1, 1]
  wf := gather_S8188x32000_S8188x1x1_S8188x1_n_1_0_0_1_2_11_wf

class Facts : Prop extends Facts₀ where

variable [Facts]
-- ==== Proof.LibWholeStores.lean ====
/-
  Loads of a buffer that has been stored whole, several times.

  When the LAST store into a buffer went through the whole-shape rectangle at zero offsets, a load through that same
  rectangle reads that store's payload, whatever the earlier stores were: the last whole store hides them.
-/
import Idealize.ShloMosaic.Lib.Pipeline.Value

noncomputable section

namespace Idealize.ShloMosaic.View

variable {Val : EltTy → Type} {S : Shape} {e : EltTy}

/-- A load through the whole-shape rectangle of what a list of stores left, when the last of them (the list's head)
    went through the whole-shape rectangle: the head's payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View

end
-- ==== Proof.KPieces.lean ====
/-
  What one grid point leaves in the three carried statistics, as functions of the blocks it reads.

  A grid point multiplies its [1024 × 2048] block of hidden rows with five consecutive [256 × 2048] sub-blocks of its
  [1280 × 2048] block of weight rows. After each product it updates, row by row, the running maximum of the logits, the
  partition sum shifted by that maximum, and the logit of the row's label. Every update stores its statistic whole, so a
  later read of the statistic within the same point sees exactly the last update: the point's effect on each statistic is
  the composition of the five updates, applied to what the point before left (or to the reset values at a row tile's
  first point). At a row tile's last point the output block is computed from the three finished statistics.
-/
import proofs.«405030_j56942676410880_3_alg».proof.Proof.Gen.KernelIdeal.Frame
import proofs.«405030_j56942676410880_3_alg».proof.Proof.LibWholeStores
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

theorem zero_offsets : (![0, 0] : Fin 2 → Nat) = fun _ => 0 := funext fun a => by fin_cases a <;> rfl

/-- The column-position table every sub-chunk compares the shifted label with: position `q` in column `q`. -/
abbrev lanePos : IVec S1024x256 32 := iota .tc S1024x256 32 [1] iota_S1024x256_d1_w32

/-- The maximum after the first sub-chunk, …, after the fourth: what the later sub-chunks' sums are shifted from. -/
def maxAt1 (x0 : Vec F S1024x2048 .f32) (x1 : Vec F S1280x2048 .f32) (m0 : Vec F S1024x1 .f32) : Vec F S1024x1 .f32 :=
  k0_pay12 x0 (View.ld x1 (Rect.unit ![0, 0] ![256, 2048] inb_S1280x2048_S256x2048_0_0)) m0
def maxAt2 (x0 : Vec F S1024x2048 .f32) (x1 : Vec F S1280x2048 .f32) (m0 : Vec F S1024x1 .f32) : Vec F S1024x1 .f32 :=
  k0_pay17 (k0_pay7 x0) (View.ld x1 (Rect.unit ![256, 0] ![256, 2048] inb_S1280x2048_S256x2048_256_0)) (maxAt1 x0 x1 m0)
def maxAt3 (x0 : Vec F S1024x2048 .f32) (x1 : Vec F S1280x2048 .f32) (m0 : Vec F S1024x1 .f32) : Vec F S1024x1 .f32 :=
  k0_pay22 (k0_pay7 x0) (View.ld x1 (Rect.unit ![512, 0] ![256, 2048] inb_S1280x2048_S256x2048_512_0)) (maxAt2 x0 x1 m0)
def maxAt4 (x0 : Vec F S1024x2048 .f32) (x1 : Vec F S1280x2048 .f32) (m0 : Vec F S1024x1 .f32) : Vec F S1024x1 .f32 :=
  k0_pay27 (k0_pay25 (k0_pay7 x0) (View.ld x1 (Rect.unit ![768, 0] ![256, 2048] inb_S1280x2048_S256x2048_768_0)) (maxAt3 x0 x1 m0))

/-- The running maximum after the point's five sub-chunks, from the maximum `m0` it started with. -/
def maxAfter (x0 : Vec F S1024x2048 .f32) (x1 : Vec F S1280x2048 .f32) (m0 : Vec F S1024x1 .f32) : Vec F S1024x1 .f32 :=
  k0_pay1 (k0_pay30 (k0_pay7 x0) (View.ld x1 (Rect.unit ![1024, 0] ![256, 2048] inb_S1280x2048_S256x2048_1024_0)) (maxAt4 x0 x1 m0))

/-- The partition sum after the first sub-chunk, …, after the fourth. -/
def sumAt1 (x0 : Vec F S1024x2048 .f32) (x1 : Vec F S1280x2048 .f32) (m0 l0 : Vec F S1024x1 .f32) : Vec F S1024x1 .f32 :=
  k0_pay11 x0 (View.ld x1 (Rect.unit ![0, 0] ![256, 2048] inb_S1280x2048_S256x2048_0_0)) m0 l0
def sumAt2 (x0 : Vec F S1024x2048 .f32) (x1 : Vec F S1280x2048 .f32) (m0 l0 : Vec F S1024x1 .f32) : Vec F S1024x1 .f32 :=
  k0_pay16 (k0_pay7 x0) (View.ld x1 (Rect.unit ![256, 0] ![256, 2048] inb_S1280x2048_S256x2048_256_0)) (maxAt1 x0 x1 m0) (sumAt1 x0 x1 m0 l0)
def sumAt3 (x0 : Vec F S1024x2048 .f32) (x1 : Vec F S1280x2048 .f32) (m0 l0 : Vec F S1024x1 .f32) : Vec F S1024x1 .f32 :=
  k0_pay21 (k0_pay7 x0) (View.ld x1 (Rect.unit ![512, 0] ![256, 2048] inb_S1280x2048_S256x2048_512_0)) (maxAt2 x0 x1 m0) (sumAt2 x0 x1 m0 l0)
def sumAt4 (x0 : Vec F S1024x2048 .f32) (x1 : Vec F S1280x2048 .f32) (m0 l0 : Vec F S1024x1 .f32) : Vec F S1024x1 .f32 :=
  k0_pay26 (k0_pay7 x0) (View.ld x1 (Rect.unit ![768, 0] ![256, 2048] inb_S1280x2048_S256x2048_768_0)) (maxAt3 x0 x1 m0) (sumAt3 x0 x1 m0 l0)

/-- The partition sum after the point's five sub-chunks, from the maximum `m0` and the sum `l0` it started with. -/
def sumAfter (x0 : Vec F S1024x2048 .f32) (x1 : Vec F S1280x2048 .f32) (m0 l0 : Vec F S1024x1 .f32) : Vec F S1024x1 .f32 :=
  k0_pay31 (k0_pay7 x0) (View.ld x1 (Rect.unit ![1024, 0] ![256, 2048] inb_S1280x2048_S256x2048_1024_0)) (maxAt4 x0 x1 m0) (sumAt4 x0 x1 m0 l0)

/-- The labelled logit after the first sub-chunk, …, after the fourth; `a` is the point's position along the vocabulary
    axis, as the word the body shifts the labels by. -/
def tgtAt1 (a : BitVec 32) (x0 : Vec F S1024x2048 .f32) (x1 : Vec F S1280x2048 .f32) (x2 : Vec F S1024x1 .i32)
    (t0 : Vec F S1024x1 .f32) : Vec F S1024x1 .f32 :=
  k0_pay13 (k0_pay8 x2) lanePos (k0_pay9 x0 (View.ld x1 (Rect.unit ![0, 0] ![256, 2048] inb_S1280x2048_S256x2048_0_0))) (Scalar.addi (Scalar.muli a 1280#32) 0#32) t0
def tgtAt2 (a : BitVec 32) (x0 : Vec F S1024x2048 .f32) (x1 : Vec F S1280x2048 .f32) (x2 : Vec F S1024x1 .i32)
    (t0 : Vec F S1024x1 .f32) : Vec F S1024x1 .f32 :=
  k0_pay18 (k0_pay8 x2) lanePos (k0_pay14 (k0_pay7 x0) (View.ld x1 (Rect.unit ![256, 0] ![256, 2048] inb_S1280x2048_S256x2048_256_0))) (Scalar.muli a 1280#32) (tgtAt1 a x0 x1 x2 t0)
def tgtAt3 (a : BitVec 32) (x0 : Vec F S1024x2048 .f32) (x1 : Vec F S1280x2048 .f32) (x2 : Vec F S1024x1 .i32)
    (t0 : Vec F S1024x1 .f32) : Vec F S1024x1 .f32 :=
  k0_pay23 a (k0_pay8 x2) lanePos (k0_pay19 (k0_pay7 x0) (View.ld x1 (Rect.unit ![512, 0] ![256, 2048] inb_S1280x2048_S256x2048_512_0))) (tgtAt2 a x0 x1 x2 t0)
def tgtAt4 (a : BitVec 32) (x0 : Vec F S1024x2048 .f32) (x1 : Vec F S1280x2048 .f32) (x2 : Vec F S1024x1 .i32)
    (t0 : Vec F S1024x1 .f32) : Vec F S1024x1 .f32 :=
  k0_pay28 a (k0_pay8 x2) lanePos (k0_pay24 (k0_pay7 x0) (View.ld x1 (Rect.unit ![768, 0] ![256, 2048] inb_S1280x2048_S256x2048_768_0))) (tgtAt3 a x0 x1 x2 t0)

/-- The labelled logit after the point's five sub-chunks, from the value `t0` it started with. -/
def tgtAfter (a : BitVec 32) (x0 : Vec F S1024x2048 .f32) (x1 : Vec F S1280x2048 .f32) (x2 : Vec F S1024x1 .i32)
    (t0 : Vec F S1024x1 .f32) : Vec F S1024x1 .f32 :=
  k0_pay2 a (k0_pay8 x2) lanePos (k0_pay29 (k0_pay7 x0) (View.ld x1 (Rect.unit ![1024, 0] ![256, 2048] inb_S1280x2048_S256x2048_1024_0))) (tgtAt4 a x0 x1 x2 t0)

/-- After a point of case A the carried running maximum is the five sub-chunk updates of the reset value. -/
theorem scratch0_A (c : Dev nD) (i : grid0.Coords) (arg2 : Memref sig .tc .vmem S1024x2048 .f32) (harg2 : arg2.IsWhole) (arg3 : Memref sig .tc .vmem S1280x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x2048 .f32) (x1 : Vec F S1280x2048 .f32) (x2 : Vec F S1024x1 .i32) :
    sout0_A_0 c i arg2 harg2 arg3 harg3 arg4 harg4 arg5 harg5 arg6 harg6 arg7 harg7 arg8 harg8 hc0 hc1 x0 x1 x2 = maxAfter x0 x1 k0_pay4 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  simp only [View.canon_cons_unit_zero (S := S1024x1) zero_offsets, View.readCov_cons_unit_zero (S := S1024x1) _ zero_offsets, View.readAt_eq_ld, harg2.read_unread, harg3.read_unread, harg4.read_unread, harg6.read_unread, harg7.read_unread, harg8.read_unread, View.ld_unit_zero (S := S1024x1) zero_offsets, View.ld_unit_zero (S := S1024x2048) zero_offsets]
  rfl

/-- After a point of case A the carried partition sum is the five sub-chunk updates of the reset value. -/
theorem scratch1_A (c : Dev nD) (i : grid0.Coords) (arg2 : Memref sig .tc .vmem S1024x2048 .f32) (harg2 : arg2.IsWhole) (arg3 : Memref sig .tc .vmem S1280x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x2048 .f32) (x1 : Vec F S1280x2048 .f32) (x2 : Vec F S1024x1 .i32) :
    sout0_A_1 c i arg2 harg2 arg3 harg3 arg4 harg4 arg5 harg5 arg6 harg6 arg7 harg7 arg8 harg8 hc0 hc1 x0 x1 x2 = sumAfter x0 x1 k0_pay4 k0_pay5 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  simp only [View.canon_cons_unit_zero (S := S1024x1) zero_offsets, View.readCov_cons_unit_zero (S := S1024x1) _ zero_offsets, View.readAt_eq_ld, harg2.read_unread, harg3.read_unread, harg4.read_unread, harg6.read_unread, harg7.read_unread, harg8.read_unread, View.ld_unit_zero (S := S1024x1) zero_offsets, View.ld_unit_zero (S := S1024x2048) zero_offsets]
  rfl

/-- After a point of case A the carried labelled logit is the five sub-chunk updates of the reset value. -/
theorem scratch2_A (c : Dev nD) (i : grid0.Coords) (arg2 : Memref sig .tc .vmem S1024x2048 .f32) (harg2 : arg2.IsWhole) (arg3 : Memref sig .tc .vmem S1280x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x2048 .f32) (x1 : Vec F S1280x2048 .f32) (x2 : Vec F S1024x1 .i32) :
    sout0_A_2 c i arg2 harg2 arg3 harg3 arg4 harg4 arg5 harg5 arg6 harg6 arg7 harg7 arg8 harg8 hc0 hc1 x0 x1 x2 = tgtAfter (BitVec.ofNat 32 (i 1).val) x0 x1 x2 k0_pay6 := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  simp only [View.canon_cons_unit_zero (S := S1024x1) zero_offsets, View.readCov_cons_unit_zero (S := S1024x1) _ zero_offsets, View.readAt_eq_ld, harg2.read_unread, harg3.read_unread, harg4.read_unread, harg6.read_unread, harg7.read_unread, harg8.read_unread, View.ld_unit_zero (S := S1024x1) zero_offsets, View.ld_unit_zero (S := S1024x2048) zero_offsets]
  rfl

/-- After a point of case B the carried running maximum is the five sub-chunk updates of what the point before left. -/
theorem scratch0_B (c : Dev nD) (i : grid0.Coords) (arg2 : Memref sig .tc .vmem S1024x2048 .f32) (harg2 : arg2.IsWhole) (arg3 : Memref sig .tc .vmem S1280x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x2048 .f32) (x1 : Vec F S1280x2048 .f32) (x2 : Vec F S1024x1 .i32) (xs0 : Vec F S1024x1 .f32) (xs1 : Vec F S1024x1 .f32) (xs2 : Vec F S1024x1 .f32) :
    sout0_B_0 c i arg2 harg2 arg3 harg3 arg4 harg4 arg5 harg5 arg6 harg6 arg7 harg7 arg8 harg8 hc0 hc1 x0 x1 x2 xs0 xs1 xs2 = maxAfter x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  simp only [View.canon_cons_unit_zero (S := S1024x1) zero_offsets, View.readCov_cons_unit_zero (S := S1024x1) _ zero_offsets, View.readAt_eq_ld, harg2.read_unread, harg3.read_unread, harg4.read_unread, harg6.read_unread, harg7.read_unread, harg8.read_unread, View.ld_unit_zero (S := S1024x1) zero_offsets, View.ld_unit_zero (S := S1024x2048) zero_offsets]
  rfl

/-- After a point of case B the carried partition sum is the five sub-chunk updates of what the point before left. -/
theorem scratch1_B (c : Dev nD) (i : grid0.Coords) (arg2 : Memref sig .tc .vmem S1024x2048 .f32) (harg2 : arg2.IsWhole) (arg3 : Memref sig .tc .vmem S1280x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x2048 .f32) (x1 : Vec F S1280x2048 .f32) (x2 : Vec F S1024x1 .i32) (xs0 : Vec F S1024x1 .f32) (xs1 : Vec F S1024x1 .f32) (xs2 : Vec F S1024x1 .f32) :
    sout0_B_1 c i arg2 harg2 arg3 harg3 arg4 harg4 arg5 harg5 arg6 harg6 arg7 harg7 arg8 harg8 hc0 hc1 x0 x1 x2 xs0 xs1 xs2 = sumAfter x0 x1 xs0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  simp only [View.canon_cons_unit_zero (S := S1024x1) zero_offsets, View.readCov_cons_unit_zero (S := S1024x1) _ zero_offsets, View.readAt_eq_ld, harg2.read_unread, harg3.read_unread, harg4.read_unread, harg6.read_unread, harg7.read_unread, harg8.read_unread, View.ld_unit_zero (S := S1024x1) zero_offsets, View.ld_unit_zero (S := S1024x2048) zero_offsets]
  rfl

/-- After a point of case B the carried labelled logit is the five sub-chunk updates of what the point before left. -/
theorem scratch2_B (c : Dev nD) (i : grid0.Coords) (arg2 : Memref sig .tc .vmem S1024x2048 .f32) (harg2 : arg2.IsWhole) (arg3 : Memref sig .tc .vmem S1280x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x2048 .f32) (x1 : Vec F S1280x2048 .f32) (x2 : Vec F S1024x1 .i32) (xs0 : Vec F S1024x1 .f32) (xs1 : Vec F S1024x1 .f32) (xs2 : Vec F S1024x1 .f32) :
    sout0_B_2 c i arg2 harg2 arg3 harg3 arg4 harg4 arg5 harg5 arg6 harg6 arg7 harg7 arg8 harg8 hc0 hc1 x0 x1 x2 xs0 xs1 xs2 = tgtAfter (BitVec.ofNat 32 (i 1).val) x0 x1 x2 xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  simp only [View.canon_cons_unit_zero (S := S1024x1) zero_offsets, View.readCov_cons_unit_zero (S := S1024x1) _ zero_offsets, View.readAt_eq_ld, harg2.read_unread, harg3.read_unread, harg4.read_unread, harg6.read_unread, harg7.read_unread, harg8.read_unread, View.ld_unit_zero (S := S1024x1) zero_offsets, View.ld_unit_zero (S := S1024x2048) zero_offsets]
  rfl

/-- After a point of case C the carried running maximum is the five sub-chunk updates of what the point before left. -/
theorem scratch0_C (c : Dev nD) (i : grid0.Coords) (arg2 : Memref sig .tc .vmem S1024x2048 .f32) (harg2 : arg2.IsWhole) (arg3 : Memref sig .tc .vmem S1280x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x2048 .f32) (x1 : Vec F S1280x2048 .f32) (x2 : Vec F S1024x1 .i32) (xs0 : Vec F S1024x1 .f32) (xs1 : Vec F S1024x1 .f32) (xs2 : Vec F S1024x1 .f32) :
    sout0_C_0 c i arg2 harg2 arg3 harg3 arg4 harg4 arg5 harg5 arg6 harg6 arg7 harg7 arg8 harg8 hc0 hc1 x0 x1 x2 xs0 xs1 xs2 = maxAfter x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  simp only [View.canon_cons_unit_zero (S := S1024x1) zero_offsets, View.readCov_cons_unit_zero (S := S1024x1) _ zero_offsets, View.readAt_eq_ld, harg2.read_unread, harg3.read_unread, harg4.read_unread, harg6.read_unread, harg7.read_unread, harg8.read_unread, View.ld_unit_zero (S := S1024x1) zero_offsets, View.ld_unit_zero (S := S1024x2048) zero_offsets]
  rfl

/-- After a point of case C the carried partition sum is the five sub-chunk updates of what the point before left. -/
theorem scratch1_C (c : Dev nD) (i : grid0.Coords) (arg2 : Memref sig .tc .vmem S1024x2048 .f32) (harg2 : arg2.IsWhole) (arg3 : Memref sig .tc .vmem S1280x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x2048 .f32) (x1 : Vec F S1280x2048 .f32) (x2 : Vec F S1024x1 .i32) (xs0 : Vec F S1024x1 .f32) (xs1 : Vec F S1024x1 .f32) (xs2 : Vec F S1024x1 .f32) :
    sout0_C_1 c i arg2 harg2 arg3 harg3 arg4 harg4 arg5 harg5 arg6 harg6 arg7 harg7 arg8 harg8 hc0 hc1 x0 x1 x2 xs0 xs1 xs2 = sumAfter x0 x1 xs0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  simp only [View.canon_cons_unit_zero (S := S1024x1) zero_offsets, View.readCov_cons_unit_zero (S := S1024x1) _ zero_offsets, View.readAt_eq_ld, harg2.read_unread, harg3.read_unread, harg4.read_unread, harg6.read_unread, harg7.read_unread, harg8.read_unread, View.ld_unit_zero (S := S1024x1) zero_offsets, View.ld_unit_zero (S := S1024x2048) zero_offsets]
  rfl

/-- After a point of case C the carried labelled logit is the five sub-chunk updates of what the point before left. -/
theorem scratch2_C (c : Dev nD) (i : grid0.Coords) (arg2 : Memref sig .tc .vmem S1024x2048 .f32) (harg2 : arg2.IsWhole) (arg3 : Memref sig .tc .vmem S1280x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x2048 .f32) (x1 : Vec F S1280x2048 .f32) (x2 : Vec F S1024x1 .i32) (xs0 : Vec F S1024x1 .f32) (xs1 : Vec F S1024x1 .f32) (xs2 : Vec F S1024x1 .f32) :
    sout0_C_2 c i arg2 harg2 arg3 harg3 arg4 harg4 arg5 harg5 arg6 harg6 arg7 harg7 arg8 harg8 hc0 hc1 x0 x1 x2 xs0 xs1 xs2 = tgtAfter (BitVec.ofNat 32 (i 1).val) x0 x1 x2 xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  simp only [View.canon_cons_unit_zero (S := S1024x1) zero_offsets, View.readCov_cons_unit_zero (S := S1024x1) _ zero_offsets, View.readAt_eq_ld, harg2.read_unread, harg3.read_unread, harg4.read_unread, harg6.read_unread, harg7.read_unread, harg8.read_unread, View.ld_unit_zero (S := S1024x1) zero_offsets, View.ld_unit_zero (S := S1024x2048) zero_offsets]
  rfl

/-- At a row tile's last point the output block is the row terms computed from the three finished statistics. -/
theorem out3_C (c : Dev nD) (i : grid0.Coords) (arg2 : Memref sig .tc .vmem S1024x2048 .f32) (harg2 : arg2.IsWhole) (arg3 : Memref sig .tc .vmem S1280x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x2048 .f32) (x1 : Vec F S1280x2048 .f32) (x2 : Vec F S1024x1 .i32) (xs0 : Vec F S1024x1 .f32) (xs1 : Vec F S1024x1 .f32) (xs2 : Vec F S1024x1 .f32) :
    out0_C_3 c i arg2 harg2 arg3 harg3 arg4 harg4 arg5 harg5 arg6 harg6 arg7 harg7 arg8 harg8 hc0 hc1 x0 x1 x2 xs0 xs1 xs2
      = k0_pay3 (k0_pay8 x2) (maxAfter x0 x1 xs0) (sumAfter x0 x1 xs0 xs1) (tgtAfter (BitVec.ofNat 32 (i 1).val) x0 x1 x2 xs2) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  simp only [View.canon_cons_unit_zero (S := S1024x1) zero_offsets, View.readCov_cons_unit_zero (S := S1024x1) _ zero_offsets, View.readAt_eq_ld, harg2.read_unread, harg3.read_unread, harg4.read_unread, harg6.read_unread, harg7.read_unread, harg8.read_unread, View.ld_unit_zero (S := S1024x1) zero_offsets, View.ld_unit_zero (S := S1024x2048) zero_offsets]
  rfl

end Cert.KernelIdeal.Gen

end
-- ==== Proof.Spec.lean ====
/-
  The cross-entropy loss both programs compute, as one function of the three argument arrays.

  A row of logits is `x v = Σ_k h[b, s, k] · w[v, k]` for `v < 32000`. Its running statistics over the first
  `n` columns are the largest logit `runMax x n`, the partition sum shifted by it `runSum x n = Σ_{v<n} exp (x v − runMax x n)`,
  and the labelled logit `runTgt x l n` (the logit in column `l` once `l < n`, the lattice's bottom before).
  Row `(b, s)`, `s < 2047`, predicts the label at `(b, s + 1)`; its term is `0 − (x_l − (M + log L))`, or `0` when the
  label is the ignore word `-100`. The loss is the sum of the terms over the counted rows' number (at least one).
-/
import Idealize.ShloMosaic.PureOps.Ideal
import Idealize.ShloMosaic.Lib.ValueIdx
import Mathlib.Data.BitVec

noncomputable section

namespace Cert.Xent

open Idealize.ShloMosaic Idealize.ShloMosaic.ValueIdx

/-- The ignore word: `-100` as a 32-bit pattern. -/
abbrev ignoreWord : BitVec 32 := 4294967196#32

/-- The largest of the first `n` logits of a row; the lattice's bottom when `n = 0`. -/
def runMax (x : ℕ → EReal) (n : ℕ) : EReal := (Finset.range n).sup x

/-- The partition sum of the first `n` logits, each shifted by their maximum. -/
def runSum (x : ℕ → EReal) (n : ℕ) : EReal := ∑ v ∈ Finset.range n, Ideal.exp (x v - runMax x n)

/-- The logit in column `l` among the first `n` columns; bottom while `n ≤ l`. -/
def runTgt (x : ℕ → EReal) (l : ℕ) (n : ℕ) : EReal := (Finset.range n).sup fun v => if l = v then x v else ⊥

/-- One row's term of the loss: the negated log-probability of the labelled column, or zero for an ignored row. -/
def rowNll (x : ℕ → EReal) (l : BitVec 32) : EReal :=
  if l = ignoreWord then 0
  else 0 - (runTgt x l.toNat 32000 - (runMax x 32000 + Ideal.log (runSum x 32000)))

/-- Row `(b, s)` of the logits: the product of hidden row `(b, s)` with every row of the weight; bottom past the vocabulary. -/
def rowX (h : (⟨3, ![4, 2048, 2048]⟩ : Shape).Idx → EReal) (w : (⟨2, ![32000, 2048]⟩ : Shape).Idx → EReal)
    (b : Fin 4) (s : Fin 2048) : ℕ → EReal :=
  fun v => if hv : v < 32000 then ∑ k : Fin 2048, h (ix3 b s k) * w (ix2 (⟨v, hv⟩ : Fin 32000) k) else ⊥

/-- The label row `(b, s)` predicts: the one at the next position. -/
def nextLabel (lab : (⟨2, ![4, 2048]⟩ : Shape).Idx → BitVec 32) (b : Fin 4) (s : Fin 2047) : BitVec 32 :=
  lab (ix2 b s.succ)

/-- The sum of the rows' terms over the rows that have a next position. -/
def total (h : (⟨3, ![4, 2048, 2048]⟩ : Shape).Idx → EReal) (w : (⟨2, ![32000, 2048]⟩ : Shape).Idx → EReal)
    (lab : (⟨2, ![4, 2048]⟩ : Shape).Idx → BitVec 32) : EReal :=
  ∑ b : Fin 4, ∑ s : Fin 2047, rowNll (rowX h w b s.castSucc) (nextLabel lab b s)

/-- The number of counted rows, as the 32-bit word both programs add it up in. -/
def count (lab : (⟨2, ![4, 2048]⟩ : Shape).Idx → BitVec 32) : BitVec 32 :=
  ∑ b : Fin 4, ∑ s : Fin 2047, if nextLabel lab b s = ignoreWord then 0#32 else 1#32

/-- The loss: the terms' sum over the count, the count taken as at least one. -/
def loss (h : (⟨3, ![4, 2048, 2048]⟩ : Shape).Idx → EReal) (w : (⟨2, ![32000, 2048]⟩ : Shape).Idx → EReal)
    (lab : (⟨2, ![4, 2048]⟩ : Shape).Idx → BitVec 32) : EReal :=
  Ideal.div (0 + total h w lab) (((IntOp.maxsi (count lab) 1#32).toInt : ℝ) : EReal)

/-- The precondition's content: every float input is a real number, every label is a column or the ignore word. -/
structure Admissible (h : (⟨3, ![4, 2048, 2048]⟩ : Shape).Idx → EReal) (w : (⟨2, ![32000, 2048]⟩ : Shape).Idx → EReal)
    (lab : (⟨2, ![4, 2048]⟩ : Shape).Idx → BitVec 32) : Prop where
  h_real : ∀ i, ∃ r : ℝ, h i = (r : EReal)
  w_real : ∀ i, ∃ r : ℝ, w i = (r : EReal)
  lab_ok : ∀ i, (lab i).toNat < 32000 ∨ lab i = ignoreWord

end Cert.Xent

end
-- ==== Proof.Payloads.lean ====
/-
  The kernel body's payloads read at an index, at the ideal values (extended reals, no rounding).

  One grid point of the kernel multiplies a [1024 × 2048] block of hidden rows `a` with five [256 × 2048]
  sub-blocks `ws` of weight rows and folds each sub-block's [1024 × 256] logits into three running
  statistics of a row `p`: the maximum `m`, the partition sum `l` shifted by the maximum, and the
  labelled logit `t`. With `chunkLogit a ws p q = Σ_k a[p, k] · ws[q, k]` (the exact contraction: the
  narrowing to bf16 is the identity on extended reals and the accumulator starts at zero) and
  `chunkMax a ws p = max_q chunkLogit a ws p q` (bottom for no column), this module states, for each of the
  five sub-blocks:
    • the logits payload at `(p, q)` is `chunkLogit a ws p q`;
    • the new maximum at `(p, 0)` is `max m (chunkMax a ws p)`;
    • the new partition sum at `(p, 0)` is `exp (m − m') · l + Σ_q exp (chunkLogit a ws p q − m')`, `m'` the new maximum;
    • the new labelled logit at `(p, 0)` is `max t (max_q (if q = label p − offset then logit[p, q] else ⊥))`, the
      column index `q` and the label compared as 32-bit words, the masked-out fill the named constant that
      denotes bottom;
  and further that a shape cast between equal shapes is the identity, that the three statistics are reset to
  `⊥`, `0`, `⊥`, and that the row's term of the loss is `0 − (t − (m + log l))`, or `0` for the ignore label.
-/
import proofs.«405030_j56942676410880_3_alg».proof.Proof.Gen.KernelIdeal.Skeleton
import proofs.«405030_j56942676410880_3_alg».proof.Proof.Spec
import Idealize.ShloMosaic.PureOps.Ideal
import Idealize.ShloMosaic.PureOps.Ideal.Laws
import Idealize.ShloMosaic.PureOps.IdealRules
import Idealize.ShloMosaic.Lib.ValueIdx
import Idealize.ShloMosaic.Lib.Pipeline.Value
import Idealize.ShloMosaic.Lib.StableHlo.Predicate

noncomputable section

namespace Cert.Xent.Pay

open Cert.KernelIdeal Cert.KernelIdeal.Gen Idealize.ShloMosaic Idealize.ShloMosaic.ValueIdx

/-- One logit of a sub-block: hidden row `p` against weight row `q`, contracted over the 2048 features. -/
def chunkLogit (a : S1024x2048.Idx → EReal) (ws : S256x2048.Idx → EReal) (p : Fin 1024) (q : Fin 256) : EReal :=
  ∑ k : Fin 2048, a (ix2 p k) * ws (ix2 q k)

/-- The largest logit of row `p` in a sub-block. -/
def chunkMax (a : S1024x2048.Idx → EReal) (ws : S256x2048.Idx → EReal) (p : Fin 1024) : EReal :=
  (Finset.univ : Finset (Fin 256)).fold max ⊥ fun q => chunkLogit a ws p q

/-! ## The contraction's operand indices, axis by axis -/

theorem lhs_dot_0 (i : S1024x256.Idx) (q : dot_S1024x2048_S256x2048_S1024x256_1_1_0_0_n_n.contr.Idx) :
    (dot_S1024x2048_S256x2048_S1024x256_1_1_0_0_n_n.lhsIdx i q 0).val = (i 0).val := by
  unfold DotDims.lhsIdx
  rw [dif_neg (show ¬(0 : Fin S1024x2048.rank) ∈ dot_S1024x2048_S256x2048_S1024x256_1_1_0_0_n_n.lhsBatch by decide), dif_pos (show (0 : Fin S1024x2048.rank) ∈ dot_S1024x2048_S256x2048_S1024x256_1_1_0_0_n_n.lhsNonContracting by decide)]
  rfl
theorem lhs_dot_1 (i : S1024x256.Idx) (q : dot_S1024x2048_S256x2048_S1024x256_1_1_0_0_n_n.contr.Idx) :
    (dot_S1024x2048_S256x2048_S1024x256_1_1_0_0_n_n.lhsIdx i q 1).val = (q ⟨0, by decide⟩).val :=
  dot_S1024x2048_S256x2048_S1024x256_1_1_0_0_n_n.lhsIdx_val_of_single rfl i q
theorem rhs_dot_0 (i : S1024x256.Idx) (q : dot_S1024x2048_S256x2048_S1024x256_1_1_0_0_n_n.contr.Idx) :
    (dot_S1024x2048_S256x2048_S1024x256_1_1_0_0_n_n.rhsIdx i q 0).val = (i 1).val := by
  unfold DotDims.rhsIdx
  rw [dif_neg (show ¬(0 : Fin S256x2048.rank) ∈ dot_S1024x2048_S256x2048_S1024x256_1_1_0_0_n_n.rhsBatch by decide), dif_pos (show (0 : Fin S256x2048.rank) ∈ dot_S1024x2048_S256x2048_S1024x256_1_1_0_0_n_n.rhsNonContracting by decide)]
  rfl
theorem rhs_dot_1 (i : S1024x256.Idx) (q : dot_S1024x2048_S256x2048_S1024x256_1_1_0_0_n_n.contr.Idx) :
    (dot_S1024x2048_S256x2048_S1024x256_1_1_0_0_n_n.rhsIdx i q 1).val = (q ⟨0, by decide⟩).val :=
  dot_S1024x2048_S256x2048_S1024x256_1_1_0_0_n_n.rhsIdx_val_of_single rfl i q

/-- The product into a zero accumulator, read at `(p, q)`: the sum over the feature axis of the products of
    row `p` of the left operand with row `q` of the right one. -/
theorem matmul_zero_apply (a : S1024x2048.Idx → EReal) (ws : S256x2048.Idx → EReal) (p : Fin 1024) (q : Fin 256) :
    FloatOps.matmul (F := Ideal) (φ₁ := .bf16) (φ₂ := .bf16) dot_S1024x2048_S256x2048_S1024x256_1_1_0_0_n_n none a ws
      (constant S1024x256 .f32 0x00000000#32) (ix2 p q) = chunkLogit a ws p q := by
  rw [Ideal.matmul_constant_zero_apply, ← Equiv.sum_comp (contrEquiv1 dot_S1024x2048_S256x2048_S1024x256_1_1_0_0_n_n 2048 rfl rfl).symm]
  unfold chunkLogit
  refine Finset.sum_congr rfl fun k _ => ?_
  have hk := contrEquiv1_symm_val dot_S1024x2048_S256x2048_S1024x256_1_1_0_0_n_n 2048 rfl rfl k
  have el : dot_S1024x2048_S256x2048_S1024x256_1_1_0_0_n_n.lhsIdx (ix2 p q) ((contrEquiv1 dot_S1024x2048_S256x2048_S1024x256_1_1_0_0_n_n 2048 rfl rfl).symm k) = ix2 p k := funext fun a => Fin.ext (by
    match a with
    | ⟨0, _⟩ => exact lhs_dot_0 _ _
    | ⟨1, _⟩ => exact (lhs_dot_1 _ _).trans hk)
  have er : dot_S1024x2048_S256x2048_S1024x256_1_1_0_0_n_n.rhsIdx (ix2 p q) ((contrEquiv1 dot_S1024x2048_S256x2048_S1024x256_1_1_0_0_n_n 2048 rfl rfl).symm k) = ix2 q k := funext fun a => Fin.ext (by
    match a with
    | ⟨0, _⟩ => exact rhs_dot_0 _ _
    | ⟨1, _⟩ => exact (rhs_dot_1 _ _).trans hk)
  rw [el, er]

/-! ## Row reductions, casts and broadcasts read at coordinates -/

/-- The pattern of negative infinity denotes the lattice's bottom. -/
theorem negInf_f32 : FloatOps.ofBits (F := Ideal) .f32 0xFF800000#32 = (⊥ : EReal) := by
  show Ideal.ofBits .f32 0xFF800000#32 = ⊥
  simp [Ideal.ofBits, Ideal.ieee]

/-- The masked-out fill is named bottom by the certificate's table. -/
theorem neg_big : Named.named (F := Ideal) Cert.KernelIdeal.κ "neg_big" (φ := .f32) 0xF149F2CA#32 = (⊥ : EReal) :=
  IdealRules.named_const.ideal_named_scalar _ _ _ _ rfl

/-- Row `p` of the reduced vector with column `q` put back is `(p, q)`. -/
theorem lift_row (p : Fin 1024) (q : Fin 256) : reduces_S1024x256_S1024.lift (ix1 p) q = ix2 p q := by
  funext c
  match c with
  | ⟨0, _⟩ => exact Fin.ext rfl
  | ⟨1, _⟩ => exact Fin.ext rfl

/-- A [1024] vector viewed as a [1024, 1] column reads its entry `p` at `(p, u)`. -/
theorem cast_col {α : Type} (x : S1024.Idx → α) (p : Fin 1024) (u : Fin 1) :
    shapeCast S1024x1 x shapeCasts_S1024_S1024x1 (ix2 p u) = x (ix1 p) :=
  shapeCast_apply x shapeCasts_S1024_S1024x1 (ix2 p u) (ix1 p) (by
    rw [Shape.rowMajor_val_two, Shape.rowMajor_val_one]
    show p.val = p.val * 1 + u.val
    omega)

/-- A [1024, 1] column spread over 256 columns reads its entry of row `p` at `(p, q)`. -/
theorem bcast_col {α : Type} (x : S1024x1.Idx → α) (p : Fin 1024) (q : Fin 256) :
    broadcastTo S1024x256 x broadcasts_S1024x1_S1024x256 (ix2 p q) = x (ix2 p 0) := by
  refine broadcastTo_apply x broadcasts_S1024x1_S1024x256 (ix2 p q) (ix2 p 0) fun ax => ?_
  match ax with
  | ⟨0, _⟩ => rfl
  | ⟨1, _⟩ => rfl

/-- The maximum along the columns, as a column: at row `p` the fold of `max` from bottom over the row. -/
theorem rowMax_apply (x : S1024x256.Idx → EReal) (p : Fin 1024) (u : Fin 1) :
    shapeCast S1024x1 (multiReduction (F := Ideal) .maximumf [1] S1024 x 0xFF800000#32 reduces_S1024x256_S1024 (.inl rfl) rfl)
      shapeCasts_S1024_S1024x1 (ix2 p u) = (Finset.univ : Finset (Fin 256)).fold max ⊥ fun q => x (ix2 p q) := by
  refine (cast_col _ p u).trans ?_
  refine (Ideal.multiReduction_maximumf_single (φ := .f32) x 0xFF800000#32 reduces_S1024x256_S1024 (.inl rfl) rfl (ix1 p)).trans ?_
  rw [negInf_f32]
  refine congrArg (fun f => (Finset.univ : Finset (Fin 256)).fold max ⊥ f) (funext fun q => ?_)
  exact congrArg x (lift_row p q)

/-- The sum along the columns, as a column: at row `p` the sum over the row. -/
theorem rowSum_apply (x : S1024x256.Idx → EReal) (p : Fin 1024) (u : Fin 1) :
    shapeCast S1024x1 (multiReduction (F := Ideal) .add [1] S1024 x 0x00000000#32 reduces_S1024x256_S1024 (.inl rfl) rfl)
      shapeCasts_S1024_S1024x1 (ix2 p u) = ∑ q : Fin 256, x (ix2 p q) := by
  refine (cast_col _ p u).trans ?_
  refine (Ideal.multiReduction_add_single (φ := .f32) x 0x00000000#32 reduces_S1024x256_S1024 (.inl rfl) rfl (ix1 p)).trans ?_
  exact Finset.sum_congr rfl fun q _ => congrArg x (lift_row p q)

/-- A select on the equality of two words is the `if` on it. -/
theorem select_cmpi_eq {α : Type} (x y : BitVec 32) (a b : α) :
    Scalar.select (IntOp.cmpi .eq x y) a b = if x = y then a else b := by
  unfold Scalar.select
  by_cases h : x = y
  · have hc : IntOp.cmpi .eq x y = 1 := StableHlo.Predicate.cmpi_eq_iff.mpr h
    rw [if_pos hc, if_pos h]
  · have hc : ¬ IntOp.cmpi .eq x y = 1 := fun hc => h (StableHlo.Predicate.cmpi_eq_iff.mp hc)
    rw [if_neg hc, if_neg h]

/-! ## The operations of one sub-block, over any operands -/

/-- The logits: the left operand against the narrowed right operand, into the zero accumulator. -/
theorem logits_chain (v5 : S1024x2048.Idx → EReal) (w : S256x2048.Idx → EReal) (p : Fin 1024) (q : Fin 256) :
    matmul (F := Ideal) (φ₁ := .bf16) (φ₂ := .bf16) dot_S1024x2048_S256x2048_S1024x256_1_1_0_0_n_n none v5
      (truncf .bf16 (φ := .f32) w bitsLt_bf16_f32) (constant S1024x256 .f32 0x00000000#32) (ix2 p q) = chunkLogit v5 w p q :=
  matmul_zero_apply v5 w p q

/-- The new maximum: the old one against the largest entry of the row. -/
theorem max_chain (x : S1024x256.Idx → EReal) (m : S1024x1.Idx → EReal) (p : Fin 1024) :
    maximumf (F := Ideal) (φ := .f32) m (shapeCast S1024x1
      (multiReduction (F := Ideal) .maximumf [1] S1024 x 0xFF800000#32 reduces_S1024x256_S1024 (.inl rfl) rfl)
      shapeCasts_S1024_S1024x1) (ix2 p 0) = max (m (ix2 p 0)) ((Finset.univ : Finset (Fin 256)).fold max ⊥ fun q => x (ix2 p q)) :=
  (maximumf_apply _ _ _).trans (congrArg (max (m (ix2 p 0))) (rowMax_apply x p 0))

/-- The new partition sum: the old one rescaled to the new maximum, plus the row's shifted exponentials. -/
theorem sum_chain (x : S1024x256.Idx → EReal) (m m' l : S1024x1.Idx → EReal) (p : Fin 1024) :
    shapeCast S1024x1 (addf (F := Ideal) (φ := .f32) (mulf (exp (subf m m')) l) (shapeCast S1024x1
      (multiReduction (F := Ideal) .add [1] S1024 (exp (subf x (broadcastTo S1024x256 m' broadcasts_S1024x1_S1024x256)))
        0x00000000#32 reduces_S1024x256_S1024 (.inl rfl) rfl) shapeCasts_S1024_S1024x1)) shapeCasts_S1024x1_S1024x1 (ix2 p 0)
      = Ideal.exp (m (ix2 p 0) - m' (ix2 p 0)) * l (ix2 p 0) + ∑ q : Fin 256, Ideal.exp (x (ix2 p q) - m' (ix2 p 0)) := by
  rw [shapeCast_self]
  refine (addf_apply _ _ _).trans ?_
  refine congrArg₂ (· + ·) rfl ((rowSum_apply _ p 0).trans (Finset.sum_congr rfl fun q _ => ?_))
  show Ideal.exp (x (ix2 p q) - broadcastTo S1024x256 m' broadcasts_S1024x1_S1024x256 (ix2 p q)) = _
  rw [bcast_col]

/-- One masked logit: the logit where the column's index is the label less the offset, bottom elsewhere. -/
theorem masked_apply (v7 : S1024x1.Idx → BitVec 32) (x : S1024x256.Idx → EReal) (off : BitVec 32) (p : Fin 1024) (q : Fin 256) :
    select (cmpi .eq (iota .tc S1024x256 32 [1] iota_S1024x256_d1_w32)
        (broadcastTo S1024x256 (subi v7 (broadcast S1024x1 off)) broadcasts_S1024x1_S1024x256))
      x (broadcast S1024x256 (Named.named (F := Ideal) κ "neg_big" (φ := .f32) 0xF149F2CA#32)) (ix2 p q)
      = if BitVec.ofNat 32 q.val = v7 (ix2 p 0) - off then x (ix2 p q) else ⊥ := by
  refine (select_apply _ _ _ _).trans ?_
  show Scalar.select (IntOp.cmpi .eq (iota .tc S1024x256 32 [1] iota_S1024x256_d1_w32 (ix2 p q))
      (broadcastTo S1024x256 (subi v7 (broadcast S1024x1 off)) broadcasts_S1024x1_S1024x256 (ix2 p q)))
    (x (ix2 p q)) (Named.named (F := Ideal) κ "neg_big" (φ := .f32) 0xF149F2CA#32) = _
  rw [iota_single_apply, bcast_col, neg_big, select_cmpi_eq]
  rfl

/-- The new labelled logit: the old one against the row's masked logits. -/
theorem tgt_chain (v7 : S1024x1.Idx → BitVec 32) (x : S1024x256.Idx → EReal) (off : BitVec 32) (t : S1024x1.Idx → EReal) (p : Fin 1024) :
    shapeCast S1024x1 (maximumf (F := Ideal) (φ := .f32) t (shapeCast S1024x1
      (multiReduction (F := Ideal) .maximumf [1] S1024
        (select (cmpi .eq (iota .tc S1024x256 32 [1] iota_S1024x256_d1_w32)
            (broadcastTo S1024x256 (subi v7 (broadcast S1024x1 off)) broadcasts_S1024x1_S1024x256))
          x (broadcast S1024x256 (Named.named (F := Ideal) κ "neg_big" (φ := .f32) 0xF149F2CA#32)))
        0xFF800000#32 reduces_S1024x256_S1024 (.inl rfl) rfl) shapeCasts_S1024_S1024x1)) shapeCasts_S1024x1_S1024x1 (ix2 p 0)
      = max (t (ix2 p 0)) ((Finset.univ : Finset (Fin 256)).fold max ⊥ fun q =>
          if BitVec.ofNat 32 q.val = v7 (ix2 p 0) - off then x (ix2 p q) else ⊥) := by
  rw [shapeCast_self]
  refine (max_chain _ t p).trans ?_
  exact congrArg (fun f => max (t (ix2 p 0)) ((Finset.univ : Finset (Fin 256)).fold max ⊥ f))
    (funext fun q => masked_apply v7 x off p q)

/-! ## The hidden block and the labels as the kernel holds them -/

/-- The narrowed hidden block is the hidden block. -/
theorem pay7_eq (v3 : S1024x2048.Idx → EReal) : k0_pay7 (F := Ideal) v3 = v3 := by
  unfold k0_pay7
  exact shapeCast_self v3 _

/-- The labels' cast to their own shape is the identity. -/
theorem pay8_eq (v6 : S1024x1.Idx → BitVec 32) : k0_pay8 (F := Ideal) v6 = v6 := by
  unfold k0_pay8
  exact shapeCast_self v6 _

/-! ## Sub-block 0 (weight rows 0 to 255 of the grid point's block) -/

theorem pay9_apply (v3 : S1024x2048.Idx → EReal) (v9 : S256x2048.Idx → EReal) (p : Fin 1024) (q : Fin 256) :
    k0_pay9 (F := Ideal) v3 v9 (ix2 p q) = chunkLogit v3 v9 p q := by
  unfold k0_pay9
  rw [pay7_eq]
  exact logits_chain v3 v9 p q

theorem pay10_apply (v3 : S1024x2048.Idx → EReal) (v9 : S256x2048.Idx → EReal) (v14 : S1024x1.Idx → EReal) (p : Fin 1024) :
    k0_pay10 (F := Ideal) v3 v9 v14 (ix2 p 0) = max (v14 (ix2 p 0)) (chunkMax v3 v9 p) := by
  unfold k0_pay10
  refine (max_chain _ v14 p).trans ?_
  unfold chunkMax
  simp only [pay9_apply]

theorem pay12_apply (v3 : S1024x2048.Idx → EReal) (v9 : S256x2048.Idx → EReal) (v14 : S1024x1.Idx → EReal) (p : Fin 1024) :
    k0_pay12 (F := Ideal) v3 v9 v14 (ix2 p 0) = max (v14 (ix2 p 0)) (chunkMax v3 v9 p) := by
  unfold k0_pay12
  rw [shapeCast_self]
  exact pay10_apply v3 v9 v14 p

theorem pay11_apply (v3 : S1024x2048.Idx → EReal) (v9 : S256x2048.Idx → EReal) (v14 v21 : S1024x1.Idx → EReal) (p : Fin 1024) :
    k0_pay11 (F := Ideal) v3 v9 v14 v21 (ix2 p 0)
      = Ideal.exp (v14 (ix2 p 0) - max (v14 (ix2 p 0)) (chunkMax v3 v9 p)) * v21 (ix2 p 0)
        + ∑ q : Fin 256, Ideal.exp (chunkLogit v3 v9 p q - max (v14 (ix2 p 0)) (chunkMax v3 v9 p)) := by
  unfold k0_pay11
  refine (sum_chain _ v14 _ v21 p).trans ?_
  simp only [pay9_apply, pay10_apply]

/-- The labelled logit after sub-block 0's logits `v11`. The offset is the word `v33` the payload is given. -/
theorem pay13_apply (v7 : S1024x1.Idx → BitVec 32) (v11 : S1024x256.Idx → EReal) (v33 : BitVec 32) (v42 : S1024x1.Idx → EReal) (p : Fin 1024) :
    k0_pay13 (F := Ideal) v7 (iota .tc S1024x256 32 [1] iota_S1024x256_d1_w32) v11 v33 v42 (ix2 p 0)
      = max (v42 (ix2 p 0)) ((Finset.univ : Finset (Fin 256)).fold max ⊥ fun q =>
          if BitVec.ofNat 32 q.val = v7 (ix2 p 0) - v33 then v11 (ix2 p q) else ⊥) := by
  unfold k0_pay13
  exact tgt_chain v7 v11 v33 v42 p

/-! ## Sub-block 1 (weight rows 256 to 511) -/

theorem pay14_apply (v3 : S1024x2048.Idx → EReal) (v47 : S256x2048.Idx → EReal) (p : Fin 1024) (q : Fin 256) :
    k0_pay14 (F := Ideal) (k0_pay7 v3) v47 (ix2 p q) = chunkLogit v3 v47 p q := by
  unfold k0_pay14
  rw [pay7_eq]
  exact logits_chain v3 v47 p q

theorem pay15_apply (v3 : S1024x2048.Idx → EReal) (v47 : S256x2048.Idx → EReal) (v52 : S1024x1.Idx → EReal) (p : Fin 1024) :
    k0_pay15 (F := Ideal) (k0_pay7 v3) v47 v52 (ix2 p 0) = max (v52 (ix2 p 0)) (chunkMax v3 v47 p) := by
  unfold k0_pay15
  refine (max_chain _ v52 p).trans ?_
  unfold chunkMax
  simp only [pay14_apply]

theorem pay17_apply (v3 : S1024x2048.Idx → EReal) (v47 : S256x2048.Idx → EReal) (v52 : S1024x1.Idx → EReal) (p : Fin 1024) :
    k0_pay17 (F := Ideal) (k0_pay7 v3) v47 v52 (ix2 p 0) = max (v52 (ix2 p 0)) (chunkMax v3 v47 p) := by
  unfold k0_pay17
  rw [shapeCast_self]
  exact pay15_apply v3 v47 v52 p

theorem pay16_apply (v3 : S1024x2048.Idx → EReal) (v47 : S256x2048.Idx → EReal) (v52 v59 : S1024x1.Idx → EReal) (p : Fin 1024) :
    k0_pay16 (F := Ideal) (k0_pay7 v3) v47 v52 v59 (ix2 p 0)
      = Ideal.exp (v52 (ix2 p 0) - max (v52 (ix2 p 0)) (chunkMax v3 v47 p)) * v59 (ix2 p 0)
        + ∑ q : Fin 256, Ideal.exp (chunkLogit v3 v47 p q - max (v52 (ix2 p 0)) (chunkMax v3 v47 p)) := by
  unfold k0_pay16
  refine (sum_chain _ v52 _ v59 p).trans ?_
  simp only [pay14_apply, pay15_apply]

/-- The labelled logit after sub-block 1's logits `v49`. The offset is left as the payload spells it, `Scalar.addi v70 256#32` (the word `v70 + 256`). -/
theorem pay18_apply (v7 : S1024x1.Idx → BitVec 32) (v49 : S1024x256.Idx → EReal) (v70 : BitVec 32) (v80 : S1024x1.Idx → EReal) (p : Fin 1024) :
    k0_pay18 (F := Ideal) v7 (iota .tc S1024x256 32 [1] iota_S1024x256_d1_w32) v49 v70 v80 (ix2 p 0)
      = max (v80 (ix2 p 0)) ((Finset.univ : Finset (Fin 256)).fold max ⊥ fun q =>
          if BitVec.ofNat 32 q.val = v7 (ix2 p 0) - Scalar.addi v70 256#32 then v49 (ix2 p q) else ⊥) := by
  unfold k0_pay18
  exact tgt_chain v7 v49 (Scalar.addi v70 256#32) v80 p

/-! ## Sub-block 2 (weight rows 512 to 767) -/

theorem pay19_apply (v3 : S1024x2048.Idx → EReal) (v85 : S256x2048.Idx → EReal) (p : Fin 1024) (q : Fin 256) :
    k0_pay19 (F := Ideal) (k0_pay7 v3) v85 (ix2 p q) = chunkLogit v3 v85 p q := by
  unfold k0_pay19
  rw [pay7_eq]
  exact logits_chain v3 v85 p q

theorem pay20_apply (v3 : S1024x2048.Idx → EReal) (v85 : S256x2048.Idx → EReal) (v90 : S1024x1.Idx → EReal) (p : Fin 1024) :
    k0_pay20 (F := Ideal) (k0_pay7 v3) v85 v90 (ix2 p 0) = max (v90 (ix2 p 0)) (chunkMax v3 v85 p) := by
  unfold k0_pay20
  refine (max_chain _ v90 p).trans ?_
  unfold chunkMax
  simp only [pay19_apply]

theorem pay22_apply (v3 : S1024x2048.Idx → EReal) (v85 : S256x2048.Idx → EReal) (v90 : S1024x1.Idx → EReal) (p : Fin 1024) :
    k0_pay22 (F := Ideal) (k0_pay7 v3) v85 v90 (ix2 p 0) = max (v90 (ix2 p 0)) (chunkMax v3 v85 p) := by
  unfold k0_pay22
  rw [shapeCast_self]
  exact pay20_apply v3 v85 v90 p

theorem pay21_apply (v3 : S1024x2048.Idx → EReal) (v85 : S256x2048.Idx → EReal) (v90 v97 : S1024x1.Idx → EReal) (p : Fin 1024) :
    k0_pay21 (F := Ideal) (k0_pay7 v3) v85 v90 v97 (ix2 p 0)
      = Ideal.exp (v90 (ix2 p 0) - max (v90 (ix2 p 0)) (chunkMax v3 v85 p)) * v97 (ix2 p 0)
        + ∑ q : Fin 256, Ideal.exp (chunkLogit v3 v85 p q - max (v90 (ix2 p 0)) (chunkMax v3 v85 p)) := by
  unfold k0_pay21
  refine (sum_chain _ v90 _ v97 p).trans ?_
  simp only [pay19_apply, pay20_apply]

/-- The labelled logit after sub-block 2's logits `v87`. The offset is left as the payload spells it, `Scalar.addi (Scalar.muli arg1 1280#32) 512#32` (the word `arg1 * 1280 + 512`). -/
theorem pay23_apply (arg1 : BitVec 32) (v7 : S1024x1.Idx → BitVec 32) (v87 : S1024x256.Idx → EReal) (v118 : S1024x1.Idx → EReal) (p : Fin 1024) :
    k0_pay23 (F := Ideal) arg1 v7 (iota .tc S1024x256 32 [1] iota_S1024x256_d1_w32) v87 v118 (ix2 p 0)
      = max (v118 (ix2 p 0)) ((Finset.univ : Finset (Fin 256)).fold max ⊥ fun q =>
          if BitVec.ofNat 32 q.val = v7 (ix2 p 0) - Scalar.addi (Scalar.muli arg1 1280#32) 512#32 then v87 (ix2 p q) else ⊥) := by
  unfold k0_pay23
  exact tgt_chain v7 v87 (Scalar.addi (Scalar.muli arg1 1280#32) 512#32) v118 p

/-! ## Sub-block 3 (weight rows 768 to 1023) -/

theorem pay24_apply (v3 : S1024x2048.Idx → EReal) (v123 : S256x2048.Idx → EReal) (p : Fin 1024) (q : Fin 256) :
    k0_pay24 (F := Ideal) (k0_pay7 v3) v123 (ix2 p q) = chunkLogit v3 v123 p q := by
  unfold k0_pay24
  rw [pay7_eq]
  exact logits_chain v3 v123 p q

theorem pay25_apply (v3 : S1024x2048.Idx → EReal) (v123 : S256x2048.Idx → EReal) (v128 : S1024x1.Idx → EReal) (p : Fin 1024) :
    k0_pay25 (F := Ideal) (k0_pay7 v3) v123 v128 (ix2 p 0) = max (v128 (ix2 p 0)) (chunkMax v3 v123 p) := by
  unfold k0_pay25
  refine (max_chain _ v128 p).trans ?_
  unfold chunkMax
  simp only [pay24_apply]

theorem pay26_apply (v3 : S1024x2048.Idx → EReal) (v123 : S256x2048.Idx → EReal) (v128 v135 : S1024x1.Idx → EReal) (p : Fin 1024) :
    k0_pay26 (F := Ideal) (k0_pay7 v3) v123 v128 v135 (ix2 p 0)
      = Ideal.exp (v128 (ix2 p 0) - max (v128 (ix2 p 0)) (chunkMax v3 v123 p)) * v135 (ix2 p 0)
        + ∑ q : Fin 256, Ideal.exp (chunkLogit v3 v123 p q - max (v128 (ix2 p 0)) (chunkMax v3 v123 p)) := by
  unfold k0_pay26
  refine (sum_chain _ v128 _ v135 p).trans ?_
  simp only [pay24_apply, pay25_apply]

/-- The labelled logit after sub-block 3's logits `v125`. The offset is left as the payload spells it, `Scalar.addi (Scalar.muli arg1 1280#32) 768#32` (the word `arg1 * 1280 + 768`). -/
theorem pay28_apply (arg1 : BitVec 32) (v7 : S1024x1.Idx → BitVec 32) (v125 : S1024x256.Idx → EReal) (v156 : S1024x1.Idx → EReal) (p : Fin 1024) :
    k0_pay28 (F := Ideal) arg1 v7 (iota .tc S1024x256 32 [1] iota_S1024x256_d1_w32) v125 v156 (ix2 p 0)
      = max (v156 (ix2 p 0)) ((Finset.univ : Finset (Fin 256)).fold max ⊥ fun q =>
          if BitVec.ofNat 32 q.val = v7 (ix2 p 0) - Scalar.addi (Scalar.muli arg1 1280#32) 768#32 then v125 (ix2 p q) else ⊥) := by
  unfold k0_pay28
  exact tgt_chain v7 v125 (Scalar.addi (Scalar.muli arg1 1280#32) 768#32) v156 p

/-! ## Sub-block 4 (weight rows 1024 to 1279) -/

theorem pay29_apply (v3 : S1024x2048.Idx → EReal) (v161 : S256x2048.Idx → EReal) (p : Fin 1024) (q : Fin 256) :
    k0_pay29 (F := Ideal) (k0_pay7 v3) v161 (ix2 p q) = chunkLogit v3 v161 p q := by
  unfold k0_pay29
  rw [pay7_eq]
  exact logits_chain v3 v161 p q

theorem pay30_apply (v3 : S1024x2048.Idx → EReal) (v161 : S256x2048.Idx → EReal) (v166 : S1024x1.Idx → EReal) (p : Fin 1024) :
    k0_pay30 (F := Ideal) (k0_pay7 v3) v161 v166 (ix2 p 0) = max (v166 (ix2 p 0)) (chunkMax v3 v161 p) := by
  unfold k0_pay30
  refine (max_chain _ v166 p).trans ?_
  unfold chunkMax
  simp only [pay29_apply]

theorem pay31_apply (v3 : S1024x2048.Idx → EReal) (v161 : S256x2048.Idx → EReal) (v166 v173 : S1024x1.Idx → EReal) (p : Fin 1024) :
    k0_pay31 (F := Ideal) (k0_pay7 v3) v161 v166 v173 (ix2 p 0)
      = Ideal.exp (v166 (ix2 p 0) - max (v166 (ix2 p 0)) (chunkMax v3 v161 p)) * v173 (ix2 p 0)
        + ∑ q : Fin 256, Ideal.exp (chunkLogit v3 v161 p q - max (v166 (ix2 p 0)) (chunkMax v3 v161 p)) := by
  unfold k0_pay31
  refine (sum_chain _ v166 _ v173 p).trans ?_
  simp only [pay29_apply, pay30_apply]

/-- The labelled logit after sub-block 4's logits `v163`. The offset is left as the payload spells it, `Scalar.addi (Scalar.muli arg1 1280#32) 1024#32` (the word `arg1 * 1280 + 1024`). -/
theorem pay2_apply (arg1 : BitVec 32) (v7 : S1024x1.Idx → BitVec 32) (v163 : S1024x256.Idx → EReal) (v194 : S1024x1.Idx → EReal) (p : Fin 1024) :
    k0_pay2 (F := Ideal) arg1 v7 (iota .tc S1024x256 32 [1] iota_S1024x256_d1_w32) v163 v194 (ix2 p 0)
      = max (v194 (ix2 p 0)) ((Finset.univ : Finset (Fin 256)).fold max ⊥ fun q =>
          if BitVec.ofNat 32 q.val = v7 (ix2 p 0) - Scalar.addi (Scalar.muli arg1 1280#32) 1024#32 then v163 (ix2 p q) else ⊥) := by
  unfold k0_pay2
  exact tgt_chain v7 v163 (Scalar.addi (Scalar.muli arg1 1280#32) 1024#32) v194 p

/-! ## Stores of a statistic as it stands -/

/-- Sub-block 3's new maximum is stored as it is. -/
theorem pay27_eq (v : S1024x1.Idx → EReal) : k0_pay27 (F := Ideal) v = v := by
  unfold k0_pay27
  exact shapeCast_self v _

/-- Sub-block 4's new maximum is stored as it is. -/
theorem pay1_eq (v : S1024x1.Idx → EReal) : k0_pay1 (F := Ideal) v = v := by
  unfold k0_pay1
  exact shapeCast_self v _

/-! ## The resets at the first vocabulary block -/

/-- The running maximum starts at bottom. -/
theorem pay4_apply (i : S1024x1.Idx) : k0_pay4 (F := Ideal) i = (⊥ : EReal) := by
  unfold k0_pay4
  rw [shapeCast_self]
  exact neg_big

/-- The partition sum starts at zero. -/
theorem pay5_apply (i : S1024x1.Idx) : k0_pay5 (F := Ideal) i = (0 : EReal) := by
  unfold k0_pay5
  rw [shapeCast_self]
  exact Ideal.ofBits_zero_f32

/-- The labelled logit starts at bottom. -/
theorem pay6_apply (i : S1024x1.Idx) : k0_pay6 (F := Ideal) i = (⊥ : EReal) := by
  unfold k0_pay6
  rw [shapeCast_self]
  exact neg_big

/-! ## The row's term of the loss -/

/-- A select on the inequality of two words is the `if` on their equality, the branches swapped. -/
theorem select_cmpi_ne {α : Type} (x y : BitVec 32) (a b : α) :
    Scalar.select (IntOp.cmpi .ne x y) a b = if x = y then b else a := by
  unfold Scalar.select
  by_cases h : x = y
  · have hc : ¬ IntOp.cmpi .ne x y = 1 := fun hc =>
      bne_iff_ne.mp ((StableHlo.Predicate.ofBool_eq_one_iff (x != y)).mp hc) h
    rw [if_neg hc, if_pos h]
  · have hc : IntOp.cmpi .ne x y = 1 :=
      (StableHlo.Predicate.ofBool_eq_one_iff (x != y)).mpr (bne_iff_ne.mpr h)
    rw [if_pos hc, if_neg h]

/-- The term of row `p`: zero for the ignore label, else the negated log-probability
    `0 − (t − (m + log l))` of the labelled column. -/
theorem pay3_apply (v7 : S1024x1.Idx → BitVec 32) (v202 v203 v206 : S1024x1.Idx → EReal) (p : Fin 1024) :
    k0_pay3 (F := Ideal) v7 v202 v203 v206 (ix2 p 0)
      = if v7 (ix2 p 0) = Cert.Xent.ignoreWord then 0
        else 0 - (v206 (ix2 p 0) - (v202 (ix2 p 0) + Ideal.log (v203 (ix2 p 0)))) := by
  unfold k0_pay3
  refine (select_apply _ _ _ _).trans ?_
  show Scalar.select (IntOp.cmpi .ne (v7 (ix2 p 0)) 4294967196#32)
      (Ideal.ofBits .f32 0x00000000#32 - (v206 (ix2 p 0) - (v202 (ix2 p 0) + Ideal.log (v203 (ix2 p 0)))))
      (Ideal.ofBits .f32 0x00000000#32) = _
  rw [select_cmpi_ne, Ideal.ofBits_zero_f32]

end Cert.Xent.Pay

end
-- ==== Proof.OnlineLse.lean ====
/-
  The online log-sum-exp recurrence, one row at a time.

  The kernel meets a row's logits a chunk of `d` columns at a time. With `M` the maximum and `L = Σ exp (x − M)` the
  shifted partition sum of the columns seen so far, a chunk updates `M' = max M (chunk's maximum)` and
  `L' = exp (M − M') · L + Σ_chunk exp (x − M')`: since `exp (M − M') · exp (x − M) = exp (x − M')` on the reals, `L'` is
  again the partition sum shifted by the new maximum. Before the first chunk `M = ⊥`, `L = 0`, and `exp ⊥ · 0 = 0`.
  The labelled logit is carried as a maximum over a one-hot selection against `⊥`, the identity of `max`.
  At the end `0 − (x_l − (M + c)) = −((x_l − M) − c)` for real `x_l`, `M` and any extended real `c`.

  How the statements are reached. A fold of `max` from `⊥` over a finite index set is that set's supremum, and a
  supremum over `Fin d` of `f (n + q)` together with the supremum of `f` over the first `n` naturals is the supremum
  over the first `n + d`: both inequalities are read off from the defining property of a least upper bound. For the
  partition sum, when no column has been seen the old sum is `0` and the product with it vanishes whatever the
  rescaling factor is; otherwise every logit in sight is a real number, so both maxima are real (a supremum of a
  nonempty finite family in a linear order is attained), every exponential is the coercion of a real exponential, and
  the identity is the real one `e^{m − m'} · Σ_{v<n} e^{r_v − m} + Σ_{q<d} e^{r_{n+q} − m'} = Σ_{v<n+d} e^{r_v − m'}`,
  carried back through the coercion, which is additive and multiplicative on the reals.
-/
import proofs.«405030_j56942676410880_3_alg».proof.Proof.Spec
import Mathlib.Data.EReal.Operations
import Mathlib.Analysis.SpecialFunctions.Exp
import Mathlib.Data.Fintype.BigOperators
import Mathlib.Algebra.BigOperators.Intervals

noncomputable section

namespace Cert.Xent

open Idealize.ShloMosaic

/-! ### Folds, suprema and sums over an initial segment -/

/-- A fold of `max` from the bottom is the supremum. -/
theorem fold_max_eq_sup {ι : Type*} (s : Finset ι) (f : ι → EReal) : s.fold max ⊥ f = s.sup f := rfl

/-- The supremum over `Fin d` of a function of the value is the supremum over the first `d` naturals. -/
theorem sup_fin_eq_sup_range (f : ℕ → EReal) (d : ℕ) :
    (Finset.univ : Finset (Fin d)).sup (fun q => f q.val) = (Finset.range d).sup f := by
  apply le_antisymm
  · apply Finset.sup_le
    intro q _
    exact Finset.le_sup (f := f) (Finset.mem_range.mpr q.isLt)
  · apply Finset.sup_le
    intro i hi
    exact Finset.le_sup (f := fun q : Fin d => f q.val) (Finset.mem_univ ⟨i, Finset.mem_range.mp hi⟩)

/-- The supremum over the first `n + d` naturals splits into the first `n` and the next `d`. -/
theorem sup_range_add (f : ℕ → EReal) (n d : ℕ) :
    max ((Finset.range n).sup f) ((Finset.univ : Finset (Fin d)).sup fun q => f (n + q.val))
      = (Finset.range (n + d)).sup f := by
  apply le_antisymm
  · apply max_le
    · apply Finset.sup_le
      intro v hv
      exact Finset.le_sup (f := f) (Finset.mem_range.mpr (by have := Finset.mem_range.mp hv; omega))
    · apply Finset.sup_le
      intro q _
      exact Finset.le_sup (f := f) (Finset.mem_range.mpr (by have := q.isLt; omega))
  · apply Finset.sup_le
    intro v hv
    have hv' := Finset.mem_range.mp hv
    by_cases hvn : v < n
    · exact le_max_of_le_left (Finset.le_sup (f := f) (Finset.mem_range.mpr hvn))
    · apply le_max_of_le_right
      have hq : v - n < d := by omega
      have h := Finset.le_sup (f := fun q : Fin d => f (n + q.val)) (Finset.mem_univ (⟨v - n, hq⟩ : Fin d))
      have e : n + (v - n) = v := by omega
      simpa [e] using h

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### The empty prefix -/

theorem runMax_zero (x : ℕ → EReal) : runMax x 0 = ⊥ := by simp [runMax]

theorem runSum_zero (x : ℕ → EReal) : runSum x 0 = 0 := by simp [runSum]

theorem runTgt_zero (x : ℕ → EReal) (l : ℕ) : runTgt x l 0 = ⊥ := by simp [runTgt]

/-! ### The maxima -/

/-- A chunk's maximum joins the running maximum. -/
theorem runMax_step (x : ℕ → EReal) (n d : ℕ) :
    max (runMax x n) ((Finset.univ : Finset (Fin d)).fold max ⊥ fun q => x (n + q.val)) = runMax x (n + d) := by
  rw [fold_max_eq_sup]
  exact sup_range_add x n d

/-- A chunk's one-hot selection joins the labelled logit. -/
theorem runTgt_step (x : ℕ → EReal) (l n d : ℕ) :
    max (runTgt x l n) ((Finset.univ : Finset (Fin d)).fold max ⊥ fun q => if l = n + q.val then x (n + q.val) else ⊥)
      = runTgt x l (n + d) := by
  rw [fold_max_eq_sup]
  exact sup_range_add (fun v => if l = v then x v else ⊥) n d

/-- Once the label's column has been seen the labelled logit is that column's. -/
theorem runTgt_of_lt (x : ℕ → EReal) (l n : ℕ) (h : l < n) : runTgt x l n = x l := by
  unfold runTgt
  apply le_antisymm
  · apply Finset.sup_le
    intro v _
    by_cases hlv : l = v
    · subst hlv; simp
    · simp [hlv]
  · have h' := Finset.le_sup (f := fun v => if l = v then x v else ⊥) (Finset.mem_range.mpr h)
    simpa using h'

/-- The running maximum over all `N` columns as a fold over `Fin N`. -/
theorem runMax_eq_fold (x : ℕ → EReal) (N : ℕ) :
    runMax x N = (Finset.univ : Finset (Fin N)).fold max ⊥ (fun v => x v.val) := by
  rw [fold_max_eq_sup, sup_fin_eq_sup_range]
  rfl

/-- The partition sum over all `N` columns as a sum over `Fin N`. -/
theorem runSum_eq_sum (x : ℕ → EReal) (N : ℕ) :
    runSum x N = ∑ v : Fin N, Ideal.exp (x v.val - runMax x N) := by
  unfold runSum
  exact (Fin.sum_univ_eq_sum_range (fun v => Ideal.exp (x v - runMax x N)) N).symm

/-- The maximum of real logits is real (for a nonempty row). -/
theorem runMax_real (x : ℕ → EReal) (n : ℕ) (hn : 0 < n) (hx : ∀ v, v < n → ∃ r : ℝ, x v = (r : EReal)) :
    ∃ r : ℝ, runMax x n = (r : EReal) := by
  have hne : (Finset.range n).Nonempty := ⟨0, Finset.mem_range.mpr hn⟩
  obtain ⟨i, hi, he⟩ := Finset.exists_mem_eq_sup (Finset.range n) hne x
  obtain ⟨r, hr⟩ := hx i (Finset.mem_range.mp hi)
  exact ⟨r, by unfold runMax; rw [he, hr]⟩

/-! ### The partition sum -/

/-- Over real logits with a real maximum the partition sum is the coercion of the real one. -/
theorem runSum_coe (x : ℕ → EReal) (r : ℕ → ℝ) (k : ℕ) (m : ℝ) (hr : ∀ v, v < k → x v = (r v : EReal))
    (hm : runMax x k = (m : EReal)) :
    runSum x k = ((∑ v ∈ Finset.range k, Real.exp (r v - m) : ℝ) : EReal) := by
  unfold runSum
  rw [hm, coe_finset_sum]
  apply Finset.sum_congr rfl
  intro v hv
  rw [hr v (Finset.mem_range.mp hv), ← EReal.coe_sub, Ideal.exp_coe]

/-- A chunk's update of the partition sum: the old sum rescaled to the new maximum, plus the chunk's terms. -/
theorem runSum_step (x : ℕ → EReal) (n d : ℕ) (hx : ∀ v, v < n + d → ∃ r : ℝ, x v = (r : EReal)) :
    Ideal.exp (runMax x n - runMax x (n + d)) * runSum x n + ∑ q : Fin d, Ideal.exp (x (n + q.val) - runMax x (n + d))
      = runSum x (n + d) := by
  rcases Nat.eq_zero_or_pos n with hn | hn
  · subst hn
    simp only [Nat.zero_add]
    rw [runSum_zero, mul_zero, zero_add, runSum_eq_sum]
  · obtain ⟨m, hm⟩ := runMax_real x n hn (fun v hv => hx v (by omega))
    obtain ⟨m', hm'⟩ := runMax_real x (n + d) (by omega) hx
    have hr : ∀ v, v < n + d → x v = (((x v).toReal : ℝ) : EReal) := by
      intro v hv
      obtain ⟨s, hs⟩ := hx v hv
      rw [hs, EReal.toReal_coe]
    have hchunk : ∑ q : Fin d, Ideal.exp (x (n + q.val) - (m' : EReal))
        = ((∑ q : Fin d, Real.exp ((x (n + q.val)).toReal - m') : ℝ) : EReal) := by
      rw [coe_finset_sum]
      apply Finset.sum_congr rfl
      intro q _
      rw [hr (n + q.val) (by have := q.isLt; omega), EReal.toReal_coe, ← EReal.coe_sub, Ideal.exp_coe]
    rw [runSum_coe x (fun v => (x v).toReal) n m (fun v hv => hr v (by omega)) hm,
      runSum_coe x (fun v => (x v).toReal) (n + d) m' hr hm', hm, hm', hchunk,
      ← EReal.coe_sub, Ideal.exp_coe, ← EReal.coe_mul, ← EReal.coe_add]
    congr 1
    rw [Finset.sum_range_add, Finset.mul_sum,
      Fin.sum_univ_eq_sum_range (fun i => Real.exp ((x (n + i)).toReal - m')) d]
    congr 1
    apply Finset.sum_congr rfl
    intro v _
    rw [← Real.exp_add]
    congr 1
    ring

/-! ### The row's term -/

/-- The two spellings of a row's term agree: the kernel's `0 − (x_l − (M + c))` is the reference's `−((x_l − M) − c)`. -/
theorem nll_forms (a M : ℝ) (c : EReal) :
    (0 : EReal) - ((a : EReal) - ((M : EReal) + c)) = -(((a : EReal) - (M : EReal)) - c) := by
  induction c using EReal.rec with
  | bot => simp [sub_eq_add_neg]
  | coe c =>
    rw [zero_sub]
    norm_cast
    ring
  | top => simp [sub_eq_add_neg]

end Cert.Xent

end
-- ==== Proof.KStep.lean ====
/-
  One row through one grid point, over the extended reals.

  Fix a row `p` of the point's block of hidden rows and let `x` be that row's logits over the whole vocabulary, the
  point's block of weight rows being rows `n … n + 1279` of the weight. The five sub-chunk updates the point applies
  to the row's three statistics are the chunk steps of the online log-sum-exp recurrence with chunk width 256, so if
  the statistics stand at the running maximum, partition sum and labelled logit over the first `n` columns when the
  point starts, they stand at those over the first `n + 1280` columns when it ends. A lane's column matches the label
  exactly when the label, as a number, is that column: the body compares the lane's position with the label shifted by
  the sub-chunk's first column, in 32-bit words, and no column number comes near the word size.
-/
import proofs.«405030_j56942676410880_3_alg».proof.Proof.KPieces
import proofs.«405030_j56942676410880_3_alg».proof.Proof.Payloads
import proofs.«405030_j56942676410880_3_alg».proof.Proof.OnlineLse

noncomputable section

namespace Cert.Xent.Step

open Cert.KernelIdeal Cert.KernelIdeal.Gen Idealize.ShloMosaic Idealize.ShloMosaic.ValueIdx Cert.Xent Cert.Xent.Pay

/-- Row `q` of the weight sub-block that starts at row `off` is row `off + q` of the point's block of weight rows. -/
theorem sub_block_apply (x1 : S1280x2048.Idx → EReal) (off : ℕ)
    (inb : ∀ a, (![off, 0] : Fin 2 → ℕ) a + (![256, 2048] : Fin 2 → ℕ) a ≤ S1280x2048.size a)
    (hoff : off + 256 ≤ 1280) (q : Fin 256) (k : Fin 2048) :
    View.ld (Val := Elt Ideal) (e' := EltTy.f32) x1 (Rect.unit ![off, 0] ![256, 2048] inb) (ix2 q k) = x1 (ix2 (⟨off + q.val, by omega⟩ : Fin 1280) k) := by
  show x1 _ = x1 _
  congr 1
  funext a
  apply Fin.ext
  match a with
  | ⟨0, _⟩ => show off + 1 * q.val = off + q.val; omega
  | ⟨1, _⟩ => show 0 + 1 * k.val = k.val; omega

/-- The logit of hidden row `p` of the block against weight row `r` of the point's block. -/
def blockLogit (x0 : S1024x2048.Idx → EReal) (x1 : S1280x2048.Idx → EReal) (p : Fin 1024) (r : Fin 1280) : EReal :=
  ∑ k : Fin 2048, x0 (ix2 p k) * x1 (ix2 r k)

/-- The word a sub-chunk shifts the labels by is its first column's number: `1280 j + c` stays far below the word size. -/
theorem lane_cond (lab : BitVec 32) (j c : ℕ) (hj : j < 25) (hc : c ≤ 1024) (n' : ℕ) (hn' : n' = 1280 * j + c) (q : Fin 256) :
    (BitVec.ofNat 32 q.val = lab - Scalar.addi (Scalar.muli (BitVec.ofNat 32 j) 1280#32) (BitVec.ofNat 32 c))
      ↔ lab.toNat = n' + q.val := by
  subst hn'
  have hq := q.isLt
  unfold Scalar.addi Scalar.muli IntOp.addi IntOp.muli
  constructor <;> intro h <;> bv_omega

variable (x0 : S1024x2048.Idx → EReal) (x1 : S1280x2048.Idx → EReal) (p : Fin 1024) (x : ℕ → EReal) (n : ℕ)

/-- A sub-chunk's logits are the row's logits at the sub-chunk's columns. -/
theorem chunkLogit_row (hx : ∀ r : Fin 1280, blockLogit x0 x1 p r = x (n + r.val)) (off : ℕ)
    (inb : ∀ a, (![off, 0] : Fin 2 → ℕ) a + (![256, 2048] : Fin 2 → ℕ) a ≤ S1280x2048.size a)
    (hoff : off + 256 ≤ 1280) (n' : ℕ) (hn' : n' = n + off) (q : Fin 256) :
    chunkLogit x0 (View.ld (Val := Elt Ideal) (e' := EltTy.f32) x1 (Rect.unit ![off, 0] ![256, 2048] inb)) p q = x (n' + q.val) := by
  subst hn'
  unfold chunkLogit
  simp only [sub_block_apply x1 off inb hoff]
  have h := hx ⟨off + q.val, by have := q.isLt; omega⟩
  unfold blockLogit at h
  rw [h, Nat.add_assoc]

theorem chunkMax_row (hx : ∀ r : Fin 1280, blockLogit x0 x1 p r = x (n + r.val)) (off : ℕ)
    (inb : ∀ a, (![off, 0] : Fin 2 → ℕ) a + (![256, 2048] : Fin 2 → ℕ) a ≤ S1280x2048.size a)
    (hoff : off + 256 ≤ 1280) (n' : ℕ) (hn' : n' = n + off) :
    chunkMax x0 (View.ld (Val := Elt Ideal) (e' := EltTy.f32) x1 (Rect.unit ![off, 0] ![256, 2048] inb)) p
      = (Finset.univ : Finset (Fin 256)).fold max ⊥ fun q => x (n' + q.val) := by
  unfold chunkMax
  simp only [chunkLogit_row x0 x1 p x n hx off inb hoff n' hn']

/-! ## The running maximum, sub-chunk by sub-chunk -/

theorem maxAt1_row (hx : ∀ r : Fin 1280, blockLogit x0 x1 p r = x (n + r.val)) (m0 : S1024x1.Idx → EReal)
    (hm : m0 (ix2 p 0) = runMax x n) :
    maxAt1 (F := Ideal) x0 x1 m0 (ix2 p 0) = runMax x (n + 256) := by
  unfold maxAt1
  rw [pay12_apply, hm, chunkMax_row x0 x1 p x n hx 0 _ (by omega) (n) (by omega)]
  exact runMax_step x (n) 256

theorem maxAt2_row (hx : ∀ r : Fin 1280, blockLogit x0 x1 p r = x (n + r.val)) (m0 : S1024x1.Idx → EReal)
    (hm : m0 (ix2 p 0) = runMax x n) :
    maxAt2 (F := Ideal) x0 x1 m0 (ix2 p 0) = runMax x (n + 256 + 256) := by
  unfold maxAt2
  rw [pay17_apply, maxAt1_row x0 x1 p x n hx m0 hm, chunkMax_row x0 x1 p x n hx 256 _ (by omega) (n + 256) (by omega)]
  exact runMax_step x (n + 256) 256

theorem maxAt3_row (hx : ∀ r : Fin 1280, blockLogit x0 x1 p r = x (n + r.val)) (m0 : S1024x1.Idx → EReal)
    (hm : m0 (ix2 p 0) = runMax x n) :
    maxAt3 (F := Ideal) x0 x1 m0 (ix2 p 0) = runMax x (n + 256 + 256 + 256) := by
  unfold maxAt3
  rw [pay22_apply, maxAt2_row x0 x1 p x n hx m0 hm, chunkMax_row x0 x1 p x n hx 512 _ (by omega) (n + 256 + 256) (by omega)]
  exact runMax_step x (n + 256 + 256) 256

theorem maxAt4_row (hx : ∀ r : Fin 1280, blockLogit x0 x1 p r = x (n + r.val)) (m0 : S1024x1.Idx → EReal)
    (hm : m0 (ix2 p 0) = runMax x n) :
    maxAt4 (F := Ideal) x0 x1 m0 (ix2 p 0) = runMax x (n + 256 + 256 + 256 + 256) := by
  unfold maxAt4
  rw [pay27_eq, pay25_apply, maxAt3_row x0 x1 p x n hx m0 hm, chunkMax_row x0 x1 p x n hx 768 _ (by omega) (n + 256 + 256 + 256) (by omega)]
  exact runMax_step x (n + 256 + 256 + 256) 256

theorem maxAfter_row (hx : ∀ r : Fin 1280, blockLogit x0 x1 p r = x (n + r.val)) (m0 : S1024x1.Idx → EReal)
    (hm : m0 (ix2 p 0) = runMax x n) :
    maxAfter (F := Ideal) x0 x1 m0 (ix2 p 0) = runMax x (n + 256 + 256 + 256 + 256 + 256) := by
  unfold maxAfter
  rw [pay1_eq, pay30_apply, maxAt4_row x0 x1 p x n hx m0 hm, chunkMax_row x0 x1 p x n hx 1024 _ (by omega) (n + 256 + 256 + 256 + 256) (by omega)]
  exact runMax_step x (n + 256 + 256 + 256 + 256) 256

/-! ## The partition sum -/

theorem sumAt1_row (hx : ∀ r : Fin 1280, blockLogit x0 x1 p r = x (n + r.val))
    (hr : ∀ v, v < n + 1280 → ∃ r : ℝ, x v = (r : EReal)) (m0 l0 : S1024x1.Idx → EReal)
    (hm : m0 (ix2 p 0) = runMax x n) (hl : l0 (ix2 p 0) = runSum x n) :
    sumAt1 (F := Ideal) x0 x1 m0 l0 (ix2 p 0) = runSum x (n + 256) := by
  unfold sumAt1
  rw [pay11_apply, hm, hl, chunkMax_row x0 x1 p x n hx 0 _ (by omega) (n) (by omega)]
  simp only [chunkLogit_row x0 x1 p x n hx 0 _ (by omega) (n) (by omega)]
  rw [runMax_step x (n) 256]
  exact runSum_step x (n) 256 (fun v hv => hr v (by omega))

theorem sumAt2_row (hx : ∀ r : Fin 1280, blockLogit x0 x1 p r = x (n + r.val))
    (hr : ∀ v, v < n + 1280 → ∃ r : ℝ, x v = (r : EReal)) (m0 l0 : S1024x1.Idx → EReal)
    (hm : m0 (ix2 p 0) = runMax x n) (hl : l0 (ix2 p 0) = runSum x n) :
    sumAt2 (F := Ideal) x0 x1 m0 l0 (ix2 p 0) = runSum x (n + 256 + 256) := by
  unfold sumAt2
  rw [pay16_apply, maxAt1_row x0 x1 p x n hx m0 hm, sumAt1_row x0 x1 p x n hx hr m0 l0 hm hl, chunkMax_row x0 x1 p x n hx 256 _ (by omega) (n + 256) (by omega)]
  simp only [chunkLogit_row x0 x1 p x n hx 256 _ (by omega) (n + 256) (by omega)]
  rw [runMax_step x (n + 256) 256]
  exact runSum_step x (n + 256) 256 (fun v hv => hr v (by omega))

theorem sumAt3_row (hx : ∀ r : Fin 1280, blockLogit x0 x1 p r = x (n + r.val))
    (hr : ∀ v, v < n + 1280 → ∃ r : ℝ, x v = (r : EReal)) (m0 l0 : S1024x1.Idx → EReal)
    (hm : m0 (ix2 p 0) = runMax x n) (hl : l0 (ix2 p 0) = runSum x n) :
    sumAt3 (F := Ideal) x0 x1 m0 l0 (ix2 p 0) = runSum x (n + 256 + 256 + 256) := by
  unfold sumAt3
  rw [pay21_apply, maxAt2_row x0 x1 p x n hx m0 hm, sumAt2_row x0 x1 p x n hx hr m0 l0 hm hl, chunkMax_row x0 x1 p x n hx 512 _ (by omega) (n + 256 + 256) (by omega)]
  simp only [chunkLogit_row x0 x1 p x n hx 512 _ (by omega) (n + 256 + 256) (by omega)]
  rw [runMax_step x (n + 256 + 256) 256]
  exact runSum_step x (n + 256 + 256) 256 (fun v hv => hr v (by omega))

theorem sumAt4_row (hx : ∀ r : Fin 1280, blockLogit x0 x1 p r = x (n + r.val))
    (hr : ∀ v, v < n + 1280 → ∃ r : ℝ, x v = (r : EReal)) (m0 l0 : S1024x1.Idx → EReal)
    (hm : m0 (ix2 p 0) = runMax x n) (hl : l0 (ix2 p 0) = runSum x n) :
    sumAt4 (F := Ideal) x0 x1 m0 l0 (ix2 p 0) = runSum x (n + 256 + 256 + 256 + 256) := by
  unfold sumAt4
  rw [pay26_apply, maxAt3_row x0 x1 p x n hx m0 hm, sumAt3_row x0 x1 p x n hx hr m0 l0 hm hl, chunkMax_row x0 x1 p x n hx 768 _ (by omega) (n + 256 + 256 + 256) (by omega)]
  simp only [chunkLogit_row x0 x1 p x n hx 768 _ (by omega) (n + 256 + 256 + 256) (by omega)]
  rw [runMax_step x (n + 256 + 256 + 256) 256]
  exact runSum_step x (n + 256 + 256 + 256) 256 (fun v hv => hr v (by omega))

theorem sumAfter_row (hx : ∀ r : Fin 1280, blockLogit x0 x1 p r = x (n + r.val))
    (hr : ∀ v, v < n + 1280 → ∃ r : ℝ, x v = (r : EReal)) (m0 l0 : S1024x1.Idx → EReal)
    (hm : m0 (ix2 p 0) = runMax x n) (hl : l0 (ix2 p 0) = runSum x n) :
    sumAfter (F := Ideal) x0 x1 m0 l0 (ix2 p 0) = runSum x (n + 256 + 256 + 256 + 256 + 256) := by
  unfold sumAfter
  rw [pay31_apply, maxAt4_row x0 x1 p x n hx m0 hm, sumAt4_row x0 x1 p x n hx hr m0 l0 hm hl, chunkMax_row x0 x1 p x n hx 1024 _ (by omega) (n + 256 + 256 + 256 + 256) (by omega)]
  simp only [chunkLogit_row x0 x1 p x n hx 1024 _ (by omega) (n + 256 + 256 + 256 + 256) (by omega)]
  rw [runMax_step x (n + 256 + 256 + 256 + 256) 256]
  exact runSum_step x (n + 256 + 256 + 256 + 256) 256 (fun v hv => hr v (by omega))

/-! ## The labelled logit -/

theorem tgtAt1_row (hx : ∀ r : Fin 1280, blockLogit x0 x1 p r = x (n + r.val)) (j : ℕ) (hj : j < 25) (hn : n = 1280 * j)
    (x2 : S1024x1.Idx → BitVec 32) (t0 : S1024x1.Idx → EReal) (ht : t0 (ix2 p 0) = runTgt x (x2 (ix2 p 0)).toNat n) :
    tgtAt1 (F := Ideal) (BitVec.ofNat 32 j) x0 x1 x2 t0 (ix2 p 0) = runTgt x (x2 (ix2 p 0)).toNat (n + 256) := by
  unfold tgtAt1
  rw [pay8_eq, pay13_apply, ht]
  simp only [pay9_apply, chunkLogit_row x0 x1 p x n hx 0 _ (by omega) (n) (by omega),
    lane_cond (x2 (ix2 p 0)) j 0 hj (by omega) (n) (by omega)]
  exact runTgt_step x (x2 (ix2 p 0)).toNat (n) 256

theorem tgtAt2_row (hx : ∀ r : Fin 1280, blockLogit x0 x1 p r = x (n + r.val)) (j : ℕ) (hj : j < 25) (hn : n = 1280 * j)
    (x2 : S1024x1.Idx → BitVec 32) (t0 : S1024x1.Idx → EReal) (ht : t0 (ix2 p 0) = runTgt x (x2 (ix2 p 0)).toNat n) :
    tgtAt2 (F := Ideal) (BitVec.ofNat 32 j) x0 x1 x2 t0 (ix2 p 0) = runTgt x (x2 (ix2 p 0)).toNat (n + 256 + 256) := by
  unfold tgtAt2
  rw [pay8_eq, pay18_apply, tgtAt1_row x0 x1 p x n hx j hj hn x2 t0 ht]
  simp only [pay14_apply, chunkLogit_row x0 x1 p x n hx 256 _ (by omega) (n + 256) (by omega),
    lane_cond (x2 (ix2 p 0)) j 256 hj (by omega) (n + 256) (by omega)]
  exact runTgt_step x (x2 (ix2 p 0)).toNat (n + 256) 256

theorem tgtAt3_row (hx : ∀ r : Fin 1280, blockLogit x0 x1 p r = x (n + r.val)) (j : ℕ) (hj : j < 25) (hn : n = 1280 * j)
    (x2 : S1024x1.Idx → BitVec 32) (t0 : S1024x1.Idx → EReal) (ht : t0 (ix2 p 0) = runTgt x (x2 (ix2 p 0)).toNat n) :
    tgtAt3 (F := Ideal) (BitVec.ofNat 32 j) x0 x1 x2 t0 (ix2 p 0) = runTgt x (x2 (ix2 p 0)).toNat (n + 256 + 256 + 256) := by
  unfold tgtAt3
  rw [pay8_eq, pay23_apply, tgtAt2_row x0 x1 p x n hx j hj hn x2 t0 ht]
  simp only [pay19_apply, chunkLogit_row x0 x1 p x n hx 512 _ (by omega) (n + 256 + 256) (by omega),
    lane_cond (x2 (ix2 p 0)) j 512 hj (by omega) (n + 256 + 256) (by omega)]
  exact runTgt_step x (x2 (ix2 p 0)).toNat (n + 256 + 256) 256

theorem tgtAt4_row (hx : ∀ r : Fin 1280, blockLogit x0 x1 p r = x (n + r.val)) (j : ℕ) (hj : j < 25) (hn : n = 1280 * j)
    (x2 : S1024x1.Idx → BitVec 32) (t0 : S1024x1.Idx → EReal) (ht : t0 (ix2 p 0) = runTgt x (x2 (ix2 p 0)).toNat n) :
    tgtAt4 (F := Ideal) (BitVec.ofNat 32 j) x0 x1 x2 t0 (ix2 p 0) = runTgt x (x2 (ix2 p 0)).toNat (n + 256 + 256 + 256 + 256) := by
  unfold tgtAt4
  rw [pay8_eq, pay28_apply, tgtAt3_row x0 x1 p x n hx j hj hn x2 t0 ht]
  simp only [pay24_apply, chunkLogit_row x0 x1 p x n hx 768 _ (by omega) (n + 256 + 256 + 256) (by omega),
    lane_cond (x2 (ix2 p 0)) j 768 hj (by omega) (n + 256 + 256 + 256) (by omega)]
  exact runTgt_step x (x2 (ix2 p 0)).toNat (n + 256 + 256 + 256) 256

theorem tgtAfter_row (hx : ∀ r : Fin 1280, blockLogit x0 x1 p r = x (n + r.val)) (j : ℕ) (hj : j < 25) (hn : n = 1280 * j)
    (x2 : S1024x1.Idx → BitVec 32) (t0 : S1024x1.Idx → EReal) (ht : t0 (ix2 p 0) = runTgt x (x2 (ix2 p 0)).toNat n) :
    tgtAfter (F := Ideal) (BitVec.ofNat 32 j) x0 x1 x2 t0 (ix2 p 0) = runTgt x (x2 (ix2 p 0)).toNat (n + 256 + 256 + 256 + 256 + 256) := by
  unfold tgtAfter
  rw [pay8_eq, pay2_apply, tgtAt4_row x0 x1 p x n hx j hj hn x2 t0 ht]
  simp only [pay29_apply, chunkLogit_row x0 x1 p x n hx 1024 _ (by omega) (n + 256 + 256 + 256 + 256) (by omega),
    lane_cond (x2 (ix2 p 0)) j 1024 hj (by omega) (n + 256 + 256 + 256 + 256) (by omega)]
  exact runTgt_step x (x2 (ix2 p 0)).toNat (n + 256 + 256 + 256 + 256) 256

/-! ## The row's term at the row tile's last point -/

/-- With the three statistics finished over all 32000 columns the stored term is the row's term of the loss. -/
theorem nll_row (x2 : S1024x1.Idx → BitVec 32) (M L T : S1024x1.Idx → EReal)
    (hM : M (ix2 p 0) = runMax x 32000) (hL : L (ix2 p 0) = runSum x 32000)
    (hT : T (ix2 p 0) = runTgt x (x2 (ix2 p 0)).toNat 32000) :
    k0_pay3 (F := Ideal) (k0_pay8 (F := Ideal) x2) M L T (ix2 p 0) = rowNll x (x2 (ix2 p 0)) := by
  rw [pay8_eq, pay3_apply, hM, hL, hT]
  rfl

end Cert.Xent.Step

end
-- ==== Proof.KernelHost.lean ====
/-
  The host operations of the kernel program around its one fused call, read at the extended reals.

  Before the call the program flattens the hidden states' leading two axes, so row `2048 b + s` of what the call
  reads is hidden row `(b, s)`; and it shifts the labels one position to the left inside each batch row, filling
  the last position with the ignore word, so row `2048 b + s` carries the label at `(b, s + 1)` for `s < 2047` and
  the ignore word at `s = 2047`. The weight is passed as launched.

  After the call the program counts the rows whose shifted label is not the ignore word (a 32-bit sum of zeros and
  ones, taken as at least one), sums the call's per-row output over all 8192 rows from zero, and divides. If the
  per-row output is each row's negated log-probability term (zero on an ignored row), the quotient is the
  specification's loss: the 8192 rows split as 4 batch rows of 2048, the last row of each contributes nothing to
  either sum, and the remaining 2047 rows are exactly the specification's.
-/
import proofs.«405030_j56942676410880_3_alg».proof.Proof.Gen.KernelIdeal.Frame
import proofs.«405030_j56942676410880_3_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Xent.KHost

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo

variable (m : (ℓ : Loc nD τ sig) → Buf (Elt Ideal) ℓ)

/-- The hidden states as launched. -/
abbrev hArr (c : Dev nD) : S4x2048x2048.Idx → EReal := m ((c : Thread nD τ).loc main_arg0)
/-- The weight as launched. -/
abbrev wArr (c : Dev nD) : S32000x2048.Idx → EReal := m ((c : Thread nD τ).loc main_arg1)
/-- The labels as launched. -/
abbrev labArr (c : Dev nD) : S4x2048.Idx → BitVec 32 := m ((c : Thread nD τ).loc main_arg2)

/-- The hidden states the region finds: the launched array, rows flattened. -/
theorem v4_eq (c : Dev nD) :
    (V m c main_v4 : S8192x2048.Idx → EReal) = shapeCast S8192x2048 (hArr m c) shapeCasts_S4x2048x2048_S8192x2048 := by
  show StableHlo.after hostOps0 (fun b => m (c, b)) (Proc.devRef .tc main_v4) = _
  after_results
  rfl

theorem entry_hidden (c : Dev nD) (b : Fin 4) (s : Fin 2048) (k : Fin 2048) :
    (V m c main_v4 : S8192x2048.Idx → EReal) (ix2 (⟨2048 * b.val + s.val, by omega⟩ : Fin 8192) k) = hArr m c (ix3 b s k) := by
  rw [v4_eq]
  exact shapeCast_apply _ _ _ (ix3 b s k) (by
    rw [Shape.rowMajor_val_three, Shape.rowMajor_val_two]
    show (b.val * 2048 + s.val) * 2048 + k.val = (2048 * b.val + s.val) * 2048 + k.val
    omega)

/-- The shifted labels: every row's labels from the second on, then a column of the ignore word. -/
abbrev shifted (lab : S4x2048.Idx → BitVec 32) : S4x2048.Idx → BitVec 32 :=
  concatenate S4x2048 1 [⟨S4x2047, extractStridedSlice S4x2047 ![0, 1] lab slices_S4x2048_S4x2047_0_1⟩,
    ⟨S4x1, broadcastInDim S4x1 ![] bcast_S_S4x1 (constantI S_ 32 4294967196#32)⟩] concatenates_S4x2047_S4x1_S4x2048_d1

theorem v5_eq (c : Dev nD) :
    (V m c main_v5 : S8192x1.Idx → BitVec 32)
      = shapeCast S8192x1 (shapeCast S8192 (shifted (labArr m c)) shapeCasts_S4x2048_S8192) shapeCasts_S8192_S8192x1 := by
  show StableHlo.after hostOps0 (fun b => m (c, b)) (Proc.devRef .tc main_v5) = _
  after_results
  rfl

theorem shifted_apply (lab : S4x2048.Idx → BitVec 32) (b : Fin 4) (s : Fin 2048) :
    shifted lab (ix2 b s) = if hs : s.val < 2047 then lab (ix2 b ⟨s.val + 1, by omega⟩) else Cert.Xent.ignoreWord := by
  by_cases hs : s.val < 2047
  · rw [dif_pos hs]
    refine (concatenate_pair_apply_left (1 : Fin S4x2048.rank) _ _ concatenates_S4x2047_S4x1_S4x2048_d1 (ix2 b s) rfl
      (ix2 b (⟨s.val, hs⟩ : Fin 2047)) (fun a => match a with
        | ⟨0, _⟩ => rfl
        | ⟨1, _⟩ => rfl)).trans ?_
    exact extractStridedSlice_apply ![0, 1] lab slices_S4x2048_S4x2047_0_1 (ix2 b (⟨s.val, hs⟩ : Fin 2047))
      (ix2 b ⟨s.val + 1, by omega⟩) (fun a => match a with
        | ⟨0, _⟩ => by show b.val = 0 + b.val; omega
        | ⟨1, _⟩ => by show s.val + 1 = 1 + s.val; omega)
  · rw [dif_neg hs]
    refine (concatenate_pair_apply_right (1 : Fin S4x2048.rank) _ _ concatenates_S4x2047_S4x1_S4x2048_d1 (ix2 b s) rfl rfl
      (ix2 b (0 : Fin 1)) (fun a => match a with
        | ⟨0, _⟩ => fun _ => rfl
        | ⟨1, _⟩ => fun h => absurd rfl h) (by
          show 0 + 2047 = s.val
          have := s.isLt; omega)).trans ?_
    rfl

theorem entry_label (c : Dev nD) (b : Fin 4) (s : Fin 2048) :
    (V m c main_v5 : S8192x1.Idx → BitVec 32) (ix2 (⟨2048 * b.val + s.val, by omega⟩ : Fin 8192) (0 : Fin 1))
      = if hs : s.val < 2047 then labArr m c (ix2 b ⟨s.val + 1, by omega⟩) else Cert.Xent.ignoreWord := by
  rw [v5_eq]
  refine (shapeCast_apply _ shapeCasts_S8192_S8192x1 _ (ix1 (⟨2048 * b.val + s.val, by omega⟩ : Fin 8192)) (by
    rw [Shape.rowMajor_val_one, Shape.rowMajor_val_two]
    show 2048 * b.val + s.val = (2048 * b.val + s.val) * 1 + 0
    omega)).trans ?_
  refine (shapeCast_apply _ shapeCasts_S4x2048_S8192 _ (ix2 b s) (by
    rw [Shape.rowMajor_val_one, Shape.rowMajor_val_two]
    show b.val * 2048 + s.val = 2048 * b.val + s.val
    omega)).trans ?_
  exact shifted_apply (labArr m c) b s

theorem entry_weight (c : Dev nD) : V m c main_arg1 = wArr m c := V_main_arg1 m c

/-- The program's lines after the call, as one function of the call's output and of the labels it was given:
    the output's sum from zero, over the number of labels other than the ignore word, that number taken as at least
    one and converted to a float. -/
def tailTerm (out : S8192x1.Idx → EReal) (labK : S8192x1.Idx → BitVec 32) : S_.Idx → EReal :=
  Host.divf (F := Ideal)
    (Host.reduceAdd (F := Ideal) out (constant (F := Ideal) S_ .f32 0x00000000#32) reducesTo_S8192x1_S_d0_1 h_S_)
    (sitofp (F := Ideal) .f32 (maxsi (Host.reduce IntOp.addi
      (extui 32 (cmpi .ne labK (broadcastInDim S8192x1 ![] bcast_S_S8192x1 (constantI S_ 32 4294967196#32))) natLt_1_32)
      (constantI S_ 32 0#32) reducesTo_S8192x1_S_d0_1 h_S_) (constantI S_ 32 1#32)))

/-- What the program's result buffer holds at the end: the lines after the call applied to the call's output array
    (`out`, whatever the call left there) and to the shifted labels the call was given, which it only read. -/
theorem tail_is (c : Dev nD) (out : S8192x1.Idx → EReal) (harr : (dats m 0 c).arrAt 3 cfg0.N = out) :
    (Pipeline.afterTail₀ cfgs (dats m) 0 (V0 m) [hostOps1] c main_v14 : S_.Idx → EReal)
      = tailTerm out (V m c main_v5) := by
  unfold Pipeline.afterTail₀
  show StableHlo.after hostOps1 _ (Proc.devRef .tc main_v14) = _
  after_results
  have e6 : Pipeline.withArrays (cfgs 0).spec c (V0 m c) (fun w => (dats m 0 c).arrAt w (cfgs 0).N) (Proc.devRef .tc main_v6) = out :=
    (Pipeline.withArrays_arr spec0 launch0.win.arr_inj c _ _ 3).trans harr
  have e5 : Pipeline.withArrays (cfgs 0).spec c (V0 m c) (fun w => (dats m 0 c).arrAt w (cfgs 0).N) (Proc.devRef .tc main_v5) = V m c main_v5 :=
    (Pipeline.withArrays_arr spec0 launch0.win.arr_inj c _ _ 2).trans (((dats m 0 c).arrAt_in 2 rfl _).trans (A_eq m c 2))
  show tailTerm _ _ = tailTerm _ _
  rw [e6, e5]

/-! ## The lines after the call, as the specification's loss -/

/-- A sum over the 8192 rows is the double sum over the 4 batch rows and the 2048 positions, row `2048 b + s`. -/
theorem sum_rows {M : Type*} [AddCommMonoid M] (g : Fin 8192 → M) :
    ∑ a : Fin 8192, g a = ∑ b : Fin 4, ∑ s : Fin 2048, g ⟨2048 * b.val + s.val, by omega⟩ := by
  rw [← Fintype.sum_prod_type' (f := fun (b : Fin 4) (s : Fin 2048) => g ⟨2048 * b.val + s.val, by omega⟩)]
  exact (Fintype.sum_equiv (finProdFinEquiv (m := 4) (n := 2048))
    (fun p : Fin 4 × Fin 2048 => g ⟨2048 * p.1.val + p.2.val, by omega⟩) g (fun p => congrArg g (Fin.ext (by
      show 2048 * p.1.val + p.2.val = p.2.val + 2048 * p.1.val
      omega)))).symm

/-- So is a sum over the index set of an [8192, 1] array. -/
theorem sum_col {M : Type*} [AddCommMonoid M] (f : S8192x1.Idx → M) :
    ∑ i, f i = ∑ b : Fin 4, ∑ s : Fin 2048, f (ix2 (⟨2048 * b.val + s.val, by omega⟩ : Fin 8192) (0 : Fin 1)) := by
  rw [sum_idx2]
  simp only [Fin.sum_univ_one]
  exact sum_rows fun a => f (ix2 a (0 : Fin 1))

/-- A sum over the 2048 positions whose last term is zero is the sum over the first 2047. -/
theorem sum_pos {M : Type*} [AddCommMonoid M] (F : Fin 2048 → M) (hlast : F (Fin.last 2047) = 0) :
    ∑ s : Fin 2048, F s = ∑ s : Fin 2047, F s.castSucc := by
  rw [Fin.sum_univ_castSucc, hlast, add_zero]

section Pure

variable (h : S4x2048x2048.Idx → EReal) (w : S32000x2048.Idx → EReal) (lab : S4x2048.Idx → BitVec 32)
  (out : S8192x1.Idx → EReal) (labK : S8192x1.Idx → BitVec 32)

/-- The per-row outputs' sum is the specification's total, when each row's output is its term at the shifted label. -/
theorem total_eq
    (hlab : ∀ (b : Fin 4) (s : Fin 2048), labK (ix2 (⟨2048 * b.val + s.val, by omega⟩ : Fin 8192) (0 : Fin 1))
      = if hs : s.val < 2047 then lab (ix2 b ⟨s.val + 1, by omega⟩) else Cert.Xent.ignoreWord)
    (hout : ∀ (b : Fin 4) (s : Fin 2048), out (ix2 (⟨2048 * b.val + s.val, by omega⟩ : Fin 8192) (0 : Fin 1))
      = Cert.Xent.rowNll (Cert.Xent.rowX h w b s) (labK (ix2 (⟨2048 * b.val + s.val, by omega⟩ : Fin 8192) (0 : Fin 1)))) :
    ∑ i, out i = Cert.Xent.total h w lab := by
  rw [sum_col]
  unfold Cert.Xent.total
  refine Finset.sum_congr rfl fun b _ => ?_
  rw [sum_pos]
  · refine Finset.sum_congr rfl fun s _ => ?_
    refine (hout b s.castSucc).trans ?_
    rw [hlab b s.castSucc, dif_pos (show s.castSucc.val < 2047 from s.isLt)]
    rfl
  · refine (hout b (Fin.last 2047)).trans ?_
    rw [hlab b (Fin.last 2047), dif_neg (show ¬ (Fin.last 2047).val < 2047 from Nat.lt_irrefl 2047)]
    unfold Cert.Xent.rowNll
    rw [if_pos rfl]

/-- The mask the program counts: one on a row whose label is not the ignore word, zero on the others. -/
theorem valid_apply (i : S8192x1.Idx) :
    (extui 32 (cmpi .ne labK (broadcastInDim S8192x1 ![] bcast_S_S8192x1 (constantI S_ 32 4294967196#32))) natLt_1_32) i
      = if labK i = Cert.Xent.ignoreWord then 0#32 else 1#32 := by
  show (IntOp.cmpi .ne (labK i) (broadcastInDim S8192x1 ![] bcast_S_S8192x1 (constantI S_ 32 4294967196#32) i)).setWidth 32 = _
  rw [broadcastInDim_apply ![] bcast_S_S8192x1 (constantI S_ 32 4294967196#32) i ix0 (fun a => a.elim0)]
  show (BitVec.ofBool (labK i != 4294967196#32)).setWidth 32 = _
  by_cases e : labK i = Cert.Xent.ignoreWord
  · rw [if_pos e, e]; decide
  · rw [if_neg e, (bne_iff_ne).2 e]; decide

/-- An integer sum from zero over every row, as the host computes it, is the sum over the index set. -/
theorem hostSum_addi (x : S8192x1.Idx → BitVec 32) (j : S_.Idx) :
    Host.reduce IntOp.addi x (constantI S_ 32 0#32) reducesTo_S8192x1_S_d0_1 h_S_ j = ∑ i, x i := by
  rw [Host.reduce_eq_fold, Finset.filter_true_of_mem (fun i _ => funext fun a => a.elim0)]
  exact (Finset.sum_eq_fold Finset.univ x).symm

/-- The counted rows' number is the specification's count. -/
theorem count_eq
    (hlab : ∀ (b : Fin 4) (s : Fin 2048), labK (ix2 (⟨2048 * b.val + s.val, by omega⟩ : Fin 8192) (0 : Fin 1))
      = if hs : s.val < 2047 then lab (ix2 b ⟨s.val + 1, by omega⟩) else Cert.Xent.ignoreWord) (j : S_.Idx) :
    Host.reduce IntOp.addi
      (extui 32 (cmpi .ne labK (broadcastInDim S8192x1 ![] bcast_S_S8192x1 (constantI S_ 32 4294967196#32))) natLt_1_32)
      (constantI S_ 32 0#32) reducesTo_S8192x1_S_d0_1 h_S_ j = Cert.Xent.count lab := by
  rw [hostSum_addi, sum_col]
  unfold Cert.Xent.count
  refine Finset.sum_congr rfl fun b _ => ?_
  rw [sum_pos]
  · refine Finset.sum_congr rfl fun s _ => ?_
    rw [valid_apply, hlab b s.castSucc, dif_pos (show s.castSucc.val < 2047 from s.isLt)]
    rfl
  · rw [valid_apply, hlab b (Fin.last 2047), dif_neg (show ¬ (Fin.last 2047).val < 2047 from Nat.lt_irrefl 2047), if_pos rfl]
    rfl

/-- The float sum from zero over every row is zero plus the specification's total. -/
theorem sumOut_eq
    (hlab : ∀ (b : Fin 4) (s : Fin 2048), labK (ix2 (⟨2048 * b.val + s.val, by omega⟩ : Fin 8192) (0 : Fin 1))
      = if hs : s.val < 2047 then lab (ix2 b ⟨s.val + 1, by omega⟩) else Cert.Xent.ignoreWord)
    (hout : ∀ (b : Fin 4) (s : Fin 2048), out (ix2 (⟨2048 * b.val + s.val, by omega⟩ : Fin 8192) (0 : Fin 1))
      = Cert.Xent.rowNll (Cert.Xent.rowX h w b s) (labK (ix2 (⟨2048 * b.val + s.val, by omega⟩ : Fin 8192) (0 : Fin 1))))
    (j : S_.Idx) :
    Host.reduceAdd (F := Ideal) out (constant (F := Ideal) S_ .f32 0x00000000#32) reducesTo_S8192x1_S_d0_1 h_S_ j
      = 0 + Cert.Xent.total h w lab := by
  show Ideal.hostReduceAdd reducesTo_S8192x1_S_d0_1 out (Ideal.ofBits .f32 0x00000000#32) j = _
  rw [Ideal.hostReduceAdd_total reducesTo_S8192x1_S_d0_1 (fun b => b.elim0), Ideal.ofBits_zero_f32,
    total_eq h w lab out labK hlab hout]

/-- THE TAIL: with each row's output its term at the shifted label, the lines after the call compute the loss. -/
theorem tail_loss_pure
    (hlab : ∀ (b : Fin 4) (s : Fin 2048), labK (ix2 (⟨2048 * b.val + s.val, by omega⟩ : Fin 8192) (0 : Fin 1))
      = if hs : s.val < 2047 then lab (ix2 b ⟨s.val + 1, by omega⟩) else Cert.Xent.ignoreWord)
    (hout : ∀ (b : Fin 4) (s : Fin 2048), out (ix2 (⟨2048 * b.val + s.val, by omega⟩ : Fin 8192) (0 : Fin 1))
      = Cert.Xent.rowNll (Cert.Xent.rowX h w b s) (labK (ix2 (⟨2048 * b.val + s.val, by omega⟩ : Fin 8192) (0 : Fin 1)))) :
    tailTerm out labK = fun _ => Cert.Xent.loss h w lab := by
  funext j
  unfold Cert.Xent.loss
  exact congrArg₂ (fun (a : EReal) (r : BitVec 32) => Ideal.div a (((IntOp.maxsi r 1#32).toInt : ℝ) : EReal))
    (sumOut_eq h w lab out labK hlab hout j) (count_eq lab labK hlab j)

end Pure

/-- THE HOST TAIL ON THE PROGRAM'S BUFFERS: if the call's output array holds, on every row, that row's term at the
    shifted label the call was given, the program's result buffer ends at the specification's loss of the launched
    hidden states, weight and labels. -/
theorem tail_loss (c : Dev nD) (out : S8192x1.Idx → EReal) (harr : (dats m 0 c).arrAt 3 cfg0.N = out)
    (hout : ∀ (b : Fin 4) (s : Fin 2048), out (ix2 (⟨2048 * b.val + s.val, by omega⟩ : Fin 8192) (0 : Fin 1))
      = Cert.Xent.rowNll (Cert.Xent.rowX (hArr m c) (wArr m c) b s)
          ((V m c main_v5 : S8192x1.Idx → BitVec 32) (ix2 (⟨2048 * b.val + s.val, by omega⟩ : Fin 8192) (0 : Fin 1)))) :
    (Pipeline.afterTail₀ cfgs (dats m) 0 (V0 m) [hostOps1] c main_v14 : S_.Idx → EReal)
      = fun _ => Cert.Xent.loss (hArr m c) (wArr m c) (labArr m c) :=
  (tail_is m c out harr).trans
    (tail_loss_pure (hArr m c) (wArr m c) (labArr m c) out (V m c main_v5) (entry_label m c) hout)

end Cert.Xent.KHost

end
-- ==== Proof.KRun.lean ====
/-
  The kernel's output array, row by row.

  The grid has eight row tiles of 1024 hidden rows and, for each, twenty-five consecutive points along the vocabulary,
  each holding 1280 weight rows. Point `t` works on row tile `t / 25` and columns `1280 · (t % 25) …`. For a row of
  the flattened hidden states, its three statistics after point `t` are the running maximum, partition sum and labelled
  logit over the first `1280 · (t % 25 + 1)` columns: at a row tile's first point the statistics restart from their
  reset values, at a later point they continue from what the point before left — an induction over the points. At a row
  tile's last point all 32000 columns have been seen and the stored block is the rows' terms of the loss; that block
  is written back to rows `1024 · (t / 25) …` of the output, and the eight written blocks cover it.
-/
import proofs.«405030_j56942676410880_3_alg».proof.Proof.KStep
import proofs.«405030_j56942676410880_3_alg».proof.Proof.KernelHost

set_option maxRecDepth 16384

noncomputable section

namespace Cert.Xent.KRun

open Cert.KernelIdeal Cert.KernelIdeal.Gen
open Idealize.ShloMosaic Idealize.ShloMosaic.TcCoe Idealize.SL.Sem
open Idealize.ShloMosaic.Pipeline (Dat)
open Idealize.ShloMosaic.ValueIdx Cert.Xent Cert.Xent.Pay Cert.Xent.Step Cert.Xent.KHost

variable (m : (ℓ : Loc nD τ sig) → Buf (Elt Ideal) ℓ)

/-- Where each window's block sits at each of the 200 grid points, and the point's position along the vocabulary. -/
theorem grid_facts : ∀ t : Fin cfg0.N,
    win0_0.index t (0 : Fin 2) = t.val / 25 ∧ win0_0.index t (1 : Fin 2) = 0
    ∧ win0_1.index t (0 : Fin 2) = t.val % 25 ∧ win0_1.index t (1 : Fin 2) = 0
    ∧ win0_2.index t (0 : Fin 2) = t.val / 25 ∧ win0_2.index t (1 : Fin 2) = 0
    ∧ win0_3.index t (0 : Fin 2) = t.val / 25 ∧ win0_3.index t (1 : Fin 2) = 0
    ∧ (grid0.coords t (1 : Fin 2)).val = t.val % 25 :=
  (by decide +kernel : ∀ t : Fin grid0.N, _)

theorem lt_200 (t : Fin cfg0.N) : t.val < 200 := lt_of_lt_of_eq t.isLt (show cfg0.N = 200 from N_0)

theorem lt_200' {n : ℕ} (hn : n < cfg0.N) : n < 200 := lt_of_lt_of_eq hn (show cfg0.N = 200 from N_0)

/-! ## Rows -/

/-- Row `p` of row tile `i`, among the 8192 flattened rows. -/
def tileRow (i : ℕ) (hi : i < 8) (p : Fin 1024) : Fin 8192 := ⟨1024 * i + p.val, by have := p.isLt; omega⟩

/-- The batch entry and the position of a flattened row. -/
def rowB (r : Fin 8192) : Fin 4 := ⟨r.val / 2048, by have := r.isLt; omega⟩
def rowS (r : Fin 8192) : Fin 2048 := ⟨r.val % 2048, Nat.mod_lt _ (by norm_num)⟩

theorem row_join (r : Fin 8192) :
    (⟨2048 * (rowB r).val + (rowS r).val, by have := (rowB r).isLt; have := (rowS r).isLt; omega⟩ : Fin 8192) = r :=
  Fin.ext (by show 2048 * (r.val / 2048) + r.val % 2048 = r.val; omega)

/-- The row's logits over the vocabulary, and its label as the kernel is given it. -/
def xrow (c : Dev nD) (r : Fin 8192) : ℕ → EReal := rowX (hArr m c) (wArr m c) (rowB r) (rowS r)
def labRow (c : Dev nD) (r : Fin 8192) : BitVec 32 := (V m c main_v5 : S8192x1.Idx → BitVec 32) (ix2 r (0 : Fin 1))

/-! ## The windows' blocks as parts of the arrays the region finds -/

abbrev hblk (c : Dev nD) (t : Fin cfg0.N) : S1024x2048.Idx → EReal := iblk m c 0 t
abbrev wblk (c : Dev nD) (t : Fin cfg0.N) : S1280x2048.Idx → EReal := iblk m c 1 t
abbrev lblk (c : Dev nD) (t : Fin cfg0.N) : S1024x1.Idx → BitVec 32 := iblk m c 2 t

theorem hblk_apply (c : Dev nD) (t : Fin cfg0.N) (p : Fin 1024) (k : Fin 2048) :
    hblk m c t (ix2 p k) = hArr m c (ix3 (rowB (tileRow (t.val / 25) (by have := lt_200 t; omega) p))
      (rowS (tileRow (t.val / 25) (by have := lt_200 t; omega) p)) k) := by
  have hg := grid_facts t
  have e : hblk m c t (ix2 p k)
      = (V m c main_v4 : S8192x2048.Idx → EReal) (ix2 (tileRow (t.val / 25) (by have := lt_200 t; omega) p) k) := by
    show (((cfg0.win 0).blk t).view.read (Elt Ideal) (V m c (Pipeline.arrRef spec0 0))) (ix2 p k) = _
    rw [View.read_apply]
    show (V m c main_v4 : S8192x2048.Idx → EReal) _ = (V m c main_v4 : S8192x2048.Idx → EReal) _
    congr 1
    funext a
    apply Fin.ext
    match a with
    | ⟨0, _⟩ => show win0_0.index t 0 * 1024 + 1 * p.val = 1024 * (t.val / 25) + p.val; rw [hg.1]; omega
    | ⟨1, _⟩ => show win0_0.index t 1 * 2048 + 1 * k.val = k.val; rw [hg.2.1]; omega
  rw [e]
  have h := entry_hidden m c (rowB (tileRow (t.val / 25) (by have := lt_200 t; omega) p))
    (rowS (tileRow (t.val / 25) (by have := lt_200 t; omega) p)) k
  rw [row_join] at h
  exact h

theorem wblk_apply (c : Dev nD) (t : Fin cfg0.N) (r' : Fin 1280) (k : Fin 2048) :
    wblk m c t (ix2 r' k)
      = wArr m c (ix2 (⟨1280 * (t.val % 25) + r'.val, by have := r'.isLt; have := Nat.mod_lt t.val (by norm_num : 25 > 0); omega⟩ : Fin 32000) k) := by
  have hg := grid_facts t
  show (((cfg0.win 1).blk t).view.read (Elt Ideal) (V m c (Pipeline.arrRef spec0 1))) (ix2 r' k) = _
  rw [View.read_apply]
  show (V m c main_arg1 : S32000x2048.Idx → EReal) _ = _
  rw [entry_weight]
  congr 1
  funext a
  apply Fin.ext
  match a with
  | ⟨0, _⟩ => show win0_1.index t 0 * 1280 + 1 * r'.val = 1280 * (t.val % 25) + r'.val; rw [hg.2.2.1]; omega
  | ⟨1, _⟩ => show win0_1.index t 1 * 2048 + 1 * k.val = k.val; rw [hg.2.2.2.1]; omega

theorem lblk_apply (c : Dev nD) (t : Fin cfg0.N) (p : Fin 1024) :
    lblk m c t (ix2 p (0 : Fin 1)) = labRow m c (tileRow (t.val / 25) (by have := lt_200 t; omega) p) := by
  have hg := grid_facts t
  show (((cfg0.win 2).blk t).view.read (Elt Ideal) (V m c (Pipeline.arrRef spec0 2))) (ix2 p (0 : Fin 1)) = _
  rw [View.read_apply]
  show (V m c main_v5 : S8192x1.Idx → BitVec 32) _ = (V m c main_v5 : S8192x1.Idx → BitVec 32) _
  congr 1
  funext a
  apply Fin.ext
  match a with
  | ⟨0, _⟩ => show win0_2.index t 0 * 1024 + 1 * p.val = 1024 * (t.val / 25) + p.val; rw [hg.2.2.2.2.1]; omega
  | ⟨1, _⟩ => show win0_2.index t 1 * 1 + 1 * 0 = 0; rw [hg.2.2.2.2.2.1]

/-- A point's block logits are the row's logits at the point's columns. -/
theorem block_logits (c : Dev nD) (t : Fin cfg0.N) (p : Fin 1024) (r' : Fin 1280) :
    blockLogit (hblk m c t) (wblk m c t) p r'
      = xrow m c (tileRow (t.val / 25) (by have := lt_200 t; omega) p) (1280 * (t.val % 25) + r'.val) := by
  have h25 := Nat.mod_lt t.val (by norm_num : 25 > 0)
  have hr' := r'.isLt
  unfold blockLogit xrow rowX
  rw [dif_pos (by omega : 1280 * (t.val % 25) + r'.val < 32000)]
  refine Finset.sum_congr rfl fun k _ => ?_
  rw [hblk_apply, wblk_apply]

/-! ## Real inputs give real logits -/

theorem sum_real {ι : Type*} (s : Finset ι) (f : ι → EReal) (hf : ∀ i ∈ s, ∃ y : ℝ, f i = (y : EReal)) :
    ∃ y : ℝ, ∑ i ∈ s, f i = (y : EReal) := by
  classical
  induction s using Finset.induction_on with
  | empty => exact ⟨0, by simp⟩
  | insert a s ha ih =>
    obtain ⟨y, hy⟩ := hf a (Finset.mem_insert_self a s)
    obtain ⟨z, hz⟩ := ih fun i hi => hf i (Finset.mem_insert_of_mem hi)
    exact ⟨y + z, by rw [Finset.sum_insert ha, hy, hz, EReal.coe_add]⟩

theorem xrow_real (c : Dev nD) (hh : ∀ i, ∃ y : ℝ, hArr m c i = (y : EReal)) (hw : ∀ i, ∃ y : ℝ, wArr m c i = (y : EReal))
    (r : Fin 8192) (v : ℕ) (hv : v < 32000) : ∃ y : ℝ, xrow m c r v = (y : EReal) := by
  unfold xrow rowX
  rw [dif_pos hv]
  refine sum_real _ _ fun k _ => ?_
  obtain ⟨a, ha⟩ := hh (ix3 (rowB r) (rowS r) k)
  obtain ⟨b, hb⟩ := hw (ix2 (⟨v, hv⟩ : Fin 32000) k)
  exact ⟨a * b, by rw [ha, hb, EReal.coe_mul]⟩

/-! ## One grid point, one row -/

/-- If a row's statistics stand at the first `1280 · (t % 25)` columns when point `t` starts, the point's updates leave
    them at the first `1280 · (t % 25 + 1)` columns. -/
theorem point_stats (c : Dev nD) (hh : ∀ i, ∃ y : ℝ, hArr m c i = (y : EReal)) (hw : ∀ i, ∃ y : ℝ, wArr m c i = (y : EReal))
    (t : Fin cfg0.N) (p : Fin 1024) (m0 l0 t0 : S1024x1.Idx → EReal)
    (hm : m0 (ix2 p 0) = runMax (xrow m c (tileRow (t.val / 25) (by have := lt_200 t; omega) p)) (1280 * (t.val % 25)))
    (hl : l0 (ix2 p 0) = runSum (xrow m c (tileRow (t.val / 25) (by have := lt_200 t; omega) p)) (1280 * (t.val % 25)))
    (ht : t0 (ix2 p 0) = runTgt (xrow m c (tileRow (t.val / 25) (by have := lt_200 t; omega) p))
      (labRow m c (tileRow (t.val / 25) (by have := lt_200 t; omega) p)).toNat (1280 * (t.val % 25))) :
    maxAfter (F := Ideal) (hblk m c t) (wblk m c t) m0 (ix2 p 0)
        = runMax (xrow m c (tileRow (t.val / 25) (by have := lt_200 t; omega) p)) (1280 * (t.val % 25 + 1))
    ∧ sumAfter (F := Ideal) (hblk m c t) (wblk m c t) m0 l0 (ix2 p 0)
        = runSum (xrow m c (tileRow (t.val / 25) (by have := lt_200 t; omega) p)) (1280 * (t.val % 25 + 1))
    ∧ tgtAfter (F := Ideal) (BitVec.ofNat 32 (grid0.coords t (1 : Fin 2)).val) (hblk m c t) (wblk m c t) (lblk m c t) t0 (ix2 p 0)
        = runTgt (xrow m c (tileRow (t.val / 25) (by have := lt_200 t; omega) p))
            (labRow m c (tileRow (t.val / 25) (by have := lt_200 t; omega) p)).toNat (1280 * (t.val % 25 + 1)) := by
  have h25 := Nat.mod_lt t.val (by norm_num : 25 > 0)
  have hx := block_logits m c t p
  have e5 : 1280 * (t.val % 25) + 256 + 256 + 256 + 256 + 256 = 1280 * (t.val % 25 + 1) := by omega
  refine ⟨?_, ?_, ?_⟩
  · rw [← e5]
    exact maxAfter_row (hblk m c t) (wblk m c t) p _ (1280 * (t.val % 25)) hx m0 hm
  · rw [← e5]
    exact sumAfter_row (hblk m c t) (wblk m c t) p _ (1280 * (t.val % 25)) hx
      (fun v hv => xrow_real m c hh hw _ v (by omega)) m0 l0 hm hl
  · rw [← e5, (grid_facts t).2.2.2.2.2.2.2.2, ← lblk_apply m c t p]
    exact tgtAfter_row (hblk m c t) (wblk m c t) p _ (1280 * (t.val % 25)) hx (t.val % 25) h25 rfl (lblk m c t) t0
      (by rw [lblk_apply m c t p]; exact ht)

/-! ## The statistics after every point -/

/-- After point `n` the three carried statistics of every row of its row tile are the running statistics over the first
    `1280 · (n % 25 + 1)` columns. -/
theorem stats_after (c : Dev nD) (hh : ∀ i, ∃ y : ℝ, hArr m c i = (y : EReal)) (hw : ∀ i, ∃ y : ℝ, wArr m c i = (y : EReal)) :
    ∀ (n : ℕ) (hn : n < cfg0.N) (p : Fin 1024),
      (outsAt0 m c n hn).2.1 (ix2 p 0)
          = runMax (xrow m c (tileRow (n / 25) (by have := lt_200' hn; omega) p)) (1280 * (n % 25 + 1))
      ∧ (outsAt0 m c n hn).2.2.1 (ix2 p 0)
          = runSum (xrow m c (tileRow (n / 25) (by have := lt_200' hn; omega) p)) (1280 * (n % 25 + 1))
      ∧ (outsAt0 m c n hn).2.2.2 (ix2 p 0)
          = runTgt (xrow m c (tileRow (n / 25) (by have := lt_200' hn; omega) p))
              (labRow m c (tileRow (n / 25) (by have := lt_200' hn; omega) p)).toNat (1280 * (n % 25 + 1)) := by
  intro n
  induction n using Nat.strong_induction_on with
  | _ n ih =>
    intro hn p
    have hN : n < 200 := lt_200' hn
    by_cases h0 : n % 25 = 0
    · -- a row tile's first point: the statistics restart from the reset values
      have h1 : ¬n % 25 = 24 := by omega
      have hp := point_stats m c hh hw ⟨n, hn⟩ p (k0_pay4 (F := Ideal)) (k0_pay5 (F := Ideal)) (k0_pay6 (F := Ideal))
        (by rw [pay4_apply]; show (⊥ : EReal) = runMax _ (1280 * (n % 25)); rw [h0]; exact (runMax_zero _).symm)
        (by rw [pay5_apply]; show (0 : EReal) = runSum _ (1280 * (n % 25)); rw [h0]; exact (runSum_zero _).symm)
        (by rw [pay6_apply]; show (⊥ : EReal) = runTgt _ _ (1280 * (n % 25)); rw [h0]; exact (runTgt_zero _ _).symm)
      rw [outsAt0_A m c ⟨n, hn⟩ h0 h1]
      dsimp only
      refine ⟨?_, ?_, ?_⟩
      · refine (congrFun (scratch0_A (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) scM0_1 (Memref.isWhole_whole _) scM0_2 (Memref.isWhole_whole _) ((hcond0_0 ⟨n, hn⟩).mpr h0) (fun h => h1 ((hcond0_1 ⟨n, hn⟩).mp h)) (hblk m c ⟨n, hn⟩) (wblk m c ⟨n, hn⟩) (lblk m c ⟨n, hn⟩)) (ix2 p 0)).trans ?_
        exact hp.1
      · refine (congrFun (scratch1_A (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) scM0_1 (Memref.isWhole_whole _) scM0_2 (Memref.isWhole_whole _) ((hcond0_0 ⟨n, hn⟩).mpr h0) (fun h => h1 ((hcond0_1 ⟨n, hn⟩).mp h)) (hblk m c ⟨n, hn⟩) (wblk m c ⟨n, hn⟩) (lblk m c ⟨n, hn⟩)) (ix2 p 0)).trans ?_
        exact hp.2.1
      · refine (congrFun (scratch2_A (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) scM0_1 (Memref.isWhole_whole _) scM0_2 (Memref.isWhole_whole _) ((hcond0_0 ⟨n, hn⟩).mpr h0) (fun h => h1 ((hcond0_1 ⟨n, hn⟩).mp h)) (hblk m c ⟨n, hn⟩) (wblk m c ⟨n, hn⟩) (lblk m c ⟨n, hn⟩)) (ix2 p 0)).trans ?_
        exact hp.2.2
    · -- a later point: the statistics continue from what the point before left
      have hprev := ih (n - 1) (by omega) (Nat.lt_of_le_of_lt (Nat.sub_le _ _) hn) p
      have ediv : (n - 1) / 25 = n / 25 := by omega
      have emod : (n - 1) % 25 + 1 = n % 25 := by omega
      simp only [ediv, emod] at hprev
      have hp := point_stats m c hh hw ⟨n, hn⟩ p _ _ _ hprev.1 hprev.2.1 hprev.2.2
      by_cases h1 : n % 25 = 24
      · rw [outsAt0_C m c ⟨n, hn⟩ h0 h1]
        dsimp only
        refine ⟨?_, ?_, ?_⟩
        · refine (congrFun (scratch0_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) scM0_1 (Memref.isWhole_whole _) scM0_2 (Memref.isWhole_whole _) (fun h => h0 ((hcond0_0 ⟨n, hn⟩).mp h)) ((hcond0_1 ⟨n, hn⟩).mpr h1) (hblk m c ⟨n, hn⟩) (wblk m c ⟨n, hn⟩) (lblk m c ⟨n, hn⟩) _ _ _) (ix2 p 0)).trans ?_
          exact hp.1
        · refine (congrFun (scratch1_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) scM0_1 (Memref.isWhole_whole _) scM0_2 (Memref.isWhole_whole _) (fun h => h0 ((hcond0_0 ⟨n, hn⟩).mp h)) ((hcond0_1 ⟨n, hn⟩).mpr h1) (hblk m c ⟨n, hn⟩) (wblk m c ⟨n, hn⟩) (lblk m c ⟨n, hn⟩) _ _ _) (ix2 p 0)).trans ?_
          exact hp.2.1
        · refine (congrFun (scratch2_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) scM0_1 (Memref.isWhole_whole _) scM0_2 (Memref.isWhole_whole _) (fun h => h0 ((hcond0_0 ⟨n, hn⟩).mp h)) ((hcond0_1 ⟨n, hn⟩).mpr h1) (hblk m c ⟨n, hn⟩) (wblk m c ⟨n, hn⟩) (lblk m c ⟨n, hn⟩) _ _ _) (ix2 p 0)).trans ?_
          exact hp.2.2
      · rw [outsAt0_B m c ⟨n, hn⟩ h0 h1]
        dsimp only
        refine ⟨?_, ?_, ?_⟩
        · refine (congrFun (scratch0_B (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) scM0_1 (Memref.isWhole_whole _) scM0_2 (Memref.isWhole_whole _) (fun h => h0 ((hcond0_0 ⟨n, hn⟩).mp h)) (fun h => h1 ((hcond0_1 ⟨n, hn⟩).mp h)) (hblk m c ⟨n, hn⟩) (wblk m c ⟨n, hn⟩) (lblk m c ⟨n, hn⟩) _ _ _) (ix2 p 0)).trans ?_
          exact hp.1
        · refine (congrFun (scratch1_B (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) scM0_1 (Memref.isWhole_whole _) scM0_2 (Memref.isWhole_whole _) (fun h => h0 ((hcond0_0 ⟨n, hn⟩).mp h)) (fun h => h1 ((hcond0_1 ⟨n, hn⟩).mp h)) (hblk m c ⟨n, hn⟩) (wblk m c ⟨n, hn⟩) (lblk m c ⟨n, hn⟩) _ _ _) (ix2 p 0)).trans ?_
          exact hp.2.1
        · refine (congrFun (scratch2_B (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) scM0_1 (Memref.isWhole_whole _) scM0_2 (Memref.isWhole_whole _) (fun h => h0 ((hcond0_0 ⟨n, hn⟩).mp h)) (fun h => h1 ((hcond0_1 ⟨n, hn⟩).mp h)) (hblk m c ⟨n, hn⟩) (wblk m c ⟨n, hn⟩) (lblk m c ⟨n, hn⟩) _ _ _) (ix2 p 0)).trans ?_
          exact hp.2.2

end Cert.Xent.KRun

end
-- ==== Proof.KFinal.lean ====
/-
  The kernel's result.

  At a row tile's last point all 32000 columns of its rows have been seen, and the block the point stores holds, row by
  row, the row's term of the loss computed from the finished statistics. That block is written back to rows
  `1024 · i …` of the [8192 × 1] output; the eight written blocks cover it, so the output ends holding every row's
  term. The program's lines after the call then sum the terms and divide by the count: the loss.
-/
import proofs.«405030_j56942676410880_3_alg».proof.Proof.KRun

set_option maxRecDepth 16384

noncomputable section

namespace Cert.Xent.KRun

open Cert.KernelIdeal Cert.KernelIdeal.Gen
open Idealize.ShloMosaic Idealize.ShloMosaic.TcCoe Idealize.SL.Sem
open Idealize.ShloMosaic.Pipeline (Dat)
open Idealize.ShloMosaic.ValueIdx Cert.Xent Cert.Xent.Pay Cert.Xent.Step Cert.Xent.KHost

variable (m : (ℓ : Loc nD τ sig) → Buf (Elt Ideal) ℓ) (ρ : Dev nD → PrngReg)

/-- At a row tile's last point the stored block holds each row's term of the loss. -/
theorem out_last (c : Dev nD) (hh : ∀ i, ∃ y : ℝ, hArr m c i = (y : EReal)) (hw : ∀ i, ∃ y : ℝ, wArr m c i = (y : EReal))
    (t : Fin cfg0.N) (h1 : t.val % 25 = 24) (p : Fin 1024) :
    (outsAt0 m c t.val t.isLt).1 (ix2 p 0)
      = rowNll (xrow m c (tileRow (t.val / 25) (by have := lt_200 t; omega) p))
          (labRow m c (tileRow (t.val / 25) (by have := lt_200 t; omega) p)) := by
  have hN := lt_200 t
  have h0 : ¬t.val % 25 = 0 := by omega
  have hprev := stats_after m c hh hw (t.val - 1) (Nat.lt_of_le_of_lt (Nat.sub_le _ _) t.isLt) p
  have ediv : (t.val - 1) / 25 = t.val / 25 := by omega
  have emod : (t.val - 1) % 25 + 1 = t.val % 25 := by omega
  simp only [ediv, emod] at hprev
  have hp := point_stats m c hh hw t p _ _ _ hprev.1 hprev.2.1 hprev.2.2
  have e : 1280 * (t.val % 25 + 1) = 32000 := by omega
  rw [e] at hp
  rw [outsAt0_C m c t h0 h1]
  dsimp only
  refine (congrFun (out3_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (hblk m c t) (wblk m c t) (lblk m c t) _ _ _) (ix2 p 0)).trans ?_
  rw [← lblk_apply m c t p]
  exact nll_row p _ (lblk m c t) _ _ _ hp.1 hp.2.1 (by rw [lblk_apply m c t p]; exact hp.2.2)

/-- The flattened row an index of the output names. -/
def outRow (i : S8192x1.Idx) : Fin 8192 := ⟨(i 0).val, idx2_lt0 i⟩

/-- The output array: every row's term of the loss. -/
def outArr (c : Dev nD) : S8192x1.Idx → EReal := fun i => rowNll (xrow m c (outRow i)) (labRow m c (outRow i))

/-- What a row tile's last point writes back is its block of the output array. -/
theorem flushed_rows (c : Dev nD) (hh : ∀ i, ∃ y : ℝ, hArr m c i = (y : EReal)) (hw : ∀ i, ∃ y : ℝ, wArr m c i = (y : EReal))
    (t : Fin cfg0.N) (hf : (cfg0.win 3).flush t = true) :
    (dats m 0 c).flushed 3 t = ((cfg0.win 3).blk t).view.read (Elt Ideal) (outArr m c) := by
  have h1 : t.val % 25 = 24 := (flush0_3 t).mp hf
  have hg := grid_facts t
  show (cfg0.win 3).cut (grid0.coords t) ((dats m 0 c).after 3 t) = _
  rw [after0_3]
  funext j
  obtain ⟨p, u, rfl⟩ : ∃ (p : Fin 1024) (u : Fin 1), j = ix2 p u := ⟨j 0, j 1, eq_ix2 j⟩
  obtain rfl : u = 0 := Subsingleton.elim _ _
  show (outsAt0 m c t.val t.isLt).1 (ix2 p 0) = outArr m c (((cfg0.win 3).blk t).view.emb (ix2 p 0))
  rw [out_last m c hh hw t h1 p]
  have er : outRow (((cfg0.win 3).blk t).view.emb (ix2 p (0 : Fin 1))) = tileRow (t.val / 25) (by have := lt_200 t; omega) p := by
    apply Fin.ext
    show win0_3.index t 0 * 1024 + 1 * p.val = 1024 * (t.val / 25) + p.val
    rw [hg.2.2.2.2.2.2.1]; omega
  unfold outArr
  rw [er]

/-- An index of the output is in point `t`'s block iff each coordinate is in the block's range on its axis. -/
theorem mem_block (t : Fin cfg0.N) (i : S8192x1.Idx) :
    i ∈ ((cfg0.win 3).blk t).view.set
      ↔ ∀ a : Fin 2, win0_3.index t a * S1024x1.size a ≤ (i a).val ∧ (i a).val < win0_3.index t a * S1024x1.size a + S1024x1.size a := by
  show i ∈ ((View.whole main_v6).slice (win0_3.rect t)).set ↔ _
  rw [View.set_slice_whole, Rect.mem_set_unit]
  exact Iff.rfl

/-- Every row of the output is in the block some row tile's last point writes back. -/
theorem covered (i : S8192x1.Idx) :
    ∃ t : Fin cfg0.N, (cfg0.win 3).flush t = true ∧ i ∈ ((cfg0.win 3).blk t).view.set := by
  have hi0 : (i 0).val < 8192 := idx2_lt0 i
  have hi1 : (i 1).val < 1 := idx2_lt1 i
  have hN : cfg0.N = 200 := N_0
  have ht : 25 * ((i 0).val / 1024) + 24 < cfg0.N := by rw [hN]; omega
  have hg := grid_facts ⟨25 * ((i 0).val / 1024) + 24, ht⟩
  refine ⟨⟨25 * ((i 0).val / 1024) + 24, ht⟩, (flush0_3 _).mpr (by show (25 * ((i 0).val / 1024) + 24) % 25 = 24; omega), ?_⟩
  rw [mem_block]
  intro a
  match a with
  | ⟨0, _⟩ =>
    show win0_3.index ⟨25 * ((i 0).val / 1024) + 24, ht⟩ 0 * 1024 ≤ (i 0).val
      ∧ (i 0).val < win0_3.index ⟨25 * ((i 0).val / 1024) + 24, ht⟩ 0 * 1024 + 1024
    rw [hg.2.2.2.2.2.2.1]
    show (25 * ((i 0).val / 1024) + 24) / 25 * 1024 ≤ (i 0).val ∧ (i 0).val < (25 * ((i 0).val / 1024) + 24) / 25 * 1024 + 1024
    omega
  | ⟨1, _⟩ =>
    show win0_3.index ⟨25 * ((i 0).val / 1024) + 24, ht⟩ 1 * 1 ≤ (i 1).val
      ∧ (i 1).val < win0_3.index ⟨25 * ((i 0).val / 1024) + 24, ht⟩ 1 * 1 + 1
    rw [hg.2.2.2.2.2.2.2.1]
    omega

/-- The output array after the run: every row's term of the loss. -/
theorem final_rows (c : Dev nD) (hh : ∀ i, ∃ y : ℝ, hArr m c i = (y : EReal)) (hw : ∀ i, ∃ y : ℝ, wArr m c i = (y : EReal)) :
    (dats m 0 c).arrAt 3 cfg0.N = outArr m c :=
  (dats m 0 c).arrAt_eq_of_cover 3 (outArr m c) (fun t hf => flushed_rows m c hh hw t hf) covered

/-- The program's result buffer ends at the loss of the launched arrays. -/
theorem kernel_loss (c : Dev nD) (hh : ∀ i, ∃ y : ℝ, hArr m c i = (y : EReal)) (hw : ∀ i, ∃ y : ℝ, wArr m c i = (y : EReal)) :
    (Pipeline.afterTail₀ cfgs (dats m) 0 (V0 m) [hostOps1] c main_v14 : S_.Idx → EReal)
      = fun _ => loss (hArr m c) (wArr m c) (labArr m c) := by
  refine tail_loss m c (outArr m c) (final_rows m c hh hw) fun b s => ?_
  have hb := b.isLt
  have hs := s.isLt
  have eB : rowB (⟨2048 * b.val + s.val, by omega⟩ : Fin 8192) = b := Fin.ext (by show (2048 * b.val + s.val) / 2048 = b.val; omega)
  have eS : rowS (⟨2048 * b.val + s.val, by omega⟩ : Fin 8192) = s := Fin.ext (by show (2048 * b.val + s.val) % 2048 = s.val; omega)
  show rowNll (xrow m c (outRow (ix2 (⟨2048 * b.val + s.val, by omega⟩ : Fin 8192) (0 : Fin 1)))) (labRow m c (outRow (ix2 (⟨2048 * b.val + s.val, by omega⟩ : Fin 8192) (0 : Fin 1)))) = _
  have eo : outRow (ix2 (⟨2048 * b.val + s.val, by omega⟩ : Fin 8192) (0 : Fin 1)) = ⟨2048 * b.val + s.val, by omega⟩ := Fin.ext rfl
  rw [eo]
  unfold xrow labRow
  rw [eB, eS]

/-- The kernel's run: its result buffer ends at the loss, its arguments unchanged. -/
theorem kernel_run (hh : ∀ c i, ∃ y : ℝ, hArr m c i = (y : EReal)) (hw : ∀ c i, ∃ y : ℝ, wArr m c i = (y : EReal)) :
    θ_run defs (onTc (τ := τ) (main (F := Ideal))) ⟨m, fun _ => 0, ρ⟩ (fun r => ∀ c : Dev nD,
      r.2.mem ((c.tc : Thread nD τ).loc main_v14) = (fun _ => loss (hArr m c) (wArr m c) (labArr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v14 (Pipeline.mem_restRefs_of main_v14 (by decide) (by decide))).trans (kernel_loss m c (hh c) (hw c)),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c))⟩)
    (run_main m ρ)

end Cert.Xent.KRun

end
-- ==== Proof.LibGatherAlongAxis.lean ====
/-
  A gather along the second axis of a matrix, one start index per row — what `take_along_axis(x, idx, axis=1)`
  over an [R × C] matrix and an [R × 1] column of positions lowers to: the first axis of the operand is a batching
  axis paired with the first axis of the start indices, the second is collapsed and start-indexed, the start
  indices carry a trailing index-vector axis of size one, and the result has no offset axis. Row `p` of the
  result reads the operand's row `p` at that row's start index, read signed and clamped into `[0, C - 1]`.
-/
import Idealize.ShloMosaic.PureOps
import Idealize.ShloMosaic.Lib.ValueIdx

namespace Idealize.ShloMosaic

open ValueIdx

/-- The row-wise gather read at row `p`. The hypotheses are the printed dimension numbers, each closed by `rfl`
    at a literal record. -/
theorem Host.gather_along_axis1 {α : Type} {R C w : Nat}
    (d : GatherDims (⟨2, ![R, C]⟩ : Shape) (⟨3, ![R, 1, 1]⟩ : Shape) (⟨2, ![R, 1]⟩ : Shape))
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![R, C]⟩ : Shape).Idx → α) (idx : IVec (⟨3, ![R, 1, 1]⟩ : Shape) w) (p : Fin R) (hC : 0 < C) :
    Host.gather d x idx (ix2 p (0 : Fin 1))
      = x (ix2 p (⟨min (idx (ix3 p (0 : Fin 1) (0 : Fin 1))).toInt.toNat (C - 1), by omega⟩ : Fin C)) := by
  -- the start-indexed axis is collapsed, so its slice has size one and the clamp's upper end is `C - 1`
  have hsl : d.sliceSizes 1 = 1 := d.slice_collapsed 1 (by rw [hcoll]; exact List.mem_singleton.mpr rfl)
  -- read the dimension numbers as the literal lists they are: the record's fields become variables, and the
  -- six equations replace them by `[]`, `[1]`, `[0]`, `[0]`, `[1]` and `2`
  obtain ⟨od, cd, ob, sb, sm, iv, ss, wf⟩ := d
  simp only at hoff hcoll hob hsb hsim hivd hsl
  subst hoff hcoll hob hsb hsim hivd
  -- the gather reads the operand at the operand index; compare the two operand indices axis by axis, as numbers:
  -- on each axis the operand index is the clamped start plus the batching coordinate plus the offset coordinate
  unfold Host.gather
  congr 1
  funext a
  match a with
  | ⟨0, _⟩ =>
    -- operand axis 0 is the batching axis: it is not start-indexed (start `0`) and not a kept axis (offset `0`), and
    -- its batching coordinate is the result index's coordinate on the batch axis paired with start-indices axis 0.
    -- The result has no offset axes, so its batch axes are `[0, 1]`, in step with the start indices' axes other
    -- than the index vector's, `[0, 1]`: start-indices axis 0 reads the result's axis 0, whose coordinate is `p`.
    apply Fin.ext
    simp only [GatherDims.operandIdx]
    rw [GatherDims.start_batching _ _ _ _ (List.mem_singleton.mpr rfl),
      GatherDims.offCoord_eq_zero _ _ _ (by rw [GatherDims.mem_sKept]; simp), Nat.zero_add, Nat.add_zero]
    rfl
  | ⟨1, _⟩ =>
    -- operand axis 1 is collapsed and start-indexed: no batching coordinate (`1 ∉ [0]`), no offset coordinate
    -- (a collapsed axis is not kept), and the start is component 0 of the start index clamped to `[0, C - 1]`
    apply Fin.ext
    simp only [GatherDims.operandIdx]
    rw [GatherDims.batchCoord_eq_zero _ _ _ (by simp),
      GatherDims.offCoord_eq_zero _ _ _ (by rw [GatherDims.mem_sKept]; simp), Nat.add_zero]
    unfold GatherDims.start
    split
    · show min (idx _).toInt.toNat (C - ss 1) = _
      rw [hsl]
      -- the start index is read at the result's batch coordinates `(p, 0)` on start-indices axes 0 and 1, with
      -- the component's number, `0` (axis 1 is first in the start index map), on the index vector's axis 2
      refine congrArg (fun z => min (idx z).toInt.toNat (C - 1)) ?_
      funext b
      match b with
      | ⟨0, _⟩ => rfl
      | ⟨1, _⟩ => rfl
      | ⟨2, _⟩ => rfl
    · -- axis 1 IS in the start index map `[1]`
      rename_i hn
      exact absurd (List.mem_singleton.mpr rfl) hn

end Idealize.ShloMosaic
-- ==== Proof.RefValue.lean ====
/-
  The reference program computes the specification's loss.

  The reference flattens the rows `(b, s)`, `s < 2047`, of the hidden states into 8188 rows — row `2047·b + s` — and
  pairs each with the label at the next position `(b, s + 1)`. Read one operation at a time at such a row:

  * the logits entry `(2047·b + s, v)` is `Σ_k h[b, s, k] · w[v, k]`, the specification's row at column `v`: the
    reshape is row-major, so the flat position `(2047·b + s)·2048 + k` splits back into `(b, s, k)`;
  * the row maximum is a fold of `max` from the bottom element (the word `0xFF800000`) over the 32000 columns, which is
    the running maximum over all the columns, and the further `max` with the bottom element changes nothing;
  * the partition sum is zero plus the sum over the columns of `exp (x_v − M)`: the running sum over all the columns;
  * the log-probability at column `v` is `(x_v − M) − log L`;
  * the valid bit is 1 unless the label is the ignore word, and the safe index is the label of a valid row and 0 of an
    ignored one. An admissible label is below 32000 or the ignore word, so the safe index is below 32000: read signed
    it is not negative (no 32000 is added to it), it lies in `[0, 31999]` (the in-range bit, an and-reduction over an
    axis of size one of two comparisons that both hold, is 1, so the select takes the gathered value), and the gather's
    clamp leaves it unchanged: the gather reads the row's log-probability at the safe index;
  * the row's term is the negated gathered value for a valid row and 0 for an ignored one. For a valid row with label
    `l`, `−((x_l − M) − log L) = 0 − (x_l − (M + log L))` because `x_l` and `M` are real numbers — a finite sum of
    products of reals is real, and the maximum of a nonempty finite family of reals is one of them — and `x_l` is the
    labelled logit once all the columns have been seen. That is the specification's term.

  A sum over the 8188 rows becomes the specification's double sum over `(b, s)` through the bijection
  `(b, s) ↦ 2047·b + s`: for the terms, which are extended reals, and for the count, which is added up in 32-bit words
  (a fold of addition from 0 is the sum in the commutative ring of words, and a valid bit widened to 32 bits is the word
  1 or 0). The result is the quotient of `0 + total` by the count, taken at least 1 and read signed: the loss.
-/
import proofs.«405030_j56942676410880_3_alg».proof.Proof.RefRead
import proofs.«405030_j56942676410880_3_alg».proof.Proof.Spec
import proofs.«405030_j56942676410880_3_alg».proof.Proof.OnlineLse
import proofs.«405030_j56942676410880_3_alg».proof.Proof.LibGatherAlongAxis
import Idealize.ShloMosaic.PureOps.Ideal.Laws
import Idealize.ShloMosaic.Lib.ValueIdx
import Idealize.ShloMosaic.Lib.Pipeline.Value
import Idealize.ShloMosaic.Lib.Affine
import Idealize.ShloMosaic.Lib.StableHlo.Predicate

noncomputable section

namespace Cert.Xent.Ref

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Read

/-- The flattened row: hidden row `(b, s)` is row `2047·b + s` of the 8188. -/
def row (b : Fin 4) (s : Fin 2047) : Fin 8188 := ⟨2047 * b.val + s.val, by have := b.isLt; have := s.isLt; omega⟩

theorem row_val (b : Fin 4) (s : Fin 2047) : (row b s).val = 2047 * b.val + s.val := rfl

/-- The logits: entry `(2047·b + s, v)` of the product is the row `(b, s)` of the specification at column `v`. -/
theorem logits_apply (h : S4x2048x2048.Idx → EReal) (w : S32000x2048.Idx → EReal) (b : Fin 4) (s : Fin 2047) (v : Fin 32000) :
    val_main_v4 (F := Ideal) h w (ix2 (row b s) v) = Cert.Xent.rowX h w b s.castSucc v.val := by
  rw [val_main_v4_apply]
  unfold Cert.Xent.rowX
  rw [dif_pos v.isLt]
  refine Finset.sum_congr rfl fun k _ => ?_
  rw [val_main_v2_apply, val_main_v0_apply]
  have hb := b.isLt
  have hs := s.isLt
  have hk := k.isLt
  have e1 : idx_main_v0 (idx_main_v2 (lidx_main_v4 (ix2 (row b s) v) k)) = ix3 b s.castSucc k := by
    funext a
    apply Fin.ext
    match a with
    | ⟨0, _⟩ => show ((2047 * b.val + s.val) * 2048 + k.val) / 4192256 = b.val; omega
    | ⟨1, _⟩ => show ((2047 * b.val + s.val) * 2048 + k.val) / 2048 % 2047 = s.val; omega
    | ⟨2, _⟩ => show ((2047 * b.val + s.val) * 2048 + k.val) % 2048 = k.val; omega
  have e2 : ridx_main_v4 (ix2 (row b s) v) k = ix2 (⟨v.val, v.isLt⟩ : Fin 32000) k := by
    funext a
    apply Fin.ext
    match a with
    | ⟨0, _⟩ => rfl
    | ⟨1, _⟩ => rfl
  rw [e1, e2]

/-- The word `0xFF800000` reads as the bottom element. -/
theorem ofBits_neg_inf : Ideal.ofBits .f32 0xFF800000#32 = (⊥ : EReal) := by simp [Ideal.ofBits, Ideal.ieee]

/-- The shape fact of the two row reductions, in the form that names the inserted coordinate. -/
theorem red_rows : S8188x32000.Reduces [1] S8188 := by decide

/-- Row `n` with column `v` inserted is the index `(n, v)`. -/
theorem red_rows_lift (n : Fin 8188) (v : Fin 32000) : red_rows.lift (ix1 n) v = ix2 n v := by
  funext a
  apply Fin.ext
  match a with
  | ⟨0, _⟩ => rfl
  | ⟨1, _⟩ => rfl

/-- The row maximum, as the specification's running maximum over all the columns. -/
theorem rowmax_apply (h : S4x2048x2048.Idx → EReal) (w : S32000x2048.Idx → EReal) (b : Fin 4) (s : Fin 2047) :
    val_main_call0_v2 (F := Ideal) h w (ix1 (row b s)) = Cert.Xent.runMax (Cert.Xent.rowX h w b s.castSucc) 32000 := by
  rw [val_main_call0_v2_apply, val_main_call0_v1_apply, val_main_call0_cst_0_apply]
  unfold val_main_call0_v0
  rw [Host.reduce_eq_fold_single FloatOps.maximumf _ _ reducesTo_S8188x32000_S8188_d1 red_rows h_S_]
  rw [val_main_call0_cst_apply, Cert.Xent.runMax_eq_fold]
  have e : (val_main_v4 (F := Ideal) h w ∘ red_rows.lift (ix1 (row b s)))
      = fun v : Fin 32000 => Cert.Xent.rowX h w b s.castSucc v.val :=
    funext fun (v : Fin 32000) => by
      show val_main_v4 (F := Ideal) h w (red_rows.lift (ix1 (row b s)) v) = _
      rw [red_rows_lift, logits_apply]
  rw [e, Ideal.ofBits_def, ofBits_neg_inf]
  exact max_eq_right bot_le

/-- The partition sum of the row, shifted by its maximum. -/
theorem rowsum_apply (h : S4x2048x2048.Idx → EReal) (w : S32000x2048.Idx → EReal) (b : Fin 4) (s : Fin 2047) :
    val_main_call0_v7 (F := Ideal) h w (ix1 (row b s)) = Cert.Xent.runSum (Cert.Xent.rowX h w b s.castSucc) 32000 := by
  rw [val_main_call0_v7_apply, val_main_call0_cst_1_apply, Ideal.ofBits_def, Ideal.ofBits_zero_f32, zero_add,
    Cert.Xent.runSum_eq_sum]
  refine Finset.sum_congr rfl fun v _ => ?_
  rw [val_main_call0_v6_apply, val_main_call0_v5_apply, val_main_call0_v4_apply, val_main_call0_v3_apply]
  have e1 : idx_main_call0_v7 (ix1 (row b s)) v = ix2 (row b s) v := by
    funext a
    apply Fin.ext
    match a with
    | ⟨0, _⟩ => rfl
    | ⟨1, _⟩ => rfl
  have e2 : idx_main_call0_v3 (idx_main_call0_v4 (ix2 (row b s) v)) = ix1 (row b s) := by
    funext a
    apply Fin.ext
    match a with
    | ⟨0, _⟩ => rfl
  rw [e1, e2, rowmax_apply, logits_apply, Ideal.hostUnary_exp_def, Ideal.subf_def]

/-- The log-probability of column `v` in the row: the logit less the row maximum, less the logarithm of the partition sum. -/
theorem logp_apply (h : S4x2048x2048.Idx → EReal) (w : S32000x2048.Idx → EReal) (b : Fin 4) (s : Fin 2047) (v : Fin 32000) :
    val_main_v5 (F := Ideal) h w (ix2 (row b s) v)
      = (Cert.Xent.rowX h w b s.castSucc v.val - Cert.Xent.runMax (Cert.Xent.rowX h w b s.castSucc) 32000)
        - Ideal.log (Cert.Xent.runSum (Cert.Xent.rowX h w b s.castSucc) 32000) := by
  rw [val_main_v5_apply, val_main_call0_v5_apply, val_main_call0_v4_apply, val_main_call0_v3_apply,
    val_main_call0_v10_apply, val_main_call0_v9_apply, val_main_call0_v8_apply]
  have e2 : idx_main_call0_v3 (idx_main_call0_v4 (ix2 (row b s) v)) = ix1 (row b s) := by
    funext a
    apply Fin.ext
    match a with
    | ⟨0, _⟩ => rfl
  have e3 : idx_main_call0_v8 (idx_main_call0_v10 (ix2 (row b s) v)) = ix1 (row b s) := by
    funext a
    apply Fin.ext
    match a with
    | ⟨0, _⟩ => rfl
  rw [e2, e3, rowmax_apply, rowsum_apply, logits_apply, Ideal.hostUnary_log_def, Ideal.subf_def, Ideal.subf_def]

/-! ### The label of a row, its valid bit and the column its term is read at -/

/-- Row `2047·b + s` of the flattened labels is the label at the next position, `(b, s + 1)`. -/
theorem label_apply (lab : S4x2048.Idx → BitVec 32) (b : Fin 4) (s : Fin 2047) :
    val_main_v3 (F := Ideal) lab (ix1 (row b s)) = Cert.Xent.nextLabel lab b s := by
  rw [val_main_v3_apply, val_main_v1_apply]
  unfold Cert.Xent.nextLabel
  have hb := b.isLt
  have hs := s.isLt
  have e : idx_main_v1 (idx_main_v3 (ix1 (row b s))) = ix2 b s.succ := by
    funext a
    apply Fin.ext
    match a with
    | ⟨0, _⟩ => show (2047 * b.val + s.val) / 2047 = b.val; omega
    | ⟨1, _⟩ => show 1 + (2047 * b.val + s.val) % 2047 = s.succ.val; rw [Fin.val_succ]; omega
  rw [e]

/-- The comparison of a word with the ignore word, as a case distinction. -/
theorem cmpi_ne_ignore (l : BitVec 32) :
    IntOp.cmpi .ne l Cert.Xent.ignoreWord = if l = Cert.Xent.ignoreWord then 0#1 else 1#1 := by
  by_cases e : l = Cert.Xent.ignoreWord
  · rw [if_pos e, e]; rfl
  · rw [if_neg e]; exact IntOp.cmpi_ne.2 e

/-- The valid bit of a row: its label is not the ignore word. -/
theorem valid_apply (lab : S4x2048.Idx → BitVec 32) (b : Fin 4) (s : Fin 2047) :
    val_main_v7 (F := Ideal) lab (ix1 (row b s))
      = if Cert.Xent.nextLabel lab b s = Cert.Xent.ignoreWord then 0#1 else 1#1 := by
  rw [val_main_v7_apply, label_apply, val_main_v6_apply, val_main_c_apply]
  exact cmpi_ne_ignore _

/-- The column a row's term is read at: the label's, or column 0 for an ignored row. -/
def safe (l : BitVec 32) : BitVec 32 := if l = Cert.Xent.ignoreWord then 0#32 else l

theorem safe_lt (l : BitVec 32) (hl : l.toNat < 32000 ∨ l = Cert.Xent.ignoreWord) : (safe l).toNat < 32000 := by
  unfold safe
  by_cases e : l = Cert.Xent.ignoreWord
  · rw [if_pos e]; decide
  · rw [if_neg e]; exact hl.resolve_right e

/-- The safe index of a row. -/
theorem safeidx_apply (lab : S4x2048.Idx → BitVec 32) (b : Fin 4) (s : Fin 2047) :
    val_main_v8 (F := Ideal) lab (ix1 (row b s)) = safe (Cert.Xent.nextLabel lab b s) := by
  rw [val_main_v8_apply, valid_apply, label_apply, val_main_call1_v1_apply, val_main_call1_v0_apply, val_main_c_0_apply]
  unfold safe
  by_cases e : Cert.Xent.nextLabel lab b s = Cert.Xent.ignoreWord
  · rw [if_pos e, if_pos e, select_zero]
  · rw [if_neg e, if_neg e, select_one]

theorem idx9_eq (n : Fin 8188) : idx_main_v9 (ix2 n (0 : Fin 1)) = ix1 n := by
  funext a
  apply Fin.ext
  match a with
  | ⟨0, _⟩ => rfl

/-- The start index of the gather at a row: the safe index, which needs no normalisation since it is not negative. -/
theorem gidx_apply (lab : S4x2048.Idx → BitVec 32) (b : Fin 4) (s : Fin 2047)
    (hl : (Cert.Xent.nextLabel lab b s).toNat < 32000 ∨ Cert.Xent.nextLabel lab b s = Cert.Xent.ignoreWord) :
    val_main_call2_v5 (F := Ideal) lab (ix3 (row b s) (0 : Fin 1) (0 : Fin 1)) = safe (Cert.Xent.nextLabel lab b s) := by
  rw [val_main_call2_v5_apply]
  have e : idx_main_call2_v5 (ix3 (row b s) (0 : Fin 1) (0 : Fin 1)) = ix2 (row b s) (0 : Fin 1) := by
    funext a
    apply Fin.ext
    match a with
    | ⟨0, _⟩ => show (((2047 * b.val + s.val) * 1 + 0) * 1 + 0) / 1 = 2047 * b.val + s.val; omega
    | ⟨1, _⟩ => rfl
  rw [e, val_main_call2_v4_apply, val_main_call2_v1_apply, val_main_v9_apply, idx9_eq, safeidx_apply,
    val_main_call2_v0_apply, val_main_call2_c_apply]
  have hlt := safe_lt _ hl
  have h0 : IntOp.cmpi .slt (safe (Cert.Xent.nextLabel lab b s)) 0#32 = 0#1 :=
    eq_zero_of_ne_one fun hc => by
      have := (StableHlo.Predicate.slt_iff_toNat (by omega) (by decide)).1 hc
      simp at this
  rw [h0, select_zero]

/-! ### The gather: in range, and reading the log-probability at the safe index -/

/-- The shape fact of the and-reduction over the size-one last axis, in the form that names the inserted coordinate. -/
theorem red_unit : S8188x1x1.Reduces [2] S8188x1 := by decide

theorem red_unit_lift (n : Fin 8188) (k : Fin 1) : red_unit.lift (ix2 n (0 : Fin 1)) k = ix3 n (0 : Fin 1) (0 : Fin 1) := by
  funext a
  apply Fin.ext
  match a with
  | ⟨0, _⟩ => rfl
  | ⟨1, _⟩ => rfl
  | ⟨2, _⟩ => show k.val = 0; omega

/-- The in-range bit of a row's gather is set: the safe index lies in `[0, 31999]`. -/
theorem inrange_apply (lab : S4x2048.Idx → BitVec 32) (b : Fin 4) (s : Fin 2047)
    (hl : (Cert.Xent.nextLabel lab b s).toNat < 32000 ∨ Cert.Xent.nextLabel lab b s = Cert.Xent.ignoreWord) :
    val_main_call2_v12 (F := Ideal) lab (ix2 (row b s) (0 : Fin 1)) = 1#1 := by
  unfold val_main_call2_v12
  rw [Host.reduce_eq_fold_single IntOp.andi _ _ reducesTo_S8188x1x1_S8188x1_d2 red_unit h_S_]
  show Finset.fold IntOp.andi (val_main_call2_c_3 (F := Ideal) (Shape.Idx.first h_S_))
    (fun k : Fin 1 => val_main_call2_v11 (F := Ideal) lab (red_unit.lift (ix2 (row b s) (0 : Fin 1)) k))
    (Finset.univ : Finset (Fin 1)) = 1#1
  rw [Finset.univ_unique, Finset.fold_singleton, IntOp.andi_eq_one]
  refine ⟨?_, rfl⟩
  have hlt := safe_lt _ hl
  rw [red_unit_lift, val_main_call2_v11_apply, IntOp.andi_eq_one, val_main_call2_v7_apply, val_main_call2_v10_apply,
    gidx_apply lab b s hl, val_main_call2_v6_apply, val_main_call2_c_2_apply, val_main_call2_v9_apply,
    val_main_call2_v8_apply, val_main_call2_c_1_apply]
  exact ⟨(StableHlo.Predicate.sge_iff_toNat (by omega) (by decide)).2 (Nat.zero_le _),
    (StableHlo.Predicate.sle_iff_toNat (by omega) (by decide)).2 (by
      show (safe (Cert.Xent.nextLabel lab b s)).toNat ≤ 31999
      omega)⟩

/-- The gather at a row reads the row's log-probabilities at the safe index. -/
theorem gather_apply (h : S4x2048x2048.Idx → EReal) (w : S32000x2048.Idx → EReal) (lab : S4x2048.Idx → BitVec 32)
    (b : Fin 4) (s : Fin 2047)
    (hl : (Cert.Xent.nextLabel lab b s).toNat < 32000 ∨ Cert.Xent.nextLabel lab b s = Cert.Xent.ignoreWord) :
    val_main_call2_v13 (F := Ideal) h w lab (ix2 (row b s) (0 : Fin 1))
      = val_main_v5 (F := Ideal) h w (ix2 (row b s) (⟨(safe (Cert.Xent.nextLabel lab b s)).toNat, safe_lt _ hl⟩ : Fin 32000)) := by
  unfold val_main_call2_v13
  refine (Host.gather_along_axis1 gather_S8188x32000_S8188x1x1_S8188x1_n_1_0_0_1_2_11 rfl rfl rfl rfl rfl rfl
    (val_main_v5 (F := Ideal) h w) (val_main_call2_v5 (F := Ideal) lab) (row b s) (by decide)).trans ?_
  refine congrArg (val_main_v5 (F := Ideal) h w) (funext fun a => Fin.ext ?_)
  have hlt := safe_lt _ hl
  match a with
  | ⟨0, _⟩ => rfl
  | ⟨1, _⟩ =>
    show min (val_main_call2_v5 (F := Ideal) lab (ix3 (row b s) (0 : Fin 1) (0 : Fin 1))).toInt.toNat (32000 - 1)
      = (safe (Cert.Xent.nextLabel lab b s)).toNat
    rw [gidx_apply lab b s hl, StableHlo.Predicate.toInt_eq_toNat_of_lt (by omega), Int.toNat_natCast]
    omega

/-! ### Real logits, and a row's term -/

/-- A finite sum of real numbers is a real number. -/
theorem sum_real {ι : Type*} (t : Finset ι) (f : ι → EReal) (hf : ∀ i ∈ t, ∃ r : ℝ, f i = (r : EReal)) :
    ∃ r : ℝ, ∑ i ∈ t, f i = (r : EReal) := by
  classical
  induction t using Finset.induction_on with
  | empty => exact ⟨0, by simp⟩
  | insert a t ha ih =>
    obtain ⟨r1, h1⟩ := hf a (Finset.mem_insert_self a t)
    obtain ⟨r2, h2⟩ := ih fun i hi => hf i (Finset.mem_insert_of_mem hi)
    exact ⟨r1 + r2, by rw [Finset.sum_insert ha, h1, h2, EReal.coe_add]⟩

/-- Over real inputs every logit is a real number: a finite sum of products of reals. -/
theorem rowX_real (h : S4x2048x2048.Idx → EReal) (w : S32000x2048.Idx → EReal)
    (hh : ∀ i, ∃ r : ℝ, h i = (r : EReal)) (hw : ∀ i, ∃ r : ℝ, w i = (r : EReal))
    (b : Fin 4) (s : Fin 2048) (v : ℕ) (hv : v < 32000) : ∃ r : ℝ, Cert.Xent.rowX h w b s v = (r : EReal) := by
  unfold Cert.Xent.rowX
  rw [dif_pos hv]
  apply sum_real
  intro k _
  obtain ⟨r1, h1⟩ := hh (ix3 b s k)
  obtain ⟨r2, h2⟩ := hw (ix2 (⟨v, hv⟩ : Fin 32000) k)
  exact ⟨r1 * r2, by rw [h1, h2, EReal.coe_mul]⟩

theorem idx11_eq (n : Fin 8188) : idx_main_v11 (ix1 n) = ix2 n (0 : Fin 1) := by
  funext a
  apply Fin.ext
  match a with
  | ⟨0, _⟩ => show n.val / 1 = n.val; omega
  | ⟨1, _⟩ => rfl

/-- A row's term: the specification's, the negated log-probability of the labelled column or zero for an ignored row. -/
theorem term_apply (h : S4x2048x2048.Idx → EReal) (w : S32000x2048.Idx → EReal) (lab : S4x2048.Idx → BitVec 32)
    (hadm : Cert.Xent.Admissible h w lab) (b : Fin 4) (s : Fin 2047) :
    val_main_v13 (F := Ideal) h w lab (ix1 (row b s))
      = Cert.Xent.rowNll (Cert.Xent.rowX h w b s.castSucc) (Cert.Xent.nextLabel lab b s) := by
  have hl : (Cert.Xent.nextLabel lab b s).toNat < 32000 ∨ Cert.Xent.nextLabel lab b s = Cert.Xent.ignoreWord :=
    hadm.lab_ok (ix2 b s.succ)
  rw [val_main_v13_apply, valid_apply, val_main_call3_v1_apply, val_main_call3_v0_apply, val_main_cst_apply,
    Ideal.ofBits_def, Ideal.ofBits_zero_f32]
  unfold Cert.Xent.rowNll
  by_cases e : Cert.Xent.nextLabel lab b s = Cert.Xent.ignoreWord
  · rw [if_pos e, if_pos e, select_zero]
  · have hlt : (Cert.Xent.nextLabel lab b s).toNat < 32000 := hl.resolve_right e
    have hs : safe (Cert.Xent.nextLabel lab b s) = Cert.Xent.nextLabel lab b s := if_neg e
    rw [if_neg e, if_neg e, select_one, val_main_v12_apply, val_main_v11_apply, idx11_eq, val_main_v10_apply,
      inrange_apply lab b s hl, select_one, gather_apply h w lab b s hl, logp_apply, Ideal.hostNegf_def, Ideal.negf_def,
      Cert.Xent.runTgt_of_lt _ _ _ hlt]
    dsimp only
    rw [hs]
    obtain ⟨a, ha⟩ := rowX_real h w hadm.h_real hadm.w_real b s.castSucc _ hlt
    obtain ⟨M, hM⟩ := Cert.Xent.runMax_real (Cert.Xent.rowX h w b s.castSucc) 32000 (by norm_num)
      (fun v hv => rowX_real h w hadm.h_real hadm.w_real b s.castSucc v hv)
    rw [ha, hM]
    exact (Cert.Xent.nll_forms a M _).symm

/-! ### The two totals, re-indexed by `(b, s)` -/

/-- The rows of the flattened arrays are the pairs `(b, s)`, `b < 4`, `s < 2047`, in row-major order. -/
def rowEquiv : Fin 4 × Fin 2047 ≃ S8188.Idx where
  toFun p := ix1 (row p.1 p.2)
  invFun j := (⟨(j 0).val / 2047, by have h0 : (j 0).val < 8188 := (j 0).isLt; omega⟩,
    ⟨(j 0).val % 2047, Nat.mod_lt _ (by norm_num)⟩)
  left_inv p := by
    obtain ⟨b, s⟩ := p
    have hb := b.isLt
    have hs := s.isLt
    apply Prod.ext <;> apply Fin.ext
    · show (2047 * b.val + s.val) / 2047 = b.val; omega
    · show (2047 * b.val + s.val) % 2047 = s.val; omega
  right_inv j := by
    funext a
    apply Fin.ext
    match a with
    | ⟨0, _⟩ => show 2047 * ((j 0).val / 2047) + (j 0).val % 2047 = (j 0).val; omega

/-- A sum over the 8188 rows is the double sum over `(b, s)`. -/
theorem sum_rows {M : Type*} [AddCommMonoid M] (f : S8188.Idx → M) :
    ∑ j : S8188.Idx, f j = ∑ b : Fin 4, ∑ s : Fin 2047, f (ix1 (row b s)) := by
  rw [← Equiv.sum_comp rowEquiv f, Fintype.sum_prod_type]
  rfl

/-- The sum of the rows' terms is the specification's total. -/
theorem total_apply (h : S4x2048x2048.Idx → EReal) (w : S32000x2048.Idx → EReal) (lab : S4x2048.Idx → BitVec 32)
    (hadm : Cert.Xent.Admissible h w lab) :
    ∑ j : S8188.Idx, val_main_v13 (F := Ideal) h w lab j = Cert.Xent.total h w lab := by
  rw [sum_rows]
  unfold Cert.Xent.total
  exact Finset.sum_congr rfl fun b _ => Finset.sum_congr rfl fun s _ => term_apply h w lab hadm b s

/-- The number of valid rows, added up as 32-bit words, is the specification's count. -/
theorem count_apply (lab : S4x2048.Idx → BitVec 32) :
    val_main_v15 (F := Ideal) lab ix0 = Cert.Xent.count lab := by
  unfold val_main_v15
  rw [Host.reduce_eq_fold, Finset.filter_true_of_mem (fun i _ => funext fun a => a.elim0), val_main_c_1_apply]
  show Finset.fold (fun x y : BitVec 32 => x + y) 0 (val_main_v14 (F := Ideal) lab) Finset.univ = _
  rw [← Finset.sum_eq_fold, sum_rows]
  unfold Cert.Xent.count
  refine Finset.sum_congr rfl fun b _ => Finset.sum_congr rfl fun s _ => ?_
  rw [val_main_v14_apply, valid_apply]
  by_cases e : Cert.Xent.nextLabel lab b s = Cert.Xent.ignoreWord
  · rw [if_pos e, if_pos e]; rfl
  · rw [if_neg e, if_neg e]; rfl

/-! ### The result -/

/-- Over admissible inputs the reference program's result is the specification's loss. -/
theorem ref_eq (h : Cert.ReferenceIdeal.S4x2048x2048.Idx → EReal) (w : Cert.ReferenceIdeal.S32000x2048.Idx → EReal)
    (lab : Cert.ReferenceIdeal.S4x2048.Idx → BitVec 32) (hadm : Cert.Xent.Admissible h w lab) :
    Cert.ReferenceIdeal.Read.val_main_v19 (F := Ideal) h w lab = fun _ => Cert.Xent.loss h w lab := by
  funext i
  rw [val_main_v19_apply, val_main_v17_apply, val_main_v18_apply, val_main_v16_apply, val_main_cst_3_apply,
    val_main_c_2_apply, Ideal.ofBits_def, Ideal.ofBits_zero_f32, total_apply h w lab hadm, eq_ix0 i, count_apply,
    Ideal.hostDivf_def]
  rfl

end Cert.Xent.Ref

end
-- ==== Proof.RefOps.lean ====
/- The reference program's 65 host operations in program order, respelt with plain operations (an inlined module-local
   function's operation on typed references becomes the plain operation on the same buffers, its function ascribed at the
   buffers' literal types), and the per-operation tuple that every operation's buffers are TensorCore references.
   Tables only: the equation `main c = seq ops'` and the run are proved in proof/Proof/RefRunPlain.lean. -/
import proofs.«405030_j56942676410880_3_alg».proof.Proof.Gen.ReferenceIdeal
import Idealize.ShloMosaic.Lib.StableHlo.Run

noncomputable section

namespace Cert.ReferenceIdeal.Plain

open Cert.ReferenceIdeal Cert.ReferenceIdeal.Gen Idealize.ShloMosaic Idealize.ShloMosaic.TcCoe Idealize.SL.Sem Idealize.ShloMosaic.StableHlo

variable {F : FTy → Type} [FloatOps F]

abbrev ops' : List (HloOp τ sig (Elt F)) :=
  [ unary main_arg0 main_v0 ((extractStridedSlice S4x2047x2048 ![0, 0, 0] · slices_S4x2048x2048_S4x2047x2048_0_0_0) : (⟨S4x2048x2048, .f32⟩ : BufTy).Contents (Elt F) → (⟨S4x2047x2048, .f32⟩ : BufTy).Contents (Elt F)),
    unary main_arg2 main_v1 ((extractStridedSlice S4x2047 ![0, 1] · slices_S4x2048_S4x2047_0_1) : (⟨S4x2048, .i32⟩ : BufTy).Contents (Elt F) → (⟨S4x2047, .i32⟩ : BufTy).Contents (Elt F)),
    reshape main_v0 main_v2 rfl shapeCasts_S4x2047x2048_S8188x2048,
    reshape main_v1 main_v3 rfl shapeCasts_S4x2047_S8188,
    binary main_v2 main_arg1 main_v4 ((fun l r => Host.dotGeneral dot_S8188x2048_S32000x2048_S8188x32000_1_1_0_0_n_n none l r) : (⟨S8188x2048, .f32⟩ : BufTy).Contents (Elt F) → (⟨S32000x2048, .f32⟩ : BufTy).Contents (Elt F) → (⟨S8188x32000, .f32⟩ : BufTy).Contents (Elt F)),
    nullary main_call0_cst ((constant S_ .f32 0xFF800000#32) : (⟨S_, .f32⟩ : BufTy).Contents (Elt F)),
    binary main_v4 main_call0_cst main_call0_v0 ((fun x v => Host.reduce FloatOps.maximumf x v reducesTo_S8188x32000_S8188_d1 h_S_) : (⟨S8188x32000, .f32⟩ : BufTy).Contents (Elt F) → (⟨S_, .f32⟩ : BufTy).Contents (Elt F) → (⟨S8188, .f32⟩ : BufTy).Contents (Elt F)),
    nullary main_call0_cst_0 ((constant S_ .f32 0xFF800000#32) : (⟨S_, .f32⟩ : BufTy).Contents (Elt F)),
    unary main_call0_cst_0 main_call0_v1 ((broadcastInDim S8188 ![] bcast_S_S8188) : (⟨S_, .f32⟩ : BufTy).Contents (Elt F) → (⟨S8188, .f32⟩ : BufTy).Contents (Elt F)),
    binary main_call0_v1 main_call0_v0 main_call0_v2 (maximumf : (⟨S8188, .f32⟩ : BufTy).Contents (Elt F) → (⟨S8188, .f32⟩ : BufTy).Contents (Elt F) → (⟨S8188, .f32⟩ : BufTy).Contents (Elt F)),
    unary main_call0_v2 main_call0_v3 ((broadcastInDim S8188x1 ![0] bcast_S8188_S8188x1_0) : (⟨S8188, .f32⟩ : BufTy).Contents (Elt F) → (⟨S8188x1, .f32⟩ : BufTy).Contents (Elt F)),
    unary main_call0_v3 main_call0_v4 ((broadcastInDim S8188x32000 ![0, 1] bcast_S8188x1_S8188x32000_0_1) : (⟨S8188x1, .f32⟩ : BufTy).Contents (Elt F) → (⟨S8188x32000, .f32⟩ : BufTy).Contents (Elt F)),
    binary main_v4 main_call0_v4 main_call0_v5 (subf : (⟨S8188x32000, .f32⟩ : BufTy).Contents (Elt F) → (⟨S8188x32000, .f32⟩ : BufTy).Contents (Elt F) → (⟨S8188x32000, .f32⟩ : BufTy).Contents (Elt F)),
    unary main_call0_v5 main_call0_v6 (Host.exp : (⟨S8188x32000, .f32⟩ : BufTy).Contents (Elt F) → (⟨S8188x32000, .f32⟩ : BufTy).Contents (Elt F)),
    nullary main_call0_cst_1 ((constant S_ .f32 0x00000000#32) : (⟨S_, .f32⟩ : BufTy).Contents (Elt F)),
    binary main_call0_v6 main_call0_cst_1 main_call0_v7 ((fun x v => Host.reduceAdd x v reducesTo_S8188x32000_S8188_d1 h_S_) : (⟨S8188x32000, .f32⟩ : BufTy).Contents (Elt F) → (⟨S_, .f32⟩ : BufTy).Contents (Elt F) → (⟨S8188, .f32⟩ : BufTy).Contents (Elt F)),
    unary main_call0_v7 main_call0_v8 ((broadcastInDim S8188x1 ![0] bcast_S8188_S8188x1_0) : (⟨S8188, .f32⟩ : BufTy).Contents (Elt F) → (⟨S8188x1, .f32⟩ : BufTy).Contents (Elt F)),
    unary main_call0_v8 main_call0_v9 (Host.log : (⟨S8188x1, .f32⟩ : BufTy).Contents (Elt F) → (⟨S8188x1, .f32⟩ : BufTy).Contents (Elt F)),
    unary main_call0_v9 main_call0_v10 ((broadcastInDim S8188x32000 ![0, 1] bcast_S8188x1_S8188x32000_0_1) : (⟨S8188x1, .f32⟩ : BufTy).Contents (Elt F) → (⟨S8188x32000, .f32⟩ : BufTy).Contents (Elt F)),
    binary main_call0_v5 main_call0_v10 main_v5 (subf : (⟨S8188x32000, .f32⟩ : BufTy).Contents (Elt F) → (⟨S8188x32000, .f32⟩ : BufTy).Contents (Elt F) → (⟨S8188x32000, .f32⟩ : BufTy).Contents (Elt F)),
    nullary main_c (constantI S_ 32 4294967196#32),
    unary main_c main_v6 (broadcastInDim S8188 ![] bcast_S_S8188 : (⟨S_, .i32⟩ : BufTy).Contents (Elt F) → (⟨S8188, .i32⟩ : BufTy).Contents (Elt F)),
    binary main_v3 main_v6 main_v7 (cmpi .ne : (⟨S8188, .i32⟩ : BufTy).Contents (Elt F) → (⟨S8188, .i32⟩ : BufTy).Contents (Elt F) → (⟨S8188, .i1⟩ : BufTy).Contents (Elt F)),
    nullary main_c_0 (constantI S_ 32 0#32),
    unary main_c_0 main_call1_v0 (id : (⟨S_, .i32⟩ : BufTy).Contents (Elt F) → (⟨S_, .i32⟩ : BufTy).Contents (Elt F)),
    unary main_call1_v0 main_call1_v1 ((broadcastInDim S8188 ![] bcast_S_S8188) : (⟨S_, .i32⟩ : BufTy).Contents (Elt F) → (⟨S8188, .i32⟩ : BufTy).Contents (Elt F)),
    ternary main_v7 main_v3 main_call1_v1 main_v8 (select : (⟨S8188, .i1⟩ : BufTy).Contents (Elt F) → (⟨S8188, .i32⟩ : BufTy).Contents (Elt F) → (⟨S8188, .i32⟩ : BufTy).Contents (Elt F) → (⟨S8188, .i32⟩ : BufTy).Contents (Elt F)),
    unary main_v8 main_v9 (broadcastInDim S8188x1 ![0] bcast_S8188_S8188x1_0 : (⟨S8188, .i32⟩ : BufTy).Contents (Elt F) → (⟨S8188x1, .i32⟩ : BufTy).Contents (Elt F)),
    nullary main_call2_c ((constantI S_ 32 0#32) : (⟨S_, .i32⟩ : BufTy).Contents (Elt F)),
    unary main_call2_c main_call2_v0 ((broadcastInDim S8188x1 ![] bcast_S_S8188x1) : (⟨S_, .i32⟩ : BufTy).Contents (Elt F) → (⟨S8188x1, .i32⟩ : BufTy).Contents (Elt F)),
    binary main_v9 main_call2_v0 main_call2_v1 ((cmpi .slt) : (⟨S8188x1, .i32⟩ : BufTy).Contents (Elt F) → (⟨S8188x1, .i32⟩ : BufTy).Contents (Elt F) → (⟨S8188x1, .i1⟩ : BufTy).Contents (Elt F)),
    nullary main_call2_c_0 ((constantI S_ 32 32000#32) : (⟨S_, .i32⟩ : BufTy).Contents (Elt F)),
    unary main_call2_c_0 main_call2_v2 ((broadcastInDim S8188x1 ![] bcast_S_S8188x1) : (⟨S_, .i32⟩ : BufTy).Contents (Elt F) → (⟨S8188x1, .i32⟩ : BufTy).Contents (Elt F)),
    binary main_v9 main_call2_v2 main_call2_v3 (addi : (⟨S8188x1, .i32⟩ : BufTy).Contents (Elt F) → (⟨S8188x1, .i32⟩ : BufTy).Contents (Elt F) → (⟨S8188x1, .i32⟩ : BufTy).Contents (Elt F)),
    ternary main_call2_v1 main_call2_v3 main_v9 main_call2_v4 (select : (⟨S8188x1, .i1⟩ : BufTy).Contents (Elt F) → (⟨S8188x1, .i32⟩ : BufTy).Contents (Elt F) → (⟨S8188x1, .i32⟩ : BufTy).Contents (Elt F) → (⟨S8188x1, .i32⟩ : BufTy).Contents (Elt F)),
    reshape main_call2_v4 main_call2_v5 rfl shapeCasts_S8188x1_S8188x1x1,
    nullary main_call2_c_1 ((constantI S1 32 31999#32) : (⟨S1, .i32⟩ : BufTy).Contents (Elt F)),
    nullary main_call2_c_2 ((constantI S_ 32 0#32) : (⟨S_, .i32⟩ : BufTy).Contents (Elt F)),
    unary main_call2_c_2 main_call2_v6 ((broadcastInDim S8188x1x1 ![] bcast_S_S8188x1x1) : (⟨S_, .i32⟩ : BufTy).Contents (Elt F) → (⟨S8188x1x1, .i32⟩ : BufTy).Contents (Elt F)),
    binary main_call2_v5 main_call2_v6 main_call2_v7 ((cmpi .sge) : (⟨S8188x1x1, .i32⟩ : BufTy).Contents (Elt F) → (⟨S8188x1x1, .i32⟩ : BufTy).Contents (Elt F) → (⟨S8188x1x1, .i1⟩ : BufTy).Contents (Elt F)),
    unary main_call2_c_1 main_call2_v8 ((broadcastInDim S1x1x1 ![2] bcast_S1_S1x1x1_2) : (⟨S1, .i32⟩ : BufTy).Contents (Elt F) → (⟨S1x1x1, .i32⟩ : BufTy).Contents (Elt F)),
    unary main_call2_v8 main_call2_v9 ((broadcastInDim S8188x1x1 ![0, 1, 2] bcast_S1x1x1_S8188x1x1_0_1_2) : (⟨S1x1x1, .i32⟩ : BufTy).Contents (Elt F) → (⟨S8188x1x1, .i32⟩ : BufTy).Contents (Elt F)),
    binary main_call2_v5 main_call2_v9 main_call2_v10 ((cmpi .sle) : (⟨S8188x1x1, .i32⟩ : BufTy).Contents (Elt F) → (⟨S8188x1x1, .i32⟩ : BufTy).Contents (Elt F) → (⟨S8188x1x1, .i1⟩ : BufTy).Contents (Elt F)),
    binary main_call2_v7 main_call2_v10 main_call2_v11 (andi : (⟨S8188x1x1, .i1⟩ : BufTy).Contents (Elt F) → (⟨S8188x1x1, .i1⟩ : BufTy).Contents (Elt F) → (⟨S8188x1x1, .i1⟩ : BufTy).Contents (Elt F)),
    nullary main_call2_c_3 ((constantI S_ 1 1#1) : (⟨S_, .i1⟩ : BufTy).Contents (Elt F)),
    binary main_call2_v11 main_call2_c_3 main_call2_v12 ((fun x v => Host.reduce IntOp.andi x v reducesTo_S8188x1x1_S8188x1_d2 h_S_) : (⟨S8188x1x1, .i1⟩ : BufTy).Contents (Elt F) → (⟨S_, .i1⟩ : BufTy).Contents (Elt F) → (⟨S8188x1, .i1⟩ : BufTy).Contents (Elt F)),
    binary main_v5 main_call2_v5 main_call2_v13 ((fun x i => Host.gather gather_S8188x32000_S8188x1x1_S8188x1_n_1_0_0_1_2_11 x i) : (⟨S8188x32000, .f32⟩ : BufTy).Contents (Elt F) → (⟨S8188x1x1, .i32⟩ : BufTy).Contents (Elt F) → (⟨S8188x1, .f32⟩ : BufTy).Contents (Elt F)),
    nullary main_call2_cst ((constant S_ .f32 0x7FC00000#32) : (⟨S_, .f32⟩ : BufTy).Contents (Elt F)),
    unary main_call2_cst main_call2_v14 ((broadcastInDim S8188x1 ![] bcast_S_S8188x1) : (⟨S_, .f32⟩ : BufTy).Contents (Elt F) → (⟨S8188x1, .f32⟩ : BufTy).Contents (Elt F)),
    ternary main_call2_v12 main_call2_v13 main_call2_v14 main_v10 (select : (⟨S8188x1, .i1⟩ : BufTy).Contents (Elt F) → (⟨S8188x1, .f32⟩ : BufTy).Contents (Elt F) → (⟨S8188x1, .f32⟩ : BufTy).Contents (Elt F) → (⟨S8188x1, .f32⟩ : BufTy).Contents (Elt F)),
    reshape main_v10 main_v11 rfl shapeCasts_S8188x1_S8188,
    unary main_v11 main_v12 (Host.negf : (⟨S8188, .f32⟩ : BufTy).Contents (Elt F) → (⟨S8188, .f32⟩ : BufTy).Contents (Elt F)),
    nullary main_cst (constant S_ .f32 0x00000000#32),
    unary main_cst main_call3_v0 (id : (⟨S_, .f32⟩ : BufTy).Contents (Elt F) → (⟨S_, .f32⟩ : BufTy).Contents (Elt F)),
    unary main_call3_v0 main_call3_v1 ((broadcastInDim S8188 ![] bcast_S_S8188) : (⟨S_, .f32⟩ : BufTy).Contents (Elt F) → (⟨S8188, .f32⟩ : BufTy).Contents (Elt F)),
    ternary main_v7 main_v12 main_call3_v1 main_v13 (select : (⟨S8188, .i1⟩ : BufTy).Contents (Elt F) → (⟨S8188, .f32⟩ : BufTy).Contents (Elt F) → (⟨S8188, .f32⟩ : BufTy).Contents (Elt F) → (⟨S8188, .f32⟩ : BufTy).Contents (Elt F)),
    unary main_v7 main_v14 ((extui 32 · natLt_1_32) : (⟨S8188, .i1⟩ : BufTy).Contents (Elt F) → (⟨S8188, .i32⟩ : BufTy).Contents (Elt F)),
    nullary main_c_1 (constantI S_ 32 0#32),
    binary main_v14 main_c_1 main_v15 ((fun x v => Host.reduce IntOp.addi x v reducesTo_S8188_S_d0 h_S_) : (⟨S8188, .i32⟩ : BufTy).Contents (Elt F) → (⟨S_, .i32⟩ : BufTy).Contents (Elt F) → (⟨S_, .i32⟩ : BufTy).Contents (Elt F)),
    nullary main_c_2 (constantI S_ 32 1#32),
    binary main_v15 main_c_2 main_v16 (maxsi : (⟨S_, .i32⟩ : BufTy).Contents (Elt F) → (⟨S_, .i32⟩ : BufTy).Contents (Elt F) → (⟨S_, .i32⟩ : BufTy).Contents (Elt F)),
    nullary main_cst_3 (constant S_ .f32 0x00000000#32),
    binary main_v13 main_cst_3 main_v17 ((fun x v => Host.reduceAdd x v reducesTo_S8188_S_d0 h_S_) : (⟨S8188, .f32⟩ : BufTy).Contents (Elt F) → (⟨S_, .f32⟩ : BufTy).Contents (Elt F) → (⟨S_, .f32⟩ : BufTy).Contents (Elt F)),
    unary main_v16 main_v18 (sitofp .f32 : (⟨S_, .i32⟩ : BufTy).Contents (Elt F) → (⟨S_, .f32⟩ : BufTy).Contents (Elt F)),
    binary main_v17 main_v18 main_v19 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
set_option maxRecDepth 8192 in
theorem ops'_sub : (ops' : List (HloOp τ sig (Elt F))).Forall fun op => op.bufs ⊆ tcRefs τ sig :=
  ⟨unary_bufs_sub .., unary_bufs_sub .., reshape_bufs_sub .., reshape_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., unary_bufs_sub .., unary_bufs_sub .., ternary_bufs_sub .., unary_bufs_sub .., nullary_bufs_sub .., binary_bufs_sub .., nullary_bufs_sub .., binary_bufs_sub .., nullary_bufs_sub .., binary_bufs_sub .., unary_bufs_sub .., binary_bufs_sub ..⟩

end Cert.ReferenceIdeal.Plain

end
-- ==== Proof.RefRunPlain.lean ====
/-
  The reference program's run.

  The program is a straight line of 65 host operations: the last-position slice and the flattening of the hidden
  states, the product with the weight, the row-wise log-softmax (maximum, shift, exponential, sum, logarithm, shift),
  the label handling (the ignore mask, the safe index, the index normalisation and range test of the gather), the
  gathered log-probability negated and masked, the count of counted rows, the sum and the quotient. Every weakly fair
  execution runs the operations in order, so each buffer ends at the composition of the operations that wrote it,
  applied to the launched arguments; the result buffer's composition is, definition by definition, the last stage of
  the program read one operation at a time, and no operation writes an argument buffer.

  The operations inside the program's module-local functions are spelt in the printed program over typed references,
  which transport every operand and result along the equation "this buffer has this type". The list `ops'` spells the
  same operations on the same buffers plainly; the two spellings are one program because each transport is along an
  equation between equal types.
-/
import proofs.«405030_j56942676410880_3_alg».proof.Proof.RefOps
import proofs.«405030_j56942676410880_3_alg».proof.Proof.RefRead
import Idealize.ShloMosaic.Lib.StableHlo.Run
import Idealize.ShloMosaic.Lib.Pipeline.Regions

noncomputable section

namespace Cert.ReferenceIdeal.Plain

open Cert.ReferenceIdeal Cert.ReferenceIdeal.Gen Idealize.ShloMosaic Idealize.ShloMosaic.TcCoe Idealize.SL.Sem Idealize.ShloMosaic.StableHlo

variable {F : FTy → Type} [FloatOps F]

/-- The printed program is the sequence of the plainly spelt operations. -/
theorem main_eq' (c : Dev nD) : main (F := F) c = seq ops' := by
  chain_rfl

/-- The program has no scoped buffer and no scoped semaphore. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
set_option maxHeartbeats 26000000 in
/-- On every device, from any memory with zero counters: every weakly fair execution of the reference terminates with
    its result buffer at the last stage of the program read one operation at a time, a function of the three launched
    arguments, and with the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19)
          = Cert.ReferenceIdeal.Read.val_main_v19 (F := F) (m ((c.tc : Thread nD τ).loc main_arg0))
              (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v19).trans (by after_results_simp <;> rfl),
      (h c main_arg0).trans (by after_results_simp <;> rfl),
      (h c main_arg1).trans (by after_results_simp <;> rfl),
      (h c main_arg2).trans (by after_results_simp <;> rfl)⟩)
    (run_seq scopedRefs_eq scopedSems_eq defs main (fun _ => ops') main_eq' (fun _ => ops'_sub) m ρ)

end Cert.ReferenceIdeal.Plain

end
-- ==== Proof.PreFacts.lean ====
/-
  What the printed precondition says of the three argument arrays.

  The precondition is one bit: the conjunction of three "for all" statements, each printed as an and-reduction of a
  bit array over all of its axes starting from the bit 1. When that one bit is 1, each of the three reductions is 1,
  and a reduction by "and" that came out 1 met only 1s: every element of each bit array is 1.

  * For the two float arrays the element bit is the comparison |x| < +inf, where |x| is max x (-x) over the extended
    reals and the word 0x7F800000 reads as the top element. An extended real whose absolute value is below the top
    element is neither the top nor the bottom element: it is a real number.
  * For the label array the element bit is (0 <= l and l < 32000, both read signed) or (l = -100). A 32-bit word that
    is nonnegative when read signed has the same signed and unsigned value, so in the first case its unsigned value is
    below 32000; in the second case the word is the ignore word.
-/
import proofs.«405030_j56942676410880_3_alg».proof.Pre_finite_inputs
import proofs.«405030_j56942676410880_3_alg».proof.Proof.Gen.Pre_finite_inputs
import proofs.«405030_j56942676410880_3_alg».proof.Proof.Spec
import Idealize.ShloMosaic.Lib.ReduceAll
import Idealize.ShloMosaic.Lib.StableHlo.Predicate
import Idealize.ShloMosaic.Lib.ValueIdx

namespace Cert.Xent.Pre

open Idealize.ShloMosaic

/-- The shape with no axes has exactly one index. -/
instance : Subsingleton Cert.Pre_finite_inputs.S_.Idx := ⟨fun a b => funext fun d => d.elim0⟩

/-- The word 0x7F800000 reads as the top element of the extended reals. -/
theorem ofBits_inf : Ideal.ofBits .f32 0x7F800000#32 = (⊤ : EReal) := by simp [Ideal.ofBits, Ideal.ieee]

/-- An extended real whose absolute value compares below +inf is a real number. -/
theorem real_of_abs_lt_inf (x : EReal)
    (e : Ideal.cmp .olt (max x (-x)) (Ideal.ofBits .f32 0x7F800000#32) = 1#1) : ∃ r : ℝ, x = (r : EReal) := by
  rw [ofBits_inf] at e
  unfold Ideal.cmp at e
  rw [StableHlo.Predicate.ofBool_eq_one_iff, decide_eq_true_eq] at e
  induction x using EReal.rec with
  | bot => simp at e
  | coe r => exact ⟨r, rfl⟩
  | top => simp at e

/-- A 32-bit word in [0, 32000) when read signed is below 32000 when read unsigned. -/
theorem toNat_lt_of_signed_range (x : BitVec 32) (h0 : IntOp.cmpi .sge x 0#32 = 1#1)
    (h1 : IntOp.cmpi .slt x 32000#32 = 1#1) : x.toNat < 32000 := by
  rw [IntOp.cmpi_sge] at h0
  rw [IntOp.cmpi_slt] at h1
  have e0 : (0#32 : BitVec 32).toInt = 0 := by decide
  have e1 : (32000#32 : BitVec 32).toInt = 32000 := by decide
  rw [e0] at h0
  rw [e1] at h1
  have hx := x.isLt
  rw [BitVec.toInt_eq_toNat_cond] at h0 h1
  split at h0 <;> omega

/-- From the printed precondition: both float arrays hold real numbers, and every label is a column below 32000 or
    the ignore word. -/
theorem admissible_of_pre [Cert.Pre_finite_inputs.Facts]
    (h : Cert.Pre_finite_inputs.S4x2048x2048.Idx → EReal) (w : Cert.Pre_finite_inputs.S32000x2048.Idx → EReal)
    (lab : Cert.Pre_finite_inputs.S4x2048.Idx → BitVec 32)
    (hp : Cert.Pre_finite_inputs.fn (F := Ideal) h w lab = fun _ => 1#1) : Cert.Xent.Admissible h w lab := by
  have h0 := congrFun hp ValueIdx.ix0
  dsimp only [Cert.Pre_finite_inputs.fn, Cert.Pre_finite_inputs.fn_part1] at h0
  -- the one bit is (all of h finite and all of w finite) and all labels admitted
  obtain ⟨hhw, hl⟩ := IntOp.andi_eq_one.1 h0
  obtain ⟨hh, hw⟩ := IntOp.andi_eq_one.1 hhw
  refine ⟨fun i => ?_, fun i => ?_, fun i => ?_⟩
  · exact real_of_abs_lt_inf (h i) (Host.reduce_andi_all _ _ _ _ _ hh i)
  · exact real_of_abs_lt_inf (w i) (Host.reduce_andi_all _ _ _ _ _ hw i)
  · have e := Host.reduce_andi_all _ _ _ _ _ hl i
    rcases IntOp.ori_eq_one.1 e with e | e
    · obtain ⟨ea, eb⟩ := IntOp.andi_eq_one.1 e
      exact Or.inl (toNat_lt_of_signed_range (lab i) ea eb)
    · exact Or.inr (IntOp.cmpi_eq.1 e)

end Cert.Xent.Pre
-- ==== Proof.lean ====
/-
  The certificate of the fused cross-entropy kernel against its jnp reference.

  Both programs compute one function of the hidden states `h`, the weight `w` and the labels: for every row
  `(b, s)`, `s < 2047`, with logits `x v = Σ_k h[b, s, k] · w[v, k]` and label `l` at `(b, s + 1)`, the term
  `−log softmax(x)[l]` (zero when `l` is the ignore word `-100`), summed over the rows and divided by the number of
  counted rows, that number taken as at least one (`Cert.Xent.loss`).
  * The reference takes the row's maximum `M` and `L = Σ_v exp (x v − M)` in one pass and reads the label's column of
    `(x − M) − log L`.
  * The kernel meets the 32000 columns 256 at a time, twenty-five grid points of five sub-chunks per row tile, keeping
    a running maximum, a partition sum rescaled to the running maximum at every sub-chunk, and the labelled logit as a
    maximum over a one-hot selection whose fill is the identity of `max`; at the row tile's last point it stores
    `0 − (x_l − (M + log L))`. Since `exp (M − M') · exp (x − M) = exp (x − M')` on the reals the rescaled partition
    sum is the one-pass `L`, and `0 − (a − (M + c)) = −((a − M) − c)` for real `a`, `M`: the row terms agree.
    The kernel also computes the last position of every sequence with the ignore word as its label: a zero term.
  The precondition says the float inputs are real numbers and every label is a column or the ignore word: the reals
  make the algebra above valid, and a label in range is what the reference's gather reads in range.
-/
import proofs.«405030_j56942676410880_3_alg».proof.Defs
import proofs.«405030_j56942676410880_3_alg».proof.Proof.Gen.Kernel
import proofs.«405030_j56942676410880_3_alg».proof.Proof.Gen.Kernel.Frame
import proofs.«405030_j56942676410880_3_alg».proof.Proof.Gen.KernelIdeal
import proofs.«405030_j56942676410880_3_alg».proof.Proof.Gen.KernelIdeal.Frame
import proofs.«405030_j56942676410880_3_alg».proof.Proof.Gen.ReferenceIdeal
import proofs.«405030_j56942676410880_3_alg».proof.Proof.Gen.Pre_finite_inputs
import proofs.«405030_j56942676410880_3_alg».proof.Proof.KFinal
import proofs.«405030_j56942676410880_3_alg».proof.Proof.RefValue
import proofs.«405030_j56942676410880_3_alg».proof.Proof.RefRunPlain
import proofs.«405030_j56942676410880_3_alg».proof.Proof.PreFacts
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

/-- The reference runs, and its arguments end unchanged: its run with the result dropped. -/
theorem frame_ri : Cert.frame_ReferenceIdeal := fun m ρ _ =>
  (θ_run Cert.ReferenceIdeal.defs _ _).mono (fun _ h c => (h c).2) (Cert.ReferenceIdeal.Plain.run (F := Ideal) m ρ)

/-- The fill the kernel selects against is named the bottom element, the identity of `max`: one statement per site. -/
theorem named_fill : IdealRules.named_const.Statement Cert.KernelIdeal.κ "neg_big" .f32 0xF149F2CA#32 ⊥ :=
  IdealRules.named_const.statement Cert.KernelIdeal.κ "neg_big" .f32 0xF149F2CA#32 ⊥ rfl

theorem preserves : Cert.preserves_Kernel_KernelIdeal :=
  ⟨named_fill, named_fill, named_fill, named_fill, named_fill, named_fill, named_fill⟩

/-- Both runs end at the loss of the kernel's launched arrays. -/
theorem algebraic : Cert.algebraic_KernelIdeal_ReferenceIdeal := by
  intro m ρ m' ρ' hpre hagree
  have hadm : ∀ c : Dev Cert.KernelIdeal.nD, Cert.Xent.Admissible
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) :=
    fun c => Cert.Xent.Pre.admissible_of_pre _ _ _ (hpre c)
  refine ⟨fun c _ => Cert.Xent.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Xent.KRun.kernel_run m ρ (fun c => (hadm c).h_real) (fun c => (hadm c).w_real), ?_⟩
  refine (θ_run Cert.ReferenceIdeal.defs _ _).mono (fun _ h c => ⟨(h c).1.trans ?_, (h c).2⟩)
    (Cert.ReferenceIdeal.Plain.run (F := Ideal) m' ρ')
  rw [(hagree c).1, (hagree c).2.1, (hagree c).2.2]
  exact Cert.Xent.Ref.ref_eq _ _ _ (hadm c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
